-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S32000 : Shape := ⟨1, ![32000]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg2 : IVec S4x1024 32) (main_v28 : IVec S_ 1) (main_v30 : IVec S4x1024 1) (main_v32 : IVec S4x1024 1) (main_c_12 : IVec S_ 32) : IVec S_ 1 :=
  let main_v33 : IVec S4x1024 32 := broadcastInDim S4x1024 ![] bcast_S_S4x1024 main_c_12
  let main_v34 : IVec S4x1024 1 := cmpi .slt main_arg2 main_v33
  let main_v35 : IVec S4x1024 1 := andi main_v32 main_v34
  let main_v36 : IVec S4x1024 1 := ori main_v30 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v28 main_v37
  main_v38

def fn_part1 {F : FTy → Type} [FloatOps F] (main_arg2 : IVec S4x1024 32) (main_arg6 : FVec F S32000x2048 .f32) (main_arg7 : FVec F S32000 .f32) (main_v13 : IVec S_ 1) (main_v16 : IVec S4x1024x2048 1) : IVec S_ 1 :=
  let main_c_5 : IVec S_ 1 := constantI S_ 1 1#1
  let main_v17 : IVec S_ 1 := (fun x v => Host.reduce IntOp.andi x v reducesTo_S4x1024x2048_S_d0_1_2 h_S_) main_v16 main_c_5
  let main_v18 : IVec S_ 1 := andi main_v13 main_v17
  let main_v19 : FVec F S32000x2048 .f32 := Host.absf main_arg6
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  let main_v24 : FVec F S32000 .f32 := Host.absf main_arg7
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 4294967196#32
  let main_v29 : IVec S4x1024 32 := broadcastInDim S4x1024 ![] bcast_S_S4x1024 main_c_10
  let main_v30 : IVec S4x1024 1 := cmpi .eq main_arg2 main_v29
  let main_c_11 : IVec S_ 32 := constantI S_ 32 0#32
  let main_v31 : IVec S4x1024 32 := broadcastInDim S4x1024 ![] bcast_S_S4x1024 main_c_11
  let main_v32 : IVec S4x1024 1 := cmpi .sge main_arg2 main_v31
  let main_c_12 : IVec S_ 32 := constantI S_ 32 32000#32
  fn_part2 (F := F) main_arg2 main_v28 main_v30 main_v32 main_c_12

def fn {F : FTy → Type} [FloatOps F] (main_arg0 : FVec F S4x1024x2048 .f32) (main_arg1 : FVec F S32000x2048 .f32) (main_arg2 : IVec S4x1024 32) (main_arg3 : IVec S4 1) (main_arg4 : FVec F S32000 .f32) (main_arg5 : FVec F S4x1024x2048 .f32) (main_arg6 : FVec F S32000x2048 .f32) (main_arg7 : FVec F S32000 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000 .f32 := Host.absf main_arg4
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S4x1024x2048 .f32 := Host.absf main_arg5
  let main_cst_4 : FVec F S_ .f32 := constant S_ .f32 0x7F800000#32
  let main_v15 : FVec F S4x1024x2048 .f32 := broadcastInDim S4x1024x2048 ![] bcast_S_S4x1024x2048 main_cst_4
  let main_v16 : IVec S4x1024x2048 1 := cmpf .olt main_v14 main_v15
  fn_part1 (F := F) main_arg2 main_arg6 main_arg7 main_v13 main_v16
-- ==== Kernel.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S32000 : Shape := ⟨1, ![32000]⟩
abbrev S_ : Shape := ⟨0, ![]⟩
abbrev S1x4x1024x2048 : Shape := ⟨4, ![1, 4, 1024, 2048]⟩
abbrev S2x4x1024x2048 : Shape := ⟨4, ![2, 4, 1024, 2048]⟩
abbrev S1x32000x2048 : Shape := ⟨3, ![1, 32000, 2048]⟩
abbrev S2x32000x2048 : Shape := ⟨3, ![2, 32000, 2048]⟩
abbrev S1x32000 : Shape := ⟨2, ![1, 32000]⟩
abbrev S1x1x32000 : Shape := ⟨3, ![1, 1, 32000]⟩
abbrev S2x1x32000 : Shape := ⟨3, ![2, 1, 32000]⟩
abbrev S2x4x1024 : Shape := ⟨3, ![2, 4, 1024]⟩
abbrev S1x4x256x2048 : Shape := ⟨4, ![1, 4, 256, 2048]⟩
abbrev S1x1280x2048 : Shape := ⟨3, ![1, 1280, 2048]⟩
abbrev S1x1x1280 : Shape := ⟨3, ![1, 1, 1280]⟩
abbrev S4x256 : Shape := ⟨2, ![4, 256]⟩
abbrev S1x4x256 : Shape := ⟨3, ![1, 4, 256]⟩
abbrev S4x256x2048 : Shape := ⟨3, ![4, 256, 2048]⟩
abbrev S1024x2048 : Shape := ⟨2, ![1024, 2048]⟩
abbrev S1280x2048 : Shape := ⟨2, ![1280, 2048]⟩
abbrev S1024x1280 : Shape := ⟨2, ![1024, 1280]⟩
abbrev S4x256x1280 : Shape := ⟨3, ![4, 256, 1280]⟩
abbrev S1x1280 : Shape := ⟨2, ![1, 1280]⟩
abbrev S4x256x1 : Shape := ⟨3, ![4, 256, 1]⟩
abbrev S1x4x1024 : Shape := ⟨3, ![1, 4, 1024]⟩

abbrev nBuf : Space → Nat
  | .hbm => 97
  | .vmem => 13
  | .smem => 0
  | _ => 0

abbrev bufTy : (tb : Table) → Fin (tcTables nBuf tb) → BufTy
  | .hbm, ⟨0, _⟩ => ⟨S4x1024x2048, .f32⟩
  | .hbm, ⟨1, _⟩ => ⟨S32000x2048, .f32⟩
  | .hbm, ⟨2, _⟩ => ⟨S4x1024, .i32⟩
  | .hbm, ⟨3, _⟩ => ⟨S4, .i1⟩
  | .hbm, ⟨4, _⟩ => ⟨S32000, .f32⟩
  | .hbm, ⟨5, _⟩ => ⟨S4x1024x2048, .f32⟩
  | .hbm, ⟨6, _⟩ => ⟨S32000x2048, .f32⟩
  | .hbm, ⟨7, _⟩ => ⟨S32000, .f32⟩
  | .hbm, ⟨8, _⟩ => ⟨S_, .i32⟩
  | .hbm, ⟨9, _⟩ => ⟨S4x1024, .i32⟩
  | .hbm, ⟨10, _⟩ => ⟨S4x1024, .i1⟩
  | .hbm, ⟨11, _⟩ => ⟨S4x1024, .f32⟩
  | .hbm, ⟨12, _⟩ => ⟨S_, .f32⟩
  | .hbm, ⟨13, _⟩ => ⟨S4, .f32⟩
  | .hbm, ⟨14, _⟩ => ⟨S4x1024x2048, .bf16⟩
  | .hbm, ⟨15, _⟩ => ⟨S4x1024x2048, .bf16⟩
  | .hbm, ⟨16, _⟩ => ⟨S1x4x1024x2048, .bf16⟩
  | .hbm, ⟨17, _⟩ => ⟨S1x4x1024x2048, .bf16⟩
  | .hbm, ⟨18, _⟩ => ⟨S2x4x1024x2048, .bf16⟩
  | .hbm, ⟨19, _⟩ => ⟨S32000x2048, .bf16⟩
  | .hbm, ⟨20, _⟩ => ⟨S32000x2048, .bf16⟩
  | .hbm, ⟨21, _⟩ => ⟨S1x32000x2048, .bf16⟩
  | .hbm, ⟨22, _⟩ => ⟨S1x32000x2048, .bf16⟩
  | .hbm, ⟨23, _⟩ => ⟨S2x32000x2048, .bf16⟩
  | .hbm, ⟨24, _⟩ => ⟨S1x32000, .f32⟩
  | .hbm, ⟨25, _⟩ => ⟨S1x32000, .f32⟩
  | .hbm, ⟨26, _⟩ => ⟨S1x1x32000, .f32⟩
  | .hbm, ⟨27, _⟩ => ⟨S1x1x32000, .f32⟩
  | .hbm, ⟨28, _⟩ => ⟨S2x1x32000, .f32⟩
  | .hbm, ⟨29, _⟩ => ⟨S2x4x1024, .f32⟩
  | .hbm, ⟨30, _⟩ => ⟨S1x4x1024, .f32⟩
  | .hbm, ⟨31, _⟩ => ⟨S4x1024, .f32⟩
  | .hbm, ⟨32, _⟩ => ⟨S1x4x1024, .f32⟩
  | .hbm, ⟨33, _⟩ => ⟨S4x1024, .f32⟩
  | .hbm, ⟨34, _⟩ => ⟨S4x1024, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4x1024, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S_, .f32⟩
  | .hbm, ⟨96, _⟩ => ⟨S_, .f32⟩
  | .local _ .vmem, ⟨0, _⟩ => ⟨S1x4x256x2048, .bf16⟩
  | .local _ .vmem, ⟨1, _⟩ => ⟨S1x4x256x2048, .bf16⟩
  | .local _ .vmem, ⟨2, _⟩ => ⟨S1x1280x2048, .bf16⟩
  | .local _ .vmem, ⟨3, _⟩ => ⟨S1x1280x2048, .bf16⟩
  | .local _ .vmem, ⟨4, _⟩ => ⟨S1x1x1280, .f32⟩
  | .local _ .vmem, ⟨5, _⟩ => ⟨S1x1x1280, .f32⟩
  | .local _ .vmem, ⟨6, _⟩ => ⟨S4x256, .i32⟩
  | .local _ .vmem, ⟨7, _⟩ => ⟨S4x256, .i32⟩
  | .local _ .vmem, ⟨8, _⟩ => ⟨S1x4x256, .f32⟩
  | .local _ .vmem, ⟨9, _⟩ => ⟨S1x4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_call1_v0 : Ref sig .tc := ⟨.hbm, 86, rfl⟩
abbrev main_call1_v1 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_cst_17 : Ref sig .tc := ⟨.hbm, 91, rfl⟩
abbrev main_call2_v0 : Ref sig .tc := ⟨.hbm, 92, rfl⟩
abbrev main_call2_v1 : Ref sig .tc := ⟨.hbm, 93, rfl⟩
abbrev main_v62 : Ref sig .tc := ⟨.hbm, 94, rfl⟩
abbrev main_cst_18 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 25], ![false, false, false]⟩

def k0_cond2 (i : grid0.Coords) : BitVec 1 :=
  let arg2 : BitVec 32 := BitVec.ofNat 32 (i 2).val
  let c24_i32 : BitVec 32 := 24#32
  let v52 : BitVec 1 := Scalar.cmpi .eq arg2 c24_i32
  let v53 : BitVec 32 := Scalar.extui v52
  let c0_i32_30 : BitVec 32 := 0#32
  let v54 : BitVec 1 := Scalar.cmpi .ne v53 c0_i32_30
  v54

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4x1024 : S_.BroadcastsInDim S4x1024 (![] : Fin 0 → Fin S4x1024.rank)
  reducesTo_S4x1024_S4_d1 : S4x1024.ReducesTo [1] S4
  h_S_ : 0 < S_.numel
  bitsLt_bf16_f32 : FTy.bits .bf16 < FTy.bits .f32
  bcast_S4x1024x2048_S1x4x1024x2048_1_2_3 : S4x1024x2048.BroadcastsInDim S1x4x1024x2048 (![1, 2, 3] : Fin 3 → Fin S1x4x1024x2048.rank)
  concatenates_S1x4x1024x2048_S1x4x1024x2048_S2x4x1024x2048_d0 : Shape.Concatenates [S1x4x1024x2048, S1x4x1024x2048] S2x4x1024x2048 0
  bcast_S32000x2048_S1x32000x2048_1_2 : S32000x2048.BroadcastsInDim S1x32000x2048 (![1, 2] : Fin 2 → Fin S1x32000x2048.rank)
  concatenates_S1x32000x2048_S1x32000x2048_S2x32000x2048_d0 : Shape.Concatenates [S1x32000x2048, S1x32000x2048] S2x32000x2048 0
  shapeCasts_S32000_S1x32000 : S32000.ShapeCasts S1x32000
  bcast_S1x32000_S1x1x32000_1_2 : S1x32000.BroadcastsInDim S1x1x32000 (![1, 2] : Fin 2 → Fin S1x1x32000.rank)
  concatenates_S1x1x32000_S1x1x32000_S2x1x32000_d0 : Shape.Concatenates [S1x1x32000, S1x1x32000] S2x1x32000 0
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x4x256x2048_S1x4x256x2048_0_0_0_0 : ∀ a, (![0, 0, 0, 0] : Fin 4 → Nat) a + S1x4x256x2048.size a ≤ S1x4x256x2048.size a
  h_S1x4x256x2048 : 0 < S1x4x256x2048.numel
  shapeCasts_S1x4x256x2048_S4x256x2048 : S1x4x256x2048.ShapeCasts S4x256x2048
  shapeCasts_S4x256x2048_S1024x2048 : S4x256x2048.ShapeCasts S1024x2048
  inb_S1x1280x2048_S1x1280x2048_0_0_0 : ∀ a, (![0, 0, 0] : Fin 3 → Nat) a + S1x1280x2048.size a ≤ S1x1280x2048.size a
  h_S1x1280x2048 : 0 < S1x1280x2048.numel
  shapeCasts_S1x1280x2048_S1280x2048 : S1x1280x2048.ShapeCasts S1280x2048
  shapeCasts_S1024x1280_S4x256x1280 : S1024x1280.ShapeCasts S4x256x1280
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  shapeCasts_S1x1280_S1x1x1280 : S1x1280.ShapeCasts S1x1x1280
  broadcasts_S1x1x1280_S4x256x1280 : S1x1x1280.Broadcasts S4x256x1280
  iota_S1x1x1280_d2_w32 : S1x1x1280.Iotas .tc 32 [2]
  shapeCasts_S4x256_S4x256x1 : S4x256.ShapeCasts S4x256x1
  broadcasts_S4x256x1_S4x256x1280 : S4x256x1.Broadcasts S4x256x1280
  reduces_S4x256x1280_S4x256 : S4x256x1280.Reduces [2] S4x256
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  slices_S2x4x1024_S1x4x1024_0_0_0 : S2x4x1024.Slices ![0, 0, 0] S1x4x1024
  shapeCasts_S1x4x1024_S4x1024 : S1x4x1024.ShapeCasts S4x1024
  slices_S2x4x1024_S1x4x1024_1_0_0 : S2x4x1024.Slices ![1, 0, 0] S1x4x1024
  bcast_S_S4 : S_.BroadcastsInDim S4 (![] : Fin 0 → Fin S4.rank)
  reducesTo_S4_S_d0 : S4.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x2048.size a ≤ S2x4x1024x2048.size a
  hwx0_0 : ∀ i : grid0.Coords, EltTy.bits .bf16 = 32 ∨ (Rect.block (s := S2x4x1024x2048) S1x4x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x2048.size a ≤ S2x32000x2048.size a
  hwx0_1 : ∀ i : grid0.Coords, EltTy.bits .bf16 = 32 ∨ (Rect.block (s := S2x32000x2048) S1x1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1280.size a ≤ S2x1x32000.size a
  hwx0_2 : ∀ i : grid0.Coords, EltTy.bits .f32 = 32 ∨ (Rect.block (s := S2x1x32000) S1x1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x1024.size a
  hwx0_3 : ∀ i : grid0.Coords, EltTy.bits .i32 = 32 ∨ (Rect.block (s := S4x1024) S4x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x256.size a ≤ S2x4x1024.size a
  hwx0_4 : ∀ i : grid0.Coords, EltTy.bits .f32 = 32 ∨ (Rect.block (s := S2x4x1024) S1x4x256.size (cc0_transform_4 i) (hinb0_4 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v8) S1x4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S32000x2048 : Shape := ⟨2, ![32000, 2048]⟩
abbrev S4x1024 : Shape := ⟨2, ![4, 1024]⟩
abbrev S4 : Shape := ⟨1, ![4]⟩
abbrev S32000 : Shape := ⟨1, ![32000]⟩
abbrev S4x1024x32000 : Shape := ⟨3, ![4, 1024, 32000]⟩
abbrev S1x1x32000 : Shape := ⟨3, ![1, 1, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩

abbrev nBuf : Space → Nat
  | .hbm => 181
  | .vmem => 0
  | .smem => 0
  | _ => 0

abbrev hbmTy0_0 (i : Nat) : BufTy := match i % 128 with
  | 0 => ⟨S4x1024x2048, .f32⟩
  | 1 => ⟨S32000x2048, .f32⟩
  | 2 => ⟨S4x1024, .i32⟩
  | 3 => ⟨S4, .i1⟩
  | 4 => ⟨S32000, .f32⟩
  | 5 => ⟨S4x1024x2048, .f32⟩
  | 6 => ⟨S32000x2048, .f32⟩
  | 7 => ⟨S32000, .f32⟩
  | 8 => ⟨S4x1024x32000, .f32⟩
  | 9 => ⟨S1x1x32000, .f32⟩
  | 10 => ⟨S4x1024x32000, .f32⟩
  | 11 => ⟨S4x1024x32000, .f32⟩
  | 12 => ⟨S_, .f32⟩
  | 13 => ⟨S4x1024, .f32⟩
  | 14 => ⟨S_, .f32⟩
  | 15 => ⟨S4x1024, .f32⟩
  | 16 => ⟨S4x1024, .f32⟩
  | 17 => ⟨S4x1024x1, .f32⟩
  | 18 => ⟨S4x1024x32000, .f32⟩
  | 19 => ⟨S4x1024x32000, .f32⟩
  | 20 => ⟨S4x1024x32000, .f32⟩
  | 21 => ⟨S_, .f32⟩
  | 22 => ⟨S4x1024, .f32⟩
  | 23 => ⟨S4x1024x1, .f32⟩
  | 24 => ⟨S4x1024x1, .f32⟩
  | 25 => ⟨S4x1024x32000, .f32⟩
  | 26 => ⟨S4x1024x32000, .f32⟩
  | 27 => ⟨S_, .i32⟩
  | 28 => ⟨S4x1024, .i32⟩
  | 29 => ⟨S4x1024, .i1⟩
  | 30 => ⟨S_, .i32⟩
  | 31 => ⟨S_, .i32⟩
  | 32 => ⟨S4x1024, .i32⟩
  | 33 => ⟨S4x1024, .i32⟩
  | 34 => ⟨S4x1024x1, .i32⟩
  | 35 => ⟨S_, .i32⟩
  | 36 => ⟨S4x1024x1, .i32⟩
  | 37 => ⟨S4x1024x1, .i1⟩
  | 38 => ⟨S_, .i32⟩
  | 39 => ⟨S4x1024x1, .i32⟩
  | 40 => ⟨S4x1024x1, .i32⟩
  | 41 => ⟨S4x1024x1, .i32⟩
  | 42 => ⟨S4x1024x1x1, .i32⟩
  | 43 => ⟨S1, .i32⟩
  | 44 => ⟨S_, .i32⟩
  | 45 => ⟨S4x1024x1x1, .i32⟩
  | 46 => ⟨S4x1024x1x1, .i1⟩
  | 47 => ⟨S1x1x1x1, .i32⟩
  | 48 => ⟨S4x1024x1x1, .i32⟩
  | 49 => ⟨S4x1024x1x1, .i1⟩
  | 50 => ⟨S4x1024x1x1, .i1⟩
  | 51 => ⟨S_, .i1⟩
  | 52 => ⟨S4x1024x1, .i1⟩
  | 53 => ⟨S4x1024x1, .f32⟩
  | 54 => ⟨S_, .f32⟩
  | 55 => ⟨S4x1024x1, .f32⟩
  | 56 => ⟨S4x1024x1, .f32⟩
  | 57 => ⟨S4x1024, .f32⟩
  | 58 => ⟨S4x1024, .f32⟩
  | 59 => ⟨S4x1024, .f32⟩
  | 60 => ⟨S_, .f32⟩
  | 61 => ⟨S4, .f32⟩
  | 62 => ⟨S4x1024, .i32⟩
  | 63 => ⟨S_, .i32⟩
  | 64 => ⟨S4, .i32⟩
  | 65 => ⟨S4, .f32⟩
  | 66 => ⟨S4, .f32⟩
  | 67 => ⟨S4x1024x32000, .f32⟩
  | 68 => ⟨S1x1x32000, .f32⟩
  | 69 => ⟨S4x1024x32000, .f32⟩
  | 70 => ⟨S4x1024x32000, .f32⟩
  | 71 => ⟨S_, .f32⟩
  | 72 => ⟨S4x1024, .f32⟩
  | 73 => ⟨S_, .f32⟩
  | 74 => ⟨S4x1024, .f32⟩
  | 75 => ⟨S4x1024, .f32⟩
  | 76 => ⟨S4x1024x1, .f32⟩
  | 77 => ⟨S4x1024x32000, .f32⟩
  | 78 => ⟨S4x1024x32000, .f32⟩
  | 79 => ⟨S4x1024x32000, .f32⟩
  | 80 => ⟨S_, .f32⟩
  | 81 => ⟨S4x1024, .f32⟩
  | 82 => ⟨S4x1024x1, .f32⟩
  | 83 => ⟨S4x1024x1, .f32⟩
  | 84 => ⟨S4x1024x32000, .f32⟩
  | 85 => ⟨S4x1024x32000, .f32⟩
  | 86 => ⟨S_, .i32⟩
  | 87 => ⟨S4x1024, .i32⟩
  | 88 => ⟨S4x1024, .i1⟩
  | 89 => ⟨S_, .i32⟩
  | 90 => ⟨S_, .i32⟩
  | 91 => ⟨S4x1024, .i32⟩
  | 92 => ⟨S4x1024, .i32⟩
  | 93 => ⟨S4x1024x1, .i32⟩
  | 94 => ⟨S_, .i32⟩
  | 95 => ⟨S4x1024x1, .i32⟩
  | 96 => ⟨S4x1024x1, .i1⟩
  | 97 => ⟨S_, .i32⟩
  | 98 => ⟨S4x1024x1, .i32⟩
  | 99 => ⟨S4x1024x1, .i32⟩
  | 100 => ⟨S4x1024x1, .i32⟩
  | 101 => ⟨S4x1024x1x1, .i32⟩
  | 102 => ⟨S1, .i32⟩
  | 103 => ⟨S_, .i32⟩
  | 104 => ⟨S4x1024x1x1, .i32⟩
  | 105 => ⟨S4x1024x1x1, .i1⟩
  | 106 => ⟨S1x1x1x1, .i32⟩
  | 107 => ⟨S4x1024x1x1, .i32⟩
  | 108 => ⟨S4x1024x1x1, .i1⟩
  | 109 => ⟨S4x1024x1x1, .i1⟩
  | 110 => ⟨S_, .i1⟩
  | 111 => ⟨S4x1024x1, .i1⟩
  | 112 => ⟨S4x1024x1, .f32⟩
  | 113 => ⟨S_, .f32⟩
  | 114 => ⟨S4x1024x1, .f32⟩
  | 115 => ⟨S4x1024x1, .f32⟩
  | 116 => ⟨S4x1024, .f32⟩
  | 117 => ⟨S4x1024, .f32⟩
  | 118 => ⟨S4x1024, .f32⟩
  | 119 => ⟨S_, .f32⟩
  | 120 => ⟨S4, .f32⟩
  | 121 => ⟨S4x1024, .i32⟩
  | 122 => ⟨S_, .i32⟩
  | 123 => ⟨S4, .i32⟩
  | 124 => ⟨S4, .f32⟩
  | 125 => ⟨S4, .f32⟩
  | 126 => ⟨S4, .f32⟩
  | 127 => ⟨S_, .f32⟩
  | _ => ⟨S4x1024x2048, .f32⟩

abbrev hbmTy0_1 (i : Nat) : BufTy := match i % 128 with
  | 0 => ⟨S4, .f32⟩
  | 1 => ⟨S4, .f32⟩
  | 2 => ⟨S_, .f32⟩
  | 3 => ⟨S4, .f32⟩
  | 4 => ⟨S4, .f32⟩
  | 5 => ⟨S4, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S_, .f32⟩
  | 31 => ⟨S4, .f32⟩
  | 32 => ⟨S4, .f32⟩
  | 33 => ⟨S4, .f32⟩
  | 34 => ⟨S_, .f32⟩
  | 35 => ⟨S_, .f32⟩
  | 36 => ⟨S_, .f32⟩
  | 37 => ⟨S_, .f32⟩
  | 38 => ⟨S_, .f32⟩
  | 39 => ⟨S4, .f32⟩
  | 40 => ⟨S4, .f32⟩
  | 41 => ⟨S_, .f32⟩
  | 42 => ⟨S_, .f32⟩
  | 43 => ⟨S4, .f32⟩
  | 44 => ⟨S4, .f32⟩
  | 45 => ⟨S_, .f32⟩
  | 46 => ⟨S_, .f32⟩
  | 47 => ⟨S_, .f32⟩
  | 48 => ⟨S_, .f32⟩
  | 49 => ⟨S4, .f32⟩
  | 50 => ⟨S4, .f32⟩
  | 51 => ⟨S_, .f32⟩
  | 52 => ⟨S_, .f32⟩
  | _ => ⟨S4x1024x2048, .f32⟩

abbrev hbmTy (i : Nat) : BufTy := match i / 128 with
  | 0 => hbmTy0_0 i
  | 1 => hbmTy0_1 i
  | _ => ⟨S4x1024x2048, .f32⟩

abbrev bufTy : (tb : Table) → Fin (tcTables nBuf tb) → BufTy
  | .hbm, ⟨i, _⟩ => hbmTy i
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_cst : Ref sig .tc := ⟨.hbm, 60, rfl⟩
abbrev main_v13 : Ref sig .tc := ⟨.hbm, 61, rfl⟩
abbrev main_v14 : Ref sig .tc := ⟨.hbm, 62, rfl⟩
abbrev main_c_1 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_call3_cst : Ref sig .tc := ⟨.hbm, 71, rfl⟩
abbrev main_call3_v0 : Ref sig .tc := ⟨.hbm, 72, rfl⟩
abbrev main_call3_cst_0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_cst_1 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_v22 : Ref sig .tc := ⟨.hbm, 85, rfl⟩
abbrev main_c_2 : Ref sig .tc := ⟨.hbm, 86, rfl⟩
abbrev main_v23 : Ref sig .tc := ⟨.hbm, 87, rfl⟩
abbrev main_v24 : Ref sig .tc := ⟨.hbm, 88, rfl⟩
abbrev main_c_3 : Ref sig .tc := ⟨.hbm, 89, rfl⟩
abbrev main_call4_v0 : Ref sig .tc := ⟨.hbm, 90, rfl⟩
abbrev main_call4_v1 : Ref sig .tc := ⟨.hbm, 91, rfl⟩
abbrev main_v25 : Ref sig .tc := ⟨.hbm, 92, rfl⟩
abbrev main_v26 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_v5 : Ref sig .tc := ⟨.hbm, 101, rfl⟩
abbrev main_call5_c_1 : Ref sig .tc := ⟨.hbm, 102, rfl⟩
abbrev main_call5_c_2 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_call5_c_3 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_4 : Ref sig .tc := ⟨.hbm, 119, rfl⟩
abbrev main_v31 : Ref sig .tc := ⟨.hbm, 120, rfl⟩
abbrev main_v32 : Ref sig .tc := ⟨.hbm, 121, rfl⟩
abbrev main_c_5 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_cst_6 : Ref sig .tc := ⟨.hbm, 127, rfl⟩
abbrev main_v37 : Ref sig .tc := ⟨.hbm, 128, rfl⟩
abbrev main_v38 : Ref sig .tc := ⟨.hbm, 129, rfl⟩
abbrev main_cst_7 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_cst_8 : Ref sig .tc := ⟨.hbm, 135, rfl⟩
abbrev main_v43 : Ref sig .tc := ⟨.hbm, 136, rfl⟩
abbrev main_v44 : Ref sig .tc := ⟨.hbm, 137, rfl⟩
abbrev main_cst_9 : Ref sig .tc := ⟨.hbm, 138, rfl⟩
abbrev main_v45 : Ref sig .tc := ⟨.hbm, 139, rfl⟩
abbrev main_v46 : Ref sig .tc := ⟨.hbm, 140, rfl⟩
abbrev main_cst_10 : Ref sig .tc := ⟨.hbm, 141, rfl⟩
abbrev main_v47 : Ref sig .tc := ⟨.hbm, 142, rfl⟩
abbrev main_v48 : Ref sig .tc := ⟨.hbm, 143, rfl⟩
abbrev main_cst_11 : Ref sig .tc := ⟨.hbm, 144, rfl⟩
abbrev main_v49 : Ref sig .tc := ⟨.hbm, 145, rfl⟩
abbrev main_v50 : Ref sig .tc := ⟨.hbm, 146, rfl⟩
abbrev main_cst_12 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_cst_13 : Ref sig .tc := ⟨.hbm, 152, rfl⟩
abbrev main_v55 : Ref sig .tc := ⟨.hbm, 153, rfl⟩
abbrev main_v56 : Ref sig .tc := ⟨.hbm, 154, rfl⟩
abbrev main_cst_14 : Ref sig .tc := ⟨.hbm, 155, rfl⟩
abbrev main_v57 : Ref sig .tc := ⟨.hbm, 156, rfl⟩
abbrev main_v58 : Ref sig .tc := ⟨.hbm, 157, rfl⟩
abbrev main_cst_15 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_cst_16 : Ref sig .tc := ⟨.hbm, 162, rfl⟩
abbrev main_v62 : Ref sig .tc := ⟨.hbm, 163, rfl⟩
abbrev main_cst_17 : Ref sig .tc := ⟨.hbm, 164, rfl⟩
abbrev main_v63 : Ref sig .tc := ⟨.hbm, 165, rfl⟩
abbrev main_cst_18 : Ref sig .tc := ⟨.hbm, 166, rfl⟩
abbrev main_v64 : Ref sig .tc := ⟨.hbm, 167, rfl⟩
abbrev main_v65 : Ref sig .tc := ⟨.hbm, 168, rfl⟩
abbrev main_cst_19 : Ref sig .tc := ⟨.hbm, 169, rfl⟩
abbrev main_call7_v0 : Ref sig .tc := ⟨.hbm, 170, rfl⟩
abbrev main_call7_v1 : Ref sig .tc := ⟨.hbm, 171, rfl⟩
abbrev main_v66 : Ref sig .tc := ⟨.hbm, 172, rfl⟩
abbrev main_cst_20 : Ref sig .tc := ⟨.hbm, 173, rfl⟩
abbrev main_v67 : Ref sig .tc := ⟨.hbm, 174, rfl⟩
abbrev main_cst_21 : Ref sig .tc := ⟨.hbm, 175, rfl⟩
abbrev main_call8_v0 : Ref sig .tc := ⟨.hbm, 176, rfl⟩
abbrev main_call8_v1 : Ref sig .tc := ⟨.hbm, 177, rfl⟩
abbrev main_v68 : Ref sig .tc := ⟨.hbm, 178, rfl⟩
abbrev main_cst_22 : Ref sig .tc := ⟨.hbm, 179, rfl⟩
abbrev main_v69 : Ref sig .tc := ⟨.hbm, 180, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S4x1024x32000_0_1_2 : S1x1x32000.BroadcastsInDim S4x1024x32000 (![0, 1, 2] : Fin 3 → Fin S4x1024x32000.rank)
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S4_d1 : S4x1024.ReducesTo [1] S4
  natLt_1_32 : 1 < 32
  bcast_S_S4 : S_.BroadcastsInDim S4 (![] : Fin 0 → Fin S4.rank)
  reducesTo_S4_S_d0 : S4.ReducesTo [0] S_
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.KFrame.Shared.lean ====
/-
  What the three runs of the kernel body and the frame share: the buffers' contents when the region is entered
  (after the host lines before it), the host lines after it (they touch only the pipeline's arrays and the buffers
  that bypass it, allocate nothing and write no array), each argument unchanged by the host lines on either side,
  each window's block at a grid point, the two conditions of the body decided over the grid (the first tile of a
  row block: reset; the last: finalize and store), where the output window is idle, and the region's invariant
  with the three scratch arrays owned at some contents.
-/
import proofs.«422609_j60095182405792_3_alg».proof.Proof.Gen.Kernel.Launch
import proofs.«422609_j60095182405792_3_alg».proof.Proof.Gen.Kernel.Skeleton
import proofs.«422609_j60095182405792_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the host stretches are long literal lists: unifying and splitting them goes past the default budget
set_option maxHeartbeats 4000000

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The later lines touch the pipeline's arrays and the bypassing buffers only. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

set_option maxHeartbeats 2000000 in
/-- And write no array of the pipeline: each writes its own result buffer, which is no window's array. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 1000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 1000000 in
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 1000000 in
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 1000000 in
/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1000000 in
/-- From a frame run's post to "every argument array ends as launched": the staged argument (the targets, window 3)
    through the pipeline's array, the others through the host lines, which write none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 3).trans (((dats 0 c).arrAt_in 3 rfl _).trans ((hA c 3).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's two conditions -/

/-- The first condition of the body (the reset of the three scratch arrays), from the grid coordinates. -/
abbrev cond0_0 (i : grid0.Coords) : Prop := (Scalar.cmpi .ne (Scalar.extui (Scalar.cmpi .eq (BitVec.ofNat 32 (i 2).val) 0#32)) 0#32) = 1#1
/-- It holds at the first tile of each row block: the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The second condition of the body (finalize and store the output). -/
abbrev cond0_1 (i : grid0.Coords) : Prop := k0_cond2 i = 1#1
/-- It holds at the last tile of each row block: the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the body does not finalize it stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it finalizes the output window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x4x256 .f32 := (Memref.whole cc0_stg4_0 : Memref sig .tc .vmem S1x4x256 .f32).view
abbrev ms0_0 (t : Fin cfg0.N) : Memref sig .tc .vmem S1x4x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x256 .f32 := win0_4.stage (cfg0.slots t 4)
abbrev hs0_4 (t : Fin cfg0.N) : (ms0_4 t).IsWhole := hstage0_4 ((cfg0.slots t 4).cast nbuf0_4)
/-- The three scratch arrays: the running maximum, the running normaliser, the running target logit. -/
abbrev scM0_0 : Memref sig .tc .vmem S4x256 .f32 := Memref.whole cc0_scratch0
abbrev scM0_1 : Memref sig .tc .vmem S4x256 .f32 := Memref.whole cc0_scratch1
abbrev scM0_2 : Memref sig .tc .vmem S4x256 .f32 := Memref.whole cc0_scratch2
abbrev VS0_0 : View sig .tc .vmem S4x256 .f32 := scM0_0.view
abbrev VS0_1 : View sig .tc .vmem S4x256 .f32 := scM0_1.view
abbrev VS0_2 : View sig .tc .vmem S4x256 .f32 := scM0_2.view

/-- The region's invariant with the scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KFrame.RunA.lean ====
/-
  The body at the first tile of a row block (reset taken, finalize not taken): the three scratch arrays, whatever
  they held, are stored whole twice (the reset, then the tile's update over the reset values) and the output window's
  buffer is handed back untouched.
-/
import proofs.«422609_j60095182405792_3_alg».proof.Proof.KFrame.Shared

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch arrays at a first tile, with the proof that the body runs
    from the inputs' buffers at their contents, the output's buffer at any contents (handed back as it came) and the
    scratch arrays at anything, to the continuation holding the scratch arrays with those pieces written. -/
noncomputable def kernelRun0_A (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (xi4 : Vec F S1x4x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.KFrame.RunB.lean ====
/-
  The body at a middle tile (neither condition taken): the three scratch arrays, at what the tile before left, are
  each stored whole once with the tile's update, and the output window's buffer is handed back untouched.
-/
import proofs.«422609_j60095182405792_3_alg».proof.Proof.KFrame.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch arrays at a middle tile, over what the tile before left in
    them (`xs·`), with the proof that the body runs to the continuation holding them with those pieces written. -/
noncomputable def kernelRun0_B (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (xi4 : Vec F S1x4x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.KFrame.RunC.lean ====
/-
  The body at the last tile of a row block (finalize taken): the scratch arrays are updated as at a middle tile, then
  read back, and the output window's buffer, whatever it held, is stored whole with the picked logit minus the
  running maximum plus the logarithm of the running normaliser.
-/
import proofs.«422609_j60095182405792_3_alg».proof.Proof.KFrame.RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the three scratch arrays at a last tile, over
    what the tile before left in the scratch arrays (`xs·`), with the proof that the body runs to the continuation
    holding all four with those pieces written. -/
noncomputable def kernelRun0_C (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨?_, ?_, ?_, ?_, fun E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Fr

end
-- ==== Proof.KFrame.Frame.lean ====
/-
  The frame of the kernel's program: what the output window's buffer and the three scratch arrays hold after each
  grid point (by recursion on the point: a first tile resets, a later tile updates what the tile before left, a last
  tile also stores the output), the region's invariant carrying the scratch arrays at those contents, the proof data,
  the body obligation at every point (the three runs), the run of @main around the region, and the frame claim.
-/
import proofs.«422609_j60095182405792_3_alg».proof.Proof.KFrame.RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case leaves in the output window's buffer and in the three scratch arrays: its pieces read back over junk
    (for the output at a point where nothing is stored into it, a placeholder nothing consults). -/
def tupA (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) : Vec F S1x4x256 .f32 × Vec F S4x256 .f32 × Vec F S4x256 .f32 × Vec F S4x256 .f32 :=
  (VO0_4.read (Elt F) (VO0_4.writes (Elt F) VO0_4.junk (kernelRun0_A c i arg3 harg3 arg4 harg4 arg5 harg5 arg6 harg6 arg7 harg7 arg8 harg8 arg9 harg9 arg10 harg10 hc0 hc1 x0 x1 x2 x3).1), VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3).2.1), VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3).2.2.1), VS0_2.read (Elt F) (VS0_2.writes (Elt F) VS0_2.junk (kernelRun0_A c i arg3 harg3 arg4 harg4 arg5 harg5 arg6 harg6 arg7 harg7 arg8 harg8 arg9 harg9 arg10 harg10 hc0 hc1 x0 x1 x2 x3).2.2.2.1))
/-- The case's pieces for scratch array 0 tile it, so they cover it. -/
theorem scoverA_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.1 S4x256.size (by sl_kernel_rfl) y
/-- The case's pieces for scratch array 1 tile it, so they cover it. -/
theorem scoverA_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.1 S4x256.size (by sl_kernel_rfl) y
/-- The case's pieces for scratch array 2 tile it, so they cover it. -/
theorem scoverA_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.2.1 S4x256.size (by sl_kernel_rfl) y

/-- What the case leaves in the output window's buffer and in the three scratch arrays: its pieces read back over junk
    (for the output at a point where nothing is stored into it, a placeholder nothing consults). -/
def tupB (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) : Vec F S1x4x256 .f32 × Vec F S4x256 .f32 × Vec F S4x256 .f32 × Vec F S4x256 .f32 :=
  (VO0_4.read (Elt F) (VO0_4.writes (Elt F) VO0_4.junk (kernelRun0_B c i arg3 harg3 arg4 harg4 arg5 harg5 arg6 harg6 arg7 harg7 arg8 harg8 arg9 harg9 arg10 harg10 hc0 hc1 x0 x1 x2 x3 xs0 xs1 xs2).1), VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 xs0 xs1 xs2).2.1), VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 xs0 xs1 xs2).2.2.1), VS0_2.read (Elt F) (VS0_2.writes (Elt F) VS0_2.junk (kernelRun0_B c i arg3 harg3 arg4 harg4 arg5 harg5 arg6 harg6 arg7 harg7 arg8 harg8 arg9 harg9 arg10 harg10 hc0 hc1 x0 x1 x2 x3 xs0 xs1 xs2).2.2.2.1))
/-- The case's pieces for scratch array 0 tile it, so they cover it. -/
theorem scoverB_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.1 S4x256.size (by sl_kernel_rfl) y
/-- The case's pieces for scratch array 1 tile it, so they cover it. -/
theorem scoverB_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.1 S4x256.size (by sl_kernel_rfl) y
/-- The case's pieces for scratch array 2 tile it, so they cover it. -/
theorem scoverB_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.2.1 S4x256.size (by sl_kernel_rfl) y

/-- What the case leaves in the output window's buffer and in the three scratch arrays: its pieces read back over junk
    (for the output at a point where nothing is stored into it, a placeholder nothing consults). -/
def tupC (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) : Vec F S1x4x256 .f32 × Vec F S4x256 .f32 × Vec F S4x256 .f32 × Vec F S4x256 .f32 :=
  (VO0_4.read (Elt F) (VO0_4.writes (Elt F) VO0_4.junk (kernelRun0_C c i arg3 harg3 arg4 harg4 arg5 harg5 arg6 harg6 arg7 harg7 arg8 harg8 arg9 harg9 arg10 harg10 hc0 hc1 x0 x1 x2 x3 xs0 xs1 xs2).1), VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 xs0 xs1 xs2).2.1), VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 xs0 xs1 xs2).2.2.1), VS0_2.read (Elt F) (VS0_2.writes (Elt F) VS0_2.junk (kernelRun0_C c i arg3 harg3 arg4 harg4 arg5 harg5 arg6 harg6 arg7 harg7 arg8 harg8 arg9 harg9 arg10 harg10 hc0 hc1 x0 x1 x2 x3 xs0 xs1 xs2).2.2.2.1))
/-- The case's pieces for scratch array 0 tile it, so they cover it. -/
theorem scoverC_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.1 S4x256.size (by sl_kernel_rfl) y
/-- The case's pieces for scratch array 1 tile it, so they cover it. -/
theorem scoverC_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.1 S4x256.size (by sl_kernel_rfl) y
/-- The case's pieces for scratch array 2 tile it, so they cover it. -/
theorem scoverC_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.2.1 S4x256.size (by sl_kernel_rfl) y
/-- At a last tile the pieces stored into the output window's buffer tile it. -/
theorem coverC_4 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S1x4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).1 S1x4x256.size (by sl_kernel_rfl) y

/-! ## What the buffers hold after each point -/

/-- After the body at position `n`: the output window's buffer, then the three scratch arrays. A first tile of a row
    block (n ≡ 0 mod 25) depends on nothing before it; any other tile on what position n − 1 left in the scratch arrays. -/
def outsAt0 (c : Dev nD) : (n : ℕ) → n < cfg0.N → Vec F S1x4x256 .f32 × Vec F S4x256 .f32 × Vec F S4x256 .f32 × Vec F S4x256 .f32
  | 0, hn => tupA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 25 = 0 then
      if h1 : (n + 1) % 25 = 24 then
        False.elim (by omega)
      else
        tupA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 25 = 24 then
        tupC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2
      else
        tupB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2

/-- At a first tile. -/
theorem outsAt0_A (c : Dev nD) (t : Fin cfg0.N) (h0 : t.val % 25 = 0) (h1 : ¬t.val % 25 = 24) :
    outsAt0 m c t.val t.isLt = tupA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 25 = 0) (h1 : ¬t.val % 25 = 24) :
    outsAt0 m c t.val t.isLt = tupB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 25 = 0) (h1 : t.val % 25 = 24) :
    outsAt0 m c t.val t.isLt = tupC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch array at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at a point each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the point's position in its row block says which of
    the three runs applies; the invariant hands the run the scratch arrays (at anything before the first point, else at
    what the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 25 = 0
  · have h1 : ¬t.val % 25 = 24 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold tupA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 25 = 24
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold tupC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold tupB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch arrays' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
set_option maxHeartbeats 4000000 in
/-- Every weakly fair execution of @main terminates, and in every final state each array of the pipeline holds what the
    library computes from the proof data and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hin := hin m) (hout := hout m)

/-- The frame: from any memory with zero counters the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KiFrame.Shared.lean ====
/-
  What the three runs of the kernel body and the frame share: the buffers' contents when the region is entered
  (after the host lines before it), the host lines after it (they touch only the pipeline's arrays and the buffers
  that bypass it, allocate nothing and write no array), each argument unchanged by the host lines on either side,
  each window's block at a grid point, the two conditions of the body decided over the grid (the first tile of a
  row block: reset; the last: finalize and store), where the output window is idle, and the region's invariant
  with the three scratch arrays owned at some contents.
-/
import proofs.«422609_j60095182405792_3_alg».proof.Proof.Gen.KernelIdeal.Launch
import proofs.«422609_j60095182405792_3_alg».proof.Proof.Gen.KernelIdeal.Skeleton
import proofs.«422609_j60095182405792_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the host stretches are long literal lists: unifying and splitting them goes past the default budget
set_option maxHeartbeats 4000000

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The later lines touch the pipeline's arrays and the bypassing buffers only. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

set_option maxHeartbeats 2000000 in
/-- And write no array of the pipeline: each writes its own result buffer, which is no window's array. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 1000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 1000000 in
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 1000000 in
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 1000000 in
/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1000000 in
/-- From a frame run's post to "every argument array ends as launched": the staged argument (the targets, window 3)
    through the pipeline's array, the others through the host lines, which write none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 3).trans (((dats 0 c).arrAt_in 3 rfl _).trans ((hA c 3).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-! ## The body's two conditions -/

/-- The first condition of the body (the reset of the three scratch arrays), from the grid coordinates. -/
abbrev cond0_0 (i : grid0.Coords) : Prop := (Scalar.cmpi .ne (Scalar.extui (Scalar.cmpi .eq (BitVec.ofNat 32 (i 2).val) 0#32)) 0#32) = 1#1
/-- It holds at the first tile of each row block: the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The second condition of the body (finalize and store the output). -/
abbrev cond0_1 (i : grid0.Coords) : Prop := k0_cond2 i = 1#1
/-- It holds at the last tile of each row block: the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the body does not finalize it stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it finalizes the output window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x4x256 .f32 := (Memref.whole cc0_stg4_0 : Memref sig .tc .vmem S1x4x256 .f32).view
abbrev ms0_0 (t : Fin cfg0.N) : Memref sig .tc .vmem S1x4x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x256 .f32 := win0_4.stage (cfg0.slots t 4)
abbrev hs0_4 (t : Fin cfg0.N) : (ms0_4 t).IsWhole := hstage0_4 ((cfg0.slots t 4).cast nbuf0_4)
/-- The three scratch arrays: the running maximum, the running normaliser, the running target logit. -/
abbrev scM0_0 : Memref sig .tc .vmem S4x256 .f32 := Memref.whole cc0_scratch0
abbrev scM0_1 : Memref sig .tc .vmem S4x256 .f32 := Memref.whole cc0_scratch1
abbrev scM0_2 : Memref sig .tc .vmem S4x256 .f32 := Memref.whole cc0_scratch2
abbrev VS0_0 : View sig .tc .vmem S4x256 .f32 := scM0_0.view
abbrev VS0_1 : View sig .tc .vmem S4x256 .f32 := scM0_1.view
abbrev VS0_2 : View sig .tc .vmem S4x256 .f32 := scM0_2.view

/-- The region's invariant with the scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KiFrame.RunA.lean ====
/-
  The body at the first tile of a row block (reset taken, finalize not taken): the three scratch arrays, whatever
  they held, are stored whole twice (the reset, then the tile's update over the reset values) and the output window's
  buffer is handed back untouched.
-/
import proofs.«422609_j60095182405792_3_alg».proof.Proof.KiFrame.Shared

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch arrays at a first tile, with the proof that the body runs
    from the inputs' buffers at their contents, the output's buffer at any contents (handed back as it came) and the
    scratch arrays at anything, to the continuation holding the scratch arrays with those pieces written. -/
noncomputable def kernelRun0_A (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (xi4 : Vec F S1x4x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KiFrame.RunB.lean ====
/-
  The body at a middle tile (neither condition taken): the three scratch arrays, at what the tile before left, are
  each stored whole once with the tile's update, and the output window's buffer is handed back untouched.
-/
import proofs.«422609_j60095182405792_3_alg».proof.Proof.KiFrame.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch arrays at a middle tile, over what the tile before left in
    them (`xs·`), with the proof that the body runs to the continuation holding them with those pieces written. -/
noncomputable def kernelRun0_B (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (xi4 : Vec F S1x4x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KiFrame.RunC.lean ====
/-
  The body at the last tile of a row block (finalize taken): the scratch arrays are updated as at a middle tile, then
  read back, and the output window's buffer, whatever it held, is stored whole with the picked logit minus the
  running maximum plus the logarithm of the running normaliser.
-/
import proofs.«422609_j60095182405792_3_alg».proof.Proof.KiFrame.RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the three scratch arrays at a last tile, over
    what the tile before left in the scratch arrays (`xs·`), with the proof that the body runs to the continuation
    holding all four with those pieces written. -/
noncomputable def kernelRun0_C (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    Σ' (L4 : List (View.Piece (Elt F) S1x4x256 .f32)) (LS0 : List (View.Piece (Elt F) S4x256 .f32)) (LS1 : List (View.Piece (Elt F) S4x256 .f32)), { LS2 : List (View.Piece (Elt F) S4x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_avg_logp_kernel i arg3 harg3 arg4 harg4 arg5 harg5 arg6 harg6 arg7 harg7 arg8 harg8 arg9 harg9 arg10 harg10) K } := by
  refine ⟨?_, ?_, ?_, ?_, fun E K => ?run⟩
  case run =>
    simp only [cc0__fused_avg_logp_kernel_eq_skeleton]; unfold cc0__fused_avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KiFrame.Frame.lean ====
/-
  The frame of the kernel's program: what the output window's buffer and the three scratch arrays hold after each
  grid point (by recursion on the point: a first tile resets, a later tile updates what the tile before left, a last
  tile also stores the output), the region's invariant carrying the scratch arrays at those contents, the proof data,
  the body obligation at every point (the three runs), the run of @main around the region, and the frame claim.
-/
import proofs.«422609_j60095182405792_3_alg».proof.Proof.KiFrame.RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case leaves in the output window's buffer and in the three scratch arrays: its pieces read back over junk
    (for the output at a point where nothing is stored into it, a placeholder nothing consults). -/
def tupA (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) : Vec F S1x4x256 .f32 × Vec F S4x256 .f32 × Vec F S4x256 .f32 × Vec F S4x256 .f32 :=
  (VO0_4.read (Elt F) (VO0_4.writes (Elt F) VO0_4.junk (kernelRun0_A c i arg3 harg3 arg4 harg4 arg5 harg5 arg6 harg6 arg7 harg7 arg8 harg8 arg9 harg9 arg10 harg10 hc0 hc1 x0 x1 x2 x3).1), VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3).2.1), VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3).2.2.1), VS0_2.read (Elt F) (VS0_2.writes (Elt F) VS0_2.junk (kernelRun0_A c i arg3 harg3 arg4 harg4 arg5 harg5 arg6 harg6 arg7 harg7 arg8 harg8 arg9 harg9 arg10 harg10 hc0 hc1 x0 x1 x2 x3).2.2.2.1))
/-- The case's pieces for scratch array 0 tile it, so they cover it. -/
theorem scoverA_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.1 S4x256.size (by sl_kernel_rfl) y
/-- The case's pieces for scratch array 1 tile it, so they cover it. -/
theorem scoverA_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.1 S4x256.size (by sl_kernel_rfl) y
/-- The case's pieces for scratch array 2 tile it, so they cover it. -/
theorem scoverA_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) (y : S4x256.Idx) :
    ∃ pc ∈ (kernelRun0_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.2.1 S4x256.size (by sl_kernel_rfl) y

/-- What the case leaves in the output window's buffer and in the three scratch arrays: its pieces read back over junk
    (for the output at a point where nothing is stored into it, a placeholder nothing consults). -/
def tupB (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) : Vec F S1x4x256 .f32 × Vec F S4x256 .f32 × Vec F S4x256 .f32 × Vec F S4x256 .f32 :=
  (VO0_4.read (Elt F) (VO0_4.writes (Elt F) VO0_4.junk (kernelRun0_B c i arg3 harg3 arg4 harg4 arg5 harg5 arg6 harg6 arg7 harg7 arg8 harg8 arg9 harg9 arg10 harg10 hc0 hc1 x0 x1 x2 x3 xs0 xs1 xs2).1), VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 xs0 xs1 xs2).2.1), VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 xs0 xs1 xs2).2.2.1), VS0_2.read (Elt F) (VS0_2.writes (Elt F) VS0_2.junk (kernelRun0_B c i arg3 harg3 arg4 harg4 arg5 harg5 arg6 harg6 arg7 harg7 arg8 harg8 arg9 harg9 arg10 harg10 hc0 hc1 x0 x1 x2 x3 xs0 xs1 xs2).2.2.2.1))
/-- The case's pieces for scratch array 0 tile it, so they cover it. -/
theorem scoverB_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.1 S4x256.size (by sl_kernel_rfl) y
/-- The case's pieces for scratch array 1 tile it, so they cover it. -/
theorem scoverB_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.1 S4x256.size (by sl_kernel_rfl) y
/-- The case's pieces for scratch array 2 tile it, so they cover it. -/
theorem scoverB_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.2.1 S4x256.size (by sl_kernel_rfl) y

/-- What the case leaves in the output window's buffer and in the three scratch arrays: its pieces read back over junk
    (for the output at a point where nothing is stored into it, a placeholder nothing consults). -/
def tupC (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) : Vec F S1x4x256 .f32 × Vec F S4x256 .f32 × Vec F S4x256 .f32 × Vec F S4x256 .f32 :=
  (VO0_4.read (Elt F) (VO0_4.writes (Elt F) VO0_4.junk (kernelRun0_C c i arg3 harg3 arg4 harg4 arg5 harg5 arg6 harg6 arg7 harg7 arg8 harg8 arg9 harg9 arg10 harg10 hc0 hc1 x0 x1 x2 x3 xs0 xs1 xs2).1), VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 xs0 xs1 xs2).2.1), VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 xs0 xs1 xs2).2.2.1), VS0_2.read (Elt F) (VS0_2.writes (Elt F) VS0_2.junk (kernelRun0_C c i arg3 harg3 arg4 harg4 arg5 harg5 arg6 harg6 arg7 harg7 arg8 harg8 arg9 harg9 arg10 harg10 hc0 hc1 x0 x1 x2 x3 xs0 xs1 xs2).2.2.2.1))
/-- The case's pieces for scratch array 0 tile it, so they cover it. -/
theorem scoverC_0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.1 S4x256.size (by sl_kernel_rfl) y
/-- The case's pieces for scratch array 1 tile it, so they cover it. -/
theorem scoverC_1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.1 S4x256.size (by sl_kernel_rfl) y
/-- The case's pieces for scratch array 2 tile it, so they cover it. -/
theorem scoverC_2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.2.1 S4x256.size (by sl_kernel_rfl) y
/-- At a last tile the pieces stored into the output window's buffer tile it. -/
theorem coverC_4 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) (y : S1x4x256.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).1 S1x4x256.size (by sl_kernel_rfl) y

/-! ## What the buffers hold after each point -/

/-- After the body at position `n`: the output window's buffer, then the three scratch arrays. A first tile of a row
    block (n ≡ 0 mod 25) depends on nothing before it; any other tile on what position n − 1 left in the scratch arrays. -/
def outsAt0 (c : Dev nD) : (n : ℕ) → n < cfg0.N → Vec F S1x4x256 .f32 × Vec F S4x256 .f32 × Vec F S4x256 .f32 × Vec F S4x256 .f32
  | 0, hn => tupA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 25 = 0 then
      if h1 : (n + 1) % 25 = 24 then
        False.elim (by omega)
      else
        tupA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 25 = 24 then
        tupC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2
      else
        tupB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2

/-- At a first tile. -/
theorem outsAt0_A (c : Dev nD) (t : Fin cfg0.N) (h0 : t.val % 25 = 0) (h1 : ¬t.val % 25 = 24) :
    outsAt0 m c t.val t.isLt = tupA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 25 = 0) (h1 : ¬t.val % 25 = 24) :
    outsAt0 m c t.val t.isLt = tupB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 25 = 0) (h1 : t.val % 25 = 24) :
    outsAt0 m c t.val t.isLt = tupC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch array at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at a point each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the point's position in its row block says which of
    the three runs applies; the invariant hands the run the scratch arrays (at anything before the first point, else at
    what the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 25 = 0
  · have h1 : ¬t.val % 25 = 24 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold tupA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 25 = 24
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold tupC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 c _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold tupB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch arrays' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
set_option maxHeartbeats 4000000 in
/-- Every weakly fair execution of @main terminates, and in every final state each array of the pipeline holds what the
    library computes from the proof data and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hin := hin m) (hout := hout m)

/-- The frame: from any memory with zero counters the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KiFrame.Pieces.lean ====
/-
  What each of the three runs leaves in the scratch arrays and in the output window's buffer, as the skeleton's payload
  terms of the input blocks and of what the scratch arrays held: the pieces the runs found, read back.
-/
import proofs.«422609_j60095182405792_3_alg».proof.Proof.KiFrame.RunC
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A middle tile -/

theorem B_s0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 xs0 xs1 xs2).2.1) = k0_pay3 (k0_pay8 x0 x1 x2) xs0 := by
  rw [View.read_writes_eq_canon _ _ _ (View.cover_of_tiledL _ S4x256.size (by sl_kernel_rfl))]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

theorem B_s1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 xs0 xs1 xs2).2.2.1) = k0_pay2 (k0_pay8 x0 x1 x2) xs0 xs0 xs1 := by
  rw [View.read_writes_eq_canon _ _ _ (View.cover_of_tiledL _ S4x256.size (by sl_kernel_rfl))]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

theorem B_s2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : ¬cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_2.read (Elt F) (VS0_2.writes (Elt F) VS0_2.junk (kernelRun0_B c i arg3 harg3 arg4 harg4 arg5 harg5 arg6 harg6 arg7 harg7 arg8 harg8 arg9 harg9 arg10 harg10 hc0 hc1 x0 x1 x2 x3 xs0 xs1 xs2).2.2.2.1) = k0_pay9 i x0 x1 x2 x3 xs2 := by
  rw [View.read_writes_eq_canon _ _ _ (View.cover_of_tiledL _ S4x256.size (by sl_kernel_rfl))]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

/-! ## A last tile -/

theorem C_s0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 xs0 xs1 xs2).2.1) = k0_pay3 (k0_pay8 x0 x1 x2) xs0 := by
  rw [View.read_writes_eq_canon _ _ _ (View.cover_of_tiledL _ S4x256.size (by sl_kernel_rfl))]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

theorem C_s1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 xs0 xs1 xs2).2.2.1) = k0_pay2 (k0_pay8 x0 x1 x2) xs0 xs0 xs1 := by
  rw [View.read_writes_eq_canon _ _ _ (View.cover_of_tiledL _ S4x256.size (by sl_kernel_rfl))]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

theorem C_s2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VS0_2.read (Elt F) (VS0_2.writes (Elt F) VS0_2.junk (kernelRun0_C c i arg3 harg3 arg4 harg4 arg5 harg5 arg6 harg6 arg7 harg7 arg8 harg8 arg9 harg9 arg10 harg10 hc0 hc1 x0 x1 x2 x3 xs0 xs1 xs2).2.2.2.1) = k0_pay9 i x0 x1 x2 x3 xs2 := by
  rw [View.read_writes_eq_canon _ _ _ (View.cover_of_tiledL _ S4x256.size (by sl_kernel_rfl))]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3]

theorem C_out (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : ¬cond0_0 i) (hc1 : cond0_1 i)
    (x0 : Vec F S1x4x256x2048 .bf16) (x1 : Vec F S1x1280x2048 .bf16) (x2 : Vec F S1x1x1280 .f32) (x3 : Vec F S4x256 .i32) (xs0 : Vec F S4x256 .f32) (xs1 : Vec F S4x256 .f32) (xs2 : Vec F S4x256 .f32) :
    VO0_4.read (Elt F) (VO0_4.writes (Elt F) VO0_4.junk (kernelRun0_C c i arg3 harg3 arg4 harg4 arg5 harg5 arg6 harg6 arg7 harg7 arg8 harg8 arg9 harg9 arg10 harg10 hc0 hc1 x0 x1 x2 x3 xs0 xs1 xs2).1) = k0_pay4 (k0_pay3 (k0_pay8 x0 x1 x2) xs0) (k0_pay2 (k0_pay8 x0 x1 x2) xs0 xs0 xs1) (k0_pay9 i x0 x1 x2 x3 xs2) := by
  rw [View.read_writes_eq_canon _ _ _ (View.cover_of_tiledL _ S1x4x256.size (by sl_kernel_rfl))]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3, View.readCov_unit_zero (S := S4x256) _ hz2]

/-! ## A first tile: the reset, then the update over the reset values -/

theorem A_s0 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) :
    VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3).2.1) = k0_pay3 (k0_pay8 x0 x1 x2) (k0_pay5 (F := F)) := by
  rw [View.read_writes_eq_canon _ _ _ (View.cover_of_tiledL _ S4x256.size (by sl_kernel_rfl))]
  unfold kernelRun0_A
  dsimp only
  sl_unfold_words
  rw [View.canon_cons_unit_zero (S := S4x256) hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3, View.readCov_unit_zero (S := S4x256) _ hz2]

theorem A_s1 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) :
    VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3).2.2.1) = k0_pay2 (k0_pay8 x0 x1 x2) (k0_pay5 (F := F)) (k0_pay5 (F := F)) (k0_pay6 (F := F)) := by
  rw [View.read_writes_eq_canon _ _ _ (View.cover_of_tiledL _ S4x256.size (by sl_kernel_rfl))]
  unfold kernelRun0_A
  dsimp only
  sl_unfold_words
  rw [View.canon_cons_unit_zero (S := S4x256) hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3, View.readCov_unit_zero (S := S4x256) _ hz2]

theorem A_s2 (c : Dev nD) (i : grid0.Coords) (arg3 : Memref sig .tc .vmem S1x4x256x2048 .bf16) (harg3 : arg3.IsWhole) (arg4 : Memref sig .tc .vmem S1x1280x2048 .bf16) (harg4 : arg4.IsWhole) (arg5 : Memref sig .tc .vmem S1x1x1280 .f32) (harg5 : arg5.IsWhole) (arg6 : Memref sig .tc .vmem S4x256 .i32) (harg6 : arg6.IsWhole) (arg7 : Memref sig .tc .vmem S1x4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S4x256 .f32) (harg10 : arg10.IsWhole) (hc0 : cond0_0 i) (hc1 : ¬cond0_1 i)
    (x0 : Vec F S1x4x256x2048 .bf16) (x1 : Vec F S1x1280x2048 .bf16) (x2 : Vec F S1x1x1280 .f32) (x3 : Vec F S4x256 .i32) :
    VS0_2.read (Elt F) (VS0_2.writes (Elt F) VS0_2.junk (kernelRun0_A c i arg3 harg3 arg4 harg4 arg5 harg5 arg6 harg6 arg7 harg7 arg8 harg8 arg9 harg9 arg10 harg10 hc0 hc1 x0 x1 x2 x3).2.2.2.1) = k0_pay9 i x0 x1 x2 x3 (k0_pay7 (F := F)) := by
  rw [View.read_writes_eq_canon _ _ _ (View.cover_of_tiledL _ S4x256.size (by sl_kernel_rfl))]
  unfold kernelRun0_A
  dsimp only
  sl_unfold_words
  rw [View.canon_cons_unit_zero (S := S4x256) hz2]
  simp only [View.readAt_eq_ld, harg3.read_unread, harg4.read_unread, harg5.read_unread, harg6.read_unread, harg7.read_unread, harg8.read_unread, harg9.read_unread, harg10.read_unread, View.ld_unit_zero (S := S4x256) hz2, View.ld_unit_zero (S := S1x4x256x2048) hz4, View.ld_unit_zero (S := S1x1280x2048) hz3, View.ld_unit_zero (S := S1x1x1280) hz3, View.ld_unit_zero (S := S1x4x256) hz3, View.readCov_unit_zero (S := S4x256) _ hz2]

end Cert.KernelIdeal.Fr

end
-- ==== Proof.OnlineLse.lean ====
/-
  The running logarithm-of-a-sum-of-exponentials.

  A row of logits is visited tile by tile.  Three numbers are carried: the running maximum M (started
  at an arbitrary real), the running normaliser L (started at 0) and the running picked logit G
  (started at 0).  A tile with entries a_j replaces
      M' = max M (max_j a_j),   L' = e^{M − M'}·L + Σ_j e^{a_j − M'},   G' = G + Σ_j [c = position of j]·a_j.
  After all tiles  M + log L  is the logarithm of the sum of the exponentials of every entry, whatever
  real the maximum was started at, and G is the entry at position c.  On the other side, subtracting
  any real from every entry before exponentiating and from the picked entry changes nothing.
-/
import Idealize.ShloMosaic.PureOps.Ideal
import Mathlib.Algebra.BigOperators.Fin
import Mathlib.Algebra.BigOperators.Group.Finset.Piecewise
import Mathlib.Data.Finset.Fold
import Mathlib.Analysis.SpecialFunctions.Log.Basic

noncomputable section

namespace Cert.OnlineLse

open Idealize.ShloMosaic

variable {n : ℕ}

/-- The maximum of a tile, from −∞. -/
def tileMax (a : Fin n → EReal) : EReal := (Finset.univ : Finset (Fin n)).fold max ⊥ a

/-- The running maximum after a tile. -/
def nextM (M : EReal) (a : Fin n → EReal) : EReal := max M (tileMax a)

/-- The running normaliser after a tile. -/
def nextL (M L : EReal) (a : Fin n → EReal) : EReal :=
  Ideal.exp (M - nextM M a) * L + ∑ j : Fin n, Ideal.exp (a j - nextM M a)

/-- The running maximum after the first `k` tiles. -/
def stM (m0 : EReal) (a : ℕ → Fin n → EReal) : ℕ → EReal
  | 0 => m0
  | k + 1 => nextM (stM m0 a k) (a k)

/-- The running normaliser after the first `k` tiles. -/
def stL (m0 : EReal) (a : ℕ → Fin n → EReal) : ℕ → EReal
  | 0 => 0
  | k + 1 => nextL (stM m0 a k) (stL m0 a k) (a k)

/-- The running sum of selected entries after the first `k` tiles. -/
def stG (sel : ℕ → Fin n → EReal) : ℕ → EReal
  | 0 => 0
  | k + 1 => stG sel k + ∑ j : Fin n, sel k j

/-! ### Real-number facts -/

/-- A finite sum of coerced reals is the coercion of the real sum. -/
theorem coe_sum {ι : Type*} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

/-- A nonempty sum of exponentials is positive. -/
theorem sum_exp_pos (h : ℕ → ℝ) (N : ℕ) (hN : 0 < N) :
    0 < ∑ v ∈ Finset.range N, Real.exp (h v) :=
  Finset.sum_pos (fun i _ => Real.exp_pos _) (Finset.nonempty_range_iff.2 hN.ne')

/-- Shifting every exponent by `m` shifts the logarithm of the sum by `m`. -/
theorem real_log_shift (f : ℕ → ℝ) (N : ℕ) (hN : 0 < N) (m : ℝ) :
    Real.log (∑ v ∈ Finset.range N, Real.exp (f v - m))
      = Real.log (∑ v ∈ Finset.range N, Real.exp (f v)) - m := by
  have h : ∑ v ∈ Finset.range N, Real.exp (f v - m)
      = (∑ v ∈ Finset.range N, Real.exp (f v)) * Real.exp (-m) := by
    rw [Finset.sum_mul]
    refine Finset.sum_congr rfl fun v _ => ?_
    rw [← Real.exp_add, sub_eq_add_neg]
  rw [h, Real.log_mul (sum_exp_pos f N hN).ne' (Real.exp_pos _).ne', Real.log_exp]
  ring

/-- One tile of the running normaliser, over the reals. -/
theorem real_step (f : ℕ → ℝ) (k n : ℕ) (r mk : ℝ) :
    Real.exp (r - mk) * ∑ v ∈ Finset.range (k * n), Real.exp (f v - r)
      + ∑ j : Fin n, Real.exp (f (k * n + j.val) - mk)
    = ∑ v ∈ Finset.range ((k + 1) * n), Real.exp (f v - mk) := by
  rw [add_mul, one_mul, Finset.sum_range_add, Finset.mul_sum]
  congr 1
  · refine Finset.sum_congr rfl fun v _ => ?_
    rw [← Real.exp_add]
    congr 1
    ring
  · exact Fin.sum_univ_eq_sum_range (fun j => Real.exp (f (k * n + j) - mk)) n

/-! ### The logarithm of a sum of exponentials -/

/-- The logarithm of a nonempty sum of exponentials of reals, as a real. -/
theorem lse_eq (f : ℕ → ℝ) (N : ℕ) (hN : 0 < N) :
    Ideal.log (∑ v ∈ Finset.range N, Ideal.exp ((f v : ℝ) : EReal))
      = ((Real.log (∑ v ∈ Finset.range N, Real.exp (f v)) : ℝ) : EReal) := by
  simp only [Ideal.exp_coe]
  rw [coe_sum, Ideal.log_coe, if_neg (not_le.2 (sum_exp_pos f N hN))]

/-- The logarithm of a sum of exponentials of finitely many reals (at least one) is a real. -/
theorem lse_real (f : ℕ → ℝ) (N : ℕ) (hN : 0 < N) :
    ∃ r : ℝ, Ideal.log (∑ v ∈ Finset.range N, Ideal.exp ((f v : ℝ) : EReal)) = (r : EReal) :=
  ⟨_, lse_eq f N hN⟩

/-- The logarithm of the shifted sum, as a real. -/
theorem lse_shift_eq (f : ℕ → ℝ) (N : ℕ) (hN : 0 < N) (m : ℝ) :
    Ideal.log (∑ v ∈ Finset.range N, Ideal.exp (((f v : ℝ) : EReal) - (m : EReal)))
      = ((Real.log (∑ v ∈ Finset.range N, Real.exp (f v)) - m : ℝ) : EReal) := by
  simp only [← EReal.coe_sub, Ideal.exp_coe]
  rw [coe_sum, Ideal.log_coe, if_neg (not_le.2 (sum_exp_pos (fun v => f v - m) N hN)),
    real_log_shift f N hN m]

/-! ### The running maximum is a real -/

theorem tileMax_coe_lt_top (g : Fin n → ℝ) : tileMax (fun j => ((g j : ℝ) : EReal)) < ⊤ := by
  unfold tileMax
  rw [Finset.fold_max_lt]
  exact ⟨bot_lt_top, fun x _ => EReal.coe_lt_top _⟩

theorem nextM_coe (m : ℝ) (g : Fin n → ℝ) :
    ∃ r : ℝ, nextM (m : EReal) (fun j => ((g j : ℝ) : EReal)) = (r : EReal) := by
  have h1 : nextM (m : EReal) (fun j => ((g j : ℝ) : EReal)) ≠ ⊤ := by
    unfold nextM
    exact ne_of_lt (max_lt (EReal.coe_lt_top m) (tileMax_coe_lt_top g))
  have h2 : nextM (m : EReal) (fun j => ((g j : ℝ) : EReal)) ≠ ⊥ := by
    unfold nextM
    exact ne_of_gt (lt_of_lt_of_le (EReal.bot_lt_coe m) (le_max_left _ _))
  exact ⟨_, (EReal.coe_toReal h1 h2).symm⟩

theorem stM_coe (m0 : ℝ) (a : ℕ → Fin n → ℝ) (k : ℕ) :
    ∃ r : ℝ, stM (m0 : EReal) (fun k j => ((a k j : ℝ) : EReal)) k = (r : EReal) := by
  induction k with
  | zero => exact ⟨m0, rfl⟩
  | succ k ih =>
    obtain ⟨r, hr⟩ := ih
    show ∃ r' : ℝ, nextM (stM (m0 : EReal) (fun k j => ((a k j : ℝ) : EReal)) k)
      (fun j => ((a k j : ℝ) : EReal)) = (r' : EReal)
    rw [hr]
    exact nextM_coe r (a k)

/-! ### The invariant -/

/-- The running normaliser is the sum of the exponentials seen so far, each shifted by the running maximum. -/
theorem stL_coe (m0 : ℝ) (f : ℕ → ℝ) (k : ℕ) (mk : ℝ)
    (hm : stM (n := n) (m0 : EReal) (fun k j => ((f (k * n + j.val) : ℝ) : EReal)) k = (mk : EReal)) :
    stL (n := n) (m0 : EReal) (fun k j => ((f (k * n + j.val) : ℝ) : EReal)) k
      = ((∑ v ∈ Finset.range (k * n), Real.exp (f v - mk) : ℝ) : EReal) := by
  induction k generalizing mk with
  | zero => simp [stL]
  | succ k ih =>
    obtain ⟨r, hr⟩ := stM_coe (n := n) m0 (fun k j => f (k * n + j.val)) k
    have ihr := ih r hr
    have hm' : nextM (r : EReal) (fun j : Fin n => ((f (k * n + j.val) : ℝ) : EReal)) = (mk : EReal) := by
      rw [← hr]
      exact hm
    simp only [stL, nextL, hr, ihr]
    rw [hm']
    simp only [← EReal.coe_sub, Ideal.exp_coe, ← EReal.coe_mul]
    rw [coe_sum, ← EReal.coe_add, real_step f k n r mk]

/-- After K tiles of width n the running pair is the logarithm of the sum of all exponentials. -/
theorem online_lse (m0 : ℝ) (f : ℕ → ℝ) (hn : 0 < n) (K : ℕ) (hK : 0 < K) :
    stM (n := n) (m0 : EReal) (fun k j => ((f (k * n + j.val) : ℝ) : EReal)) K
        + Ideal.log (stL (n := n) (m0 : EReal) (fun k j => ((f (k * n + j.val) : ℝ) : EReal)) K)
      = Ideal.log (∑ v ∈ Finset.range (K * n), Ideal.exp ((f v : ℝ) : EReal)) := by
  have hpos : 0 < K * n := Nat.mul_pos hK hn
  obtain ⟨mK, hmK⟩ := stM_coe (n := n) m0 (fun k j => f (k * n + j.val)) K
  rw [stL_coe m0 f K mK hmK, hmK, lse_eq f (K * n) hpos, Ideal.log_coe,
    if_neg (not_le.2 (sum_exp_pos (fun v => f v - mK) (K * n) hpos)), real_log_shift f (K * n) hpos mK,
    ← EReal.coe_add]
  congr 1
  ring

/-! ### The picked entry -/

/-- The running sum of selected entries is the sum over all positions. -/
theorem stG_eq_sum (h : ℕ → EReal) (K : ℕ) :
    stG (n := n) (fun k j => h (k * n + j.val)) K = ∑ v ∈ Finset.range (K * n), h v := by
  induction K with
  | zero => simp [stG]
  | succ K ih =>
    rw [stG, ih, add_mul, one_mul, Finset.sum_range_add]
    congr 1
    exact Fin.sum_univ_eq_sum_range (fun j => h (K * n + j)) n

/-- The selected entries sum to the entry at position c, when c is a position. -/
theorem pick (g : ℕ → EReal) (K c : ℕ) (hc : c < K * n) :
    stG (n := n) (fun k j => if c = k * n + j.val then g (k * n + j.val) else 0) K = g c := by
  refine (stG_eq_sum (n := n) (fun v => if c = v then g v else 0) K).trans ?_
  rw [Finset.sum_ite_eq, if_pos (Finset.mem_range.2 hc)]

/-- With no position selected the sum is zero. -/
theorem pick_none (g : ℕ → EReal) (K : ℕ) (p : ℕ → Fin n → Prop) [∀ k j, Decidable (p k j)] (hp : ∀ k j, ¬ p k j) :
    stG (n := n) (fun k j => if p k j then g (k * n + j.val) else 0) K = 0 := by
  induction K with
  | zero => rfl
  | succ K ih =>
    rw [stG, ih]
    simp [hp]

/-- THE ROW: picked logit minus running pair is the entry minus the logarithm of the sum of exponentials. -/
theorem row_value (m0 : ℝ) (f : ℕ → ℝ) (hn : 0 < n) (K : ℕ) (hK : 0 < K) (c : ℕ) (hc : c < K * n) :
    stG (n := n) (fun k j => if c = k * n + j.val then ((f (k * n + j.val) : ℝ) : EReal) else 0) K
        - (stM (n := n) (m0 : EReal) (fun k j => ((f (k * n + j.val) : ℝ) : EReal)) K
            + Ideal.log (stL (n := n) (m0 : EReal) (fun k j => ((f (k * n + j.val) : ℝ) : EReal)) K))
      = ((f c : ℝ) : EReal) - Ideal.log (∑ v ∈ Finset.range (K * n), Ideal.exp ((f v : ℝ) : EReal)) := by
  have h1 : stG (n := n) (fun k j => if c = k * n + j.val then ((f (k * n + j.val) : ℝ) : EReal) else 0) K
      = ((f c : ℝ) : EReal) := pick (n := n) (fun v => ((f v : ℝ) : EReal)) K c hc
  rw [h1, online_lse m0 f hn K hK]

/-- Subtracting a real from every entry before exponentiating, and from the picked entry, changes nothing. -/
theorem shifted_lse (f : ℕ → ℝ) (N : ℕ) (hN : 0 < N) (mx : ℝ) (c : ℕ) :
    (((f c : ℝ) : EReal) - (mx : EReal)) - Ideal.log (∑ v ∈ Finset.range N, Ideal.exp (((f v : ℝ) : EReal) - (mx : EReal)))
      = ((f c : ℝ) : EReal) - Ideal.log (∑ v ∈ Finset.range N, Ideal.exp ((f v : ℝ) : EReal)) := by
  rw [lse_shift_eq f N hN mx, lse_eq f N hN, ← EReal.coe_sub, ← EReal.coe_sub, ← EReal.coe_sub]
  congr 1
  ring

/-- The maximum of finitely many reals (at least one), from −∞, is a real. -/
theorem fold_max_real (f : ℕ → ℝ) (N : ℕ) (hN : 0 < N) :
    ∃ r : ℝ, (Finset.range N).fold max (⊥ : EReal) (fun v => ((f v : ℝ) : EReal)) = (r : EReal) := by
  have h1 : (Finset.range N).fold max (⊥ : EReal) (fun v => ((f v : ℝ) : EReal)) ≠ ⊤ := by
    apply ne_of_lt
    rw [Finset.fold_max_lt]
    exact ⟨bot_lt_top, fun x _ => EReal.coe_lt_top _⟩
  have h2 : (Finset.range N).fold max (⊥ : EReal) (fun v => ((f v : ℝ) : EReal)) ≠ ⊥ := by
    apply ne_of_gt
    rw [Finset.lt_fold_max]
    exact Or.inr ⟨0, Finset.mem_range.2 hN, EReal.bot_lt_coe _⟩
  exact ⟨_, (EReal.coe_toReal h1 h2).symm⟩

end Cert.OnlineLse

end
-- ==== Proof.Spec.lean ====
/-
  The common specification of the two programs.

  For one projection (inputs `x`, weights `w`, bias) the logit of token (b,t) at class v is
  ⟨x[b,t,:], w[v,:]⟩ + bias[v]; a token's log-probability of its target class is that logit at the
  target minus the logarithm of the sum of exponentials of the token's logits; a row's value is the
  mean of these over the tokens whose target is not the ignored label −100.  From the difference of
  the two projections' row means, the three scalars are: the mean over the four rows of
  1 − σ(±β·d) chosen by each row's label, and the sums of β·d over the rows of each label (β = 0.1).
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SX : Shape := ⟨3, ![4, 1024, 2048]⟩
abbrev SW : Shape := ⟨2, ![32000, 2048]⟩
abbrev SB : Shape := ⟨1, ![32000]⟩
abbrev ST : Shape := ⟨2, ![4, 1024]⟩
abbrev S4 : Shape := ⟨1, ![4]⟩
abbrev S0 : Shape := ⟨0, ![]⟩

/-- The logit of token (b,t) at class v. -/
def logit (x : FVec Ideal SX .f32) (w : FVec Ideal SW .f32) (bias : FVec Ideal SB .f32)
    (b : Fin 4) (t : Fin 1024) (v : Fin 32000) : EReal :=
  (∑ h : Fin 2048, x (ix3 b t h) * w (ix2 v h)) + bias (ix1 v)

/-- The word of the ignored label, −100. -/
abbrev ignoreW : BitVec 32 := 4294967196#32

/-- A target word read as a class (its value, for a word in range). -/
def classOf (tg : BitVec 32) : Fin 32000 := ⟨tg.toNat % 32000, Nat.mod_lt _ (by norm_num)⟩

/-- A target word is admissible: the ignored label, or a class index. -/
def Admissible (tg : BitVec 32) : Prop := tg = ignoreW ∨ (0 ≤ tg.toInt ∧ tg.toInt < 32000)

/-- The logarithm of the sum of the exponentials of token (b,t)'s logits. -/
def lse (x : FVec Ideal SX .f32) (w : FVec Ideal SW .f32) (bias : FVec Ideal SB .f32) (b : Fin 4) (t : Fin 1024) : EReal :=
  Ideal.log (∑ v : Fin 32000, Ideal.exp (logit x w bias b t v))

/-- Token (b,t)'s log-probability of its target class. -/
def tokLogp (x : FVec Ideal SX .f32) (w : FVec Ideal SW .f32) (bias : FVec Ideal SB .f32) (tg : IVec ST 32)
    (b : Fin 4) (t : Fin 1024) : EReal :=
  logit x w bias b t (classOf (tg (ix2 b t))) - lse x w bias b t

/-- The same, zero at an ignored token: the summand of the row's numerator. -/
def tokTerm (x : FVec Ideal SX .f32) (w : FVec Ideal SW .f32) (bias : FVec Ideal SB .f32) (tg : IVec ST 32)
    (b : Fin 4) (t : Fin 1024) : EReal :=
  if tg (ix2 b t) = ignoreW then 0 else tokLogp x w bias tg b t

/-- One at a counted token, zero at an ignored one: the summand of the row's denominator. -/
def tokMask (tg : IVec ST 32) (b : Fin 4) (t : Fin 1024) : EReal :=
  if tg (ix2 b t) = ignoreW then 0 else 1

/-- The row means. -/
def avgLogp (x : FVec Ideal SX .f32) (w : FVec Ideal SW .f32) (bias : FVec Ideal SB .f32) (tg : IVec ST 32) :
    FVec Ideal S4 .f32 := fun i =>
  Ideal.div (∑ t : Fin 1024, tokTerm x w bias tg (i 0) t) (∑ t : Fin 1024, tokMask tg (i 0) t)

/-! ## The scalars, as the host operations both programs end with -/

section Tail

variable (hb : S0.BroadcastsInDim S4 (![] : Fin 0 → Fin S4.rank)) (hr : S4.ReducesTo [0] S0) (h0 : 0 < S0.numel)

/-- A scalar literal spread over the four rows. -/
def lit4 (bits : BitVec 32) : FVec Ideal S4 .f32 := broadcastInDim S4 ![] hb (constant (F := Ideal) S0 .f32 bits)

/-- 1 − 1 / (1 + e^{−β·z}). -/
def oneMinusSigmoid (z : FVec Ideal S4 .f32) : FVec Ideal S4 .f32 :=
  subf (lit4 hb 0x3F800000#32)
    (Host.divf (lit4 hb 0x3F800000#32)
      (addf (lit4 hb 0x3F800000#32) (Host.exp (Host.negf (mulf (lit4 hb 0x3DCCCCCD#32) z)))))

/-- The loss: the mean over the rows of the term each row's label selects. -/
def loss (lab : IVec S4 1) (d : FVec Ideal S4 .f32) : FVec Ideal S0 .f32 :=
  Host.divf
    (Host.reduceAdd
      (select lab (oneMinusSigmoid hb (subf d (lit4 hb 0x00000000#32)))
                  (oneMinusSigmoid hb (subf (lit4 hb 0x00000000#32) d)))
      (constant (F := Ideal) S0 .f32 0x00000000#32) hr h0)
    (constant (F := Ideal) S0 .f32 0x40800000#32)

/-- β·d, the rewards. -/
def rewards (d : FVec Ideal S4 .f32) : FVec Ideal S4 .f32 := mulf (lit4 hb 0x3DCCCCCD#32) d

/-- The rewards summed over the rows labelled 1. -/
def chosenSum (lab : IVec S4 1) (d : FVec Ideal S4 .f32) : FVec Ideal S0 .f32 :=
  Host.reduceAdd (select lab (rewards hb d) (lit4 hb 0x00000000#32)) (constant (F := Ideal) S0 .f32 0x00000000#32) hr h0

/-- The rewards summed over the rows labelled 0. -/
def rejectedSum (lab : IVec S4 1) (d : FVec Ideal S4 .f32) : FVec Ideal S0 .f32 :=
  Host.reduceAdd (select lab (lit4 hb 0x00000000#32) (rewards hb d)) (constant (F := Ideal) S0 .f32 0x00000000#32) hr h0

end Tail

/-- The difference of the two projections' row means. -/
def logratios (x : FVec Ideal SX .f32) (w : FVec Ideal SW .f32) (bias : FVec Ideal SB .f32)
    (rx : FVec Ideal SX .f32) (rw : FVec Ideal SW .f32) (rbias : FVec Ideal SB .f32) (tg : IVec ST 32) : FVec Ideal S4 .f32 :=
  subf (avgLogp x w bias tg) (avgLogp rx rw rbias tg)

end Cert.Spec

end
-- ==== Proof.KiValue.Out.lean ====
/-
  The kernel's output array, named: per projection s, row b and token T the picked logit minus the running maximum
  plus the logarithm of the running normaliser after the 25 tiles of 1280 classes, over the stacked arrays the region
  finds (inputs, weights and biases of the two projections stacked along a leading axis).
-/
import proofs.«422609_j60095182405792_3_alg».proof.Proof.KiFrame.Shared
import proofs.«422609_j60095182405792_3_alg».proof.Proof.OnlineLse
import proofs.«422609_j60095182405792_3_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-- The stacked inputs, weights, biases, the targets, the float mask and the row counts, as the region finds them. -/
abbrev Xs (c : Dev nD) : FVec Ideal S2x4x1024x2048 .bf16 := V m c main_v8
abbrev Ws (c : Dev nD) : FVec Ideal S2x32000x2048 .bf16 := V m c main_v13
abbrev Bs (c : Dev nD) : FVec Ideal S2x1x32000 .f32 := V m c main_v18
abbrev Tg (c : Dev nD) : IVec S4x1024 32 := V m c main_arg2
abbrev Mk (c : Dev nD) : FVec Ideal S4x1024 .f32 := V m c main_v2
abbrev Dn (c : Dev nD) : FVec Ideal S4 .f32 := V m c main_v3

/-- The arguments of projection s (0: policy, 1: reference). -/
def argX (c : Dev nD) (s : Fin 2) : FVec Ideal Cert.Spec.SX .f32 :=
  if s = 0 then m ((c : Thread nD τ).loc main_arg0) else m ((c : Thread nD τ).loc main_arg5)
def argW (c : Dev nD) (s : Fin 2) : FVec Ideal Cert.Spec.SW .f32 :=
  if s = 0 then m ((c : Thread nD τ).loc main_arg1) else m ((c : Thread nD τ).loc main_arg6)
def argB (c : Dev nD) (s : Fin 2) : FVec Ideal Cert.Spec.SB .f32 :=
  if s = 0 then m ((c : Thread nD τ).loc main_arg4) else m ((c : Thread nD τ).loc main_arg7)
/-- The targets as launched. -/
abbrev argT (c : Dev nD) : IVec Cert.Spec.ST 32 := m ((c : Thread nD τ).loc main_arg2)

/-- The logit of token (b,T) of projection s at class v, from the stacked arrays (0 past the last class). -/
def klogit (c : Dev nD) (s : Fin 2) (b : Fin 4) (T : Fin 1024) (v : ℕ) : EReal :=
  if h : v < 32000 then (∑ h' : Fin 2048, Xs m c (ix4 s b T h') * Ws m c (ix3 s ⟨v, h⟩ h')) + Bs m c (ix3 s (0 : Fin 1) ⟨v, h⟩) else 0

/-- Tile k of the token's logits. -/
def tile (c : Dev nD) (s : Fin 2) (b : Fin 4) (T : Fin 1024) (k : ℕ) (j : Fin 1280) : EReal := klogit m c s b T (k * 1280 + j.val)

/-- Tile k with every entry but the target's zeroed. -/
def sel (c : Dev nD) (s : Fin 2) (b : Fin 4) (T : Fin 1024) (k : ℕ) (j : Fin 1280) : EReal :=
  if (Tg m c (ix2 b T)).toNat = k * 1280 + j.val then tile m c s b T k j else 0

/-- The real the running maximum is started at. -/
def negInit : EReal := Ideal.ofBits .f32 0xFF333332#32

/-- THE OUTPUT ARRAY. -/
def OutK (c : Dev nD) : FVec Ideal S2x4x1024 .f32 := fun i =>
  stG (sel m c (i 0) (i 1) (i 2)) 25
    - (stM negInit (tile m c (i 0) (i 1) (i 2)) 25 + Ideal.log (stL negInit (tile m c (i 0) (i 1) (i 2)) 25))

/-- A row mean as the host lines after the region take it of an output array O: the masked sum over the tokens
    divided by the row's count. -/
def avgOf (c : Dev nD) (O : FVec Ideal S2x4x1024 .f32) (s : Fin 2) : FVec Ideal S4 .f32 := fun i =>
  Ideal.div (∑ T : Fin 1024, O (ix3 s (i 0) T) * Mk m c (ix2 (i 0) T)) (Dn m c i)

end Cert.KernelIdeal.Val

end
-- ==== Proof.KiValue.Payloads.lean ====
/-
  The body's arithmetic read at an index, at the ideal values: the tile of logits is the contraction over the hidden
  axis plus the bias; the new running maximum, normaliser and picked logit are one step of the running recurrences on
  the row's tile; the stored output is picked logit minus (maximum plus logarithm of the normaliser).
-/
import proofs.«422609_j60095182405792_3_alg».proof.Proof.KiValue.Out
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

/-- The reduced index (b,r) with lane k put back is (b,r,k). -/
theorem lift_ix2 (b : Fin 4) (r : Fin 256) (k : Fin 1280) :
    reduces_S4x256x1280_S4x256.lift (ix2 b r) k = ix3 b r k := by
  funext c
  apply Fin.ext
  match c with
  | ⟨0, _⟩ => rfl
  | ⟨1, _⟩ => rfl
  | ⟨2, _⟩ => rfl

/-- The word the lane maximum starts from is −∞. -/
theorem negInf_f32 : Ideal.ofBits .f32 0xFF800000#32 = (⊥ : EReal) := by
  simp [Ideal.ofBits, Ideal.ieee]

/-- The new running maximum. -/
theorem pay1_apply (v14 : FVec Ideal S4x256x1280 .f32) (v33 : Vec Ideal S4x256 .f32) (b : Fin 4) (r : Fin 256) :
    k0_pay1 (F := Ideal) v14 v33 (ix2 b r) = nextM (v33 (ix2 b r)) (fun j : Fin 1280 => v14 (ix3 b r j)) := by
  unfold k0_pay1 nextM tileMax
  refine (maximumf_apply _ _ _).trans ?_
  refine congrArg (max (v33 (ix2 b r))) ?_
  refine (Ideal.multiReduction_maximumf_single v14 0xFF800000#32 reduces_S4x256x1280_S4x256 (.inl rfl) rfl (ix2 b r)).trans ?_
  show Finset.fold max (Ideal.ofBits .f32 0xFF800000#32)
      (fun j : Fin 1280 => v14 (reduces_S4x256x1280_S4x256.lift (ix2 b r) j)) Finset.univ = _
  rw [negInf_f32]
  simp only [lift_ix2]

theorem pay3_apply (v14 : FVec Ideal S4x256x1280 .f32) (v33 : Vec Ideal S4x256 .f32) (b : Fin 4) (r : Fin 256) :
    k0_pay3 (F := Ideal) v14 v33 (ix2 b r) = nextM (v33 (ix2 b r)) (fun j : Fin 1280 => v14 (ix3 b r j)) := by
  unfold k0_pay3
  rw [shapeCast_self]
  exact pay1_apply v14 v33 b r

/-- A [4,256] array viewed [4,256,1] and spread along the lanes reads its (b,r) entry at every lane. -/
theorem keepdims_apply {α : Type} (v : S4x256.Idx → α) (b : Fin 4) (r : Fin 256) (j : Fin 1280) :
    broadcastTo S4x256x1280 (shapeCast S4x256x1 v shapeCasts_S4x256_S4x256x1) broadcasts_S4x256x1_S4x256x1280 (ix3 b r j) = v (ix2 b r) := by
  refine (broadcastTo_apply _ _ (ix3 b r j) (ix3 b r (0 : Fin 1)) fun a => ?_).trans ?_
  · match a with
    | ⟨0, _⟩ => rfl
    | ⟨1, _⟩ => rfl
    | ⟨2, _⟩ => rfl
  · exact shapeCast_apply _ _ _ _ (by
      rw [Shape.rowMajor_val_two, Shape.rowMajor_val_three]
      show b.val * 256 + r.val = (b.val * 256 + r.val) * 1 + 0
      omega)

/-- The new running normaliser (the body reads the old maximum twice: both reads are `M`). -/
theorem pay2_apply (v14 : FVec Ideal S4x256x1280 .f32) (M L : Vec Ideal S4x256 .f32) (b : Fin 4) (r : Fin 256) :
    k0_pay2 (F := Ideal) v14 M M L (ix2 b r) = nextL (M (ix2 b r)) (L (ix2 b r)) (fun j : Fin 1280 => v14 (ix3 b r j)) := by
  unfold k0_pay2 nextL
  rw [shapeCast_self]
  refine (addf_apply _ _ _).trans ?_
  refine congrArg₂ (· + ·) ?_ ?_
  · show Ideal.exp (M (ix2 b r) - k0_pay1 (F := Ideal) v14 M (ix2 b r)) * L (ix2 b r) = _
    rw [pay1_apply]
  · refine (Ideal.multiReduction_add_single _ 0x00000000#32 reduces_S4x256x1280_S4x256 (.inl rfl) rfl (ix2 b r)).trans ?_
    show ∑ j : Fin 1280, _ = _
    refine Finset.sum_congr rfl fun j _ => ?_
    show Ideal.exp (v14 (reduces_S4x256x1280_S4x256.lift (ix2 b r) j)
        - broadcastTo S4x256x1280 (shapeCast S4x256x1 (k0_pay1 (F := Ideal) v14 M) shapeCasts_S4x256_S4x256x1)
            broadcasts_S4x256x1_S4x256x1280 (reduces_S4x256x1280_S4x256.lift (ix2 b r) j)) = _
    rw [lift_ix2, keepdims_apply, pay1_apply]

/-! The operand indices of the product [1024,2048] × [1280,2048]ᵀ at an output index and a contraction index, axis by axis. -/

theorem lhs_mm_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem lhs_mm_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_mm_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem rhs_mm_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The product [1024,2048] × [1280,2048]ᵀ into a zero accumulator, at (R,j): the sum over the hidden axis. -/
theorem mm_apply (A : FVec Ideal S1024x2048 .bf16) (B : FVec Ideal S1280x2048 .bf16) (R : Fin 1024) (j : Fin 1280) :
    matmul dot_S1024x2048_S1280x2048_S1024x1280_1_1_0_0_n_n none A B (constant (F := Ideal) S1024x1280 .f32 0x00000000#32) (ix2 R j)
      = ∑ h : Fin 2048, A (ix2 R h) * B (ix2 j h) := by
  simp only [matmul]
  rw [Ideal.matmul_constant_zero_apply, ← Equiv.sum_comp (contrEquiv1 dot_S1024x2048_S1280x2048_S1024x1280_1_1_0_0_n_n 2048 rfl rfl).symm]
  refine Finset.sum_congr rfl fun k _ => ?_
  have hk := contrEquiv1_symm_val dot_S1024x2048_S1280x2048_S1024x1280_1_1_0_0_n_n 2048 rfl rfl k
  have el : dot_S1024x2048_S1280x2048_S1024x1280_1_1_0_0_n_n.lhsIdx (ix2 R j) ((contrEquiv1 dot_S1024x2048_S1280x2048_S1024x1280_1_1_0_0_n_n 2048 rfl rfl).symm k) = ix2 R k := funext fun a => Fin.ext (by
    match a with
    | ⟨0, _⟩ => exact lhs_mm_0 _ _
    | ⟨1, _⟩ => exact (lhs_mm_1 _ _).trans hk)
  have er : dot_S1024x2048_S1280x2048_S1024x1280_1_1_0_0_n_n.rhsIdx (ix2 R j) ((contrEquiv1 dot_S1024x2048_S1280x2048_S1024x1280_1_1_0_0_n_n 2048 rfl rfl).symm k) = ix2 j k := funext fun a => Fin.ext (by
    match a with
    | ⟨0, _⟩ => exact rhs_mm_0 _ _
    | ⟨1, _⟩ => exact (rhs_mm_1 _ _).trans hk)
  rw [el, er]

/-- A [1,1,1280] array spread over the rows reads its lane j at (b,r,j). -/
theorem lane_bcast_apply {α : Type} (v : S1x1x1280.Idx → α) (b : Fin 4) (r : Fin 256) (j : Fin 1280) :
    broadcastTo S4x256x1280 v broadcasts_S1x1x1280_S4x256x1280 (ix3 b r j) = v (ix3 (0 : Fin 1) (0 : Fin 1) j) := by
  refine broadcastTo_apply _ _ (ix3 b r j) (ix3 (0 : Fin 1) (0 : Fin 1) j) fun a => ?_
  match a with
  | ⟨0, _⟩ => rfl
  | ⟨1, _⟩ => rfl
  | ⟨2, _⟩ => rfl

/-- The input block [1,4,256,2048] viewed [1024,2048]: row b*256+r is row (b,r). -/
theorem x0_cast_apply {α : Type} (x0 : S1x4x256x2048.Idx → α) (b : Fin 4) (r : Fin 256) (h : Fin 2048) :
    shapeCast S1024x2048 (shapeCast S4x256x2048 x0 shapeCasts_S1x4x256x2048_S4x256x2048) shapeCasts_S4x256x2048_S1024x2048
        (ix2 (⟨b.val * 256 + r.val, by have := b.isLt; have := r.isLt; omega⟩ : Fin 1024) h)
      = x0 (ix4 (0 : Fin 1) b r h) := by
  refine (shapeCast_apply _ _ _ (ix3 b r h) (by
    rw [Shape.rowMajor_val_three, Shape.rowMajor_val_two]
    rfl)).trans ?_
  exact shapeCast_1abc_abc_apply _ _ b r h

/-- The tile of logits: row (b,r) of the input block against row j of the weight block, plus the bias block. -/
theorem pay8_apply (x0 : Vec Ideal S1x4x256x2048 .bf16) (x1 : Vec Ideal S1x1280x2048 .bf16) (x2 : Vec Ideal S1x1x1280 .f32)
    (b : Fin 4) (r : Fin 256) (j : Fin 1280) :
    k0_pay8 (F := Ideal) x0 x1 x2 (ix3 b r j)
      = (∑ h : Fin 2048, x0 (ix4 (0 : Fin 1) b r h) * x1 (ix3 (0 : Fin 1) j h)) + x2 (ix3 (0 : Fin 1) (0 : Fin 1) j) := by
  unfold k0_pay8
  refine (addf_apply _ _ _).trans ?_
  refine congrArg₂ (· + ·) ?_ ?_
  · refine (shapeCast_apply _ _ (ix3 b r j)
      (ix2 (⟨b.val * 256 + r.val, by have := b.isLt; have := r.isLt; omega⟩ : Fin 1024) j) (by
        rw [Shape.rowMajor_val_two, Shape.rowMajor_val_three]
        rfl)).trans ?_
    refine (mm_apply _ _ _ _).trans ?_
    refine Finset.sum_congr rfl fun h _ => ?_
    rw [x0_cast_apply, shapeCast_1ab_ab_apply]
  · rw [shapeCast_shapeCast]
    exact lane_bcast_apply x2 b r j

/-- The class word of lane j of tile kk, compared with a target word: equal exactly when the target is kk*1280 + j. -/
theorem class_word (kk : ℕ) (hk : kk < 25) (j : Fin 1280) (t : BitVec 32) :
    IntOp.cmpi .eq t (IntOp.addi (Scalar.muli (BitVec.ofNat 32 kk) 1280#32) (BitVec.ofNat 32 j.val)) = 1#1
      ↔ t.toNat = kk * 1280 + j.val := by
  have hj := j.isLt
  have hw : (IntOp.addi (Scalar.muli (BitVec.ofNat 32 kk) 1280#32) (BitVec.ofNat 32 j.val)).toNat = kk * 1280 + j.val := by
    simp only [IntOp.addi, Scalar.muli, IntOp.muli, BitVec.toNat_add, BitVec.toNat_mul, BitVec.toNat_ofNat]
    omega
  have hb : ∀ c : Bool, BitVec.ofBool c = 1#1 ↔ c = true := by intro c; cases c <;> decide
  unfold IntOp.cmpi
  rw [hb, beq_iff_eq, ← BitVec.toNat_inj, hw]

/-- The new running picked logit: the old one plus the tile's entries at the lanes whose class word is the target word. -/
theorem pay9_apply (i : grid0.Coords) (x0 : Vec Ideal S1x4x256x2048 .bf16) (x1 : Vec Ideal S1x1280x2048 .bf16) (x2 : Vec Ideal S1x1x1280 .f32)
    (x3 : Vec Ideal S4x256 .i32) (G : Vec Ideal S4x256 .f32) (b : Fin 4) (r : Fin 256) :
    k0_pay9 (F := Ideal) i x0 x1 x2 x3 G (ix2 b r)
      = G (ix2 b r) + ∑ j : Fin 1280,
          (if (x3 (ix2 b r) : BitVec 32).toNat = (i 2).val * 1280 + j.val then k0_pay8 (F := Ideal) x0 x1 x2 (ix3 b r j) else 0) := by
  have h25 : (i 2).val < 25 := (i 2).isLt
  unfold k0_pay9
  rw [shapeCast_self]
  refine (addf_apply _ _ _).trans ?_
  refine congrArg (G (ix2 b r) + ·) ?_
  refine (Ideal.multiReduction_add_single _ 0x00000000#32 reduces_S4x256x1280_S4x256 (.inl rfl) rfl (ix2 b r)).trans ?_
  show ∑ j : Fin 1280, _ = _
  refine Finset.sum_congr rfl fun j _ => ?_
  rw [lift_ix2]
  refine (select_apply _ _ _ _).trans ?_
  refine if_congr ?_ rfl Ideal.ofBits_zero_f32
  show IntOp.cmpi .eq
      (broadcastTo S4x256x1280 (shapeCast S4x256x1 x3 shapeCasts_S4x256_S4x256x1) broadcasts_S4x256x1_S4x256x1280 (ix3 b r j))
      (broadcastTo S4x256x1280
        (addi (broadcast S1x1x1280 (Scalar.muli (BitVec.ofNat 32 (i 2).val) 1280#32)) (iota .tc S1x1x1280 32 [2] iota_S1x1x1280_d2_w32))
        broadcasts_S1x1x1280_S4x256x1280 (ix3 b r j)) = 1#1 ↔ _
  rw [keepdims_apply, lane_bcast_apply]
  show IntOp.cmpi .eq (x3 (ix2 b r))
      (IntOp.addi (Scalar.muli (BitVec.ofNat 32 (i 2).val) 1280#32)
        (iota .tc S1x1x1280 32 [2] iota_S1x1x1280_d2_w32 (ix3 (0 : Fin 1) (0 : Fin 1) j))) = 1#1 ↔ _
  rw [iota_single_apply]
  exact class_word (i 2).val h25 j (x3 (ix2 b r))

/-- The stored output. -/
theorem pay4_apply (M L G : Vec Ideal S4x256 .f32) (b : Fin 4) (r : Fin 256) :
    k0_pay4 (F := Ideal) M L G (ix3 (0 : Fin 1) b r) = G (ix2 b r) - (M (ix2 b r) + Ideal.log (L (ix2 b r))) := by
  unfold k0_pay4
  refine (shapeCast_ab_1ab_apply _ _ (0 : Fin 1) b r).trans ?_
  rfl

/-- The reset values. -/
theorem pay5_apply (y : S4x256.Idx) : k0_pay5 (F := Ideal) y = negInit := by
  unfold k0_pay5 negInit
  rw [shapeCast_self]
  rfl
theorem pay6_apply (y : S4x256.Idx) : k0_pay6 (F := Ideal) y = 0 := by
  unfold k0_pay6
  rw [shapeCast_self]
  exact Ideal.ofBits_zero_f32
theorem pay7_apply (y : S4x256.Idx) : k0_pay7 (F := Ideal) y = 0 := by
  unfold k0_pay7
  rw [shapeCast_self]
  exact Ideal.ofBits_zero_f32

end Cert.KernelIdeal.Val

end
-- ==== Proof.KiValue.Blocks.lean ====
/-
  Each window's block at a grid point, read off the stacked arrays. Point t of the 2×4×25 grid is projection
  s = t / 100, row block t / 25 mod 4 (256 tokens) and class tile t mod 25 (1280 classes).
-/
import proofs.«422609_j60095182405792_3_alg».proof.Proof.KiValue.Out

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-- The grid point's coordinates from its position. -/
theorem coords_val : ∀ t : Fin cfg0.N, (grid0.coords t 0).val = t.val / 100 ∧ (grid0.coords t 1).val = t.val / 25 % 4 ∧ (grid0.coords t 2).val = t.val % 25 :=
  (by decide +kernel : ∀ t : Fin grid0.N, (grid0.coords t 0).val = t.val / 100 ∧ (grid0.coords t 1).val = t.val / 25 % 4 ∧ (grid0.coords t 2).val = t.val % 25)

/-- The projection, the token and the class a point's block entry belongs to. -/
def sOf (t : Fin cfg0.N) : Fin 2 := ⟨t.val / 100, by have := t.isLt; have : cfg0.N = 200 := N_0; omega⟩
def rowOf (t : Fin cfg0.N) (r : Fin 256) : Fin 1024 := ⟨t.val / 25 % 4 * 256 + r.val, by have := r.isLt; omega⟩
def clsOf (t : Fin cfg0.N) (j : Fin 1280) : Fin 32000 := ⟨t.val % 25 * 1280 + j.val, by have := j.isLt; omega⟩

/-- The windows' block positions over the grid: window 0 sits at (projection, 0, row block, 0), window 1 at
    (projection, class tile, 0), window 2 at (projection, 0, class tile), window 3 at (0, row block). -/
theorem blockPos : ∀ t : Fin cfg0.N,
    (win0_0.index t (0 : Fin 4) = t.val / 100 ∧ win0_0.index t (1 : Fin 4) = 0 ∧ win0_0.index t (2 : Fin 4) = t.val / 25 % 4 ∧ win0_0.index t (3 : Fin 4) = 0)
    ∧ (win0_1.index t (0 : Fin 3) = t.val / 100 ∧ win0_1.index t (1 : Fin 3) = t.val % 25 ∧ win0_1.index t (2 : Fin 3) = 0)
    ∧ (win0_2.index t (0 : Fin 3) = t.val / 100 ∧ win0_2.index t (1 : Fin 3) = 0 ∧ win0_2.index t (2 : Fin 3) = t.val % 25)
    ∧ (win0_3.index t (0 : Fin 2) = 0 ∧ win0_3.index t (1 : Fin 2) = t.val / 25 % 4) :=
  (by decide +kernel : ∀ t : Fin grid0.N,
    (win0_0.index t (0 : Fin 4) = t.val / 100 ∧ win0_0.index t (1 : Fin 4) = 0 ∧ win0_0.index t (2 : Fin 4) = t.val / 25 % 4 ∧ win0_0.index t (3 : Fin 4) = 0)
    ∧ (win0_1.index t (0 : Fin 3) = t.val / 100 ∧ win0_1.index t (1 : Fin 3) = t.val % 25 ∧ win0_1.index t (2 : Fin 3) = 0)
    ∧ (win0_2.index t (0 : Fin 3) = t.val / 100 ∧ win0_2.index t (1 : Fin 3) = 0 ∧ win0_2.index t (2 : Fin 3) = t.val % 25)
    ∧ (win0_3.index t (0 : Fin 2) = 0 ∧ win0_3.index t (1 : Fin 2) = t.val / 25 % 4))

theorem iblk0_apply (c : Dev nD) (t : Fin cfg0.N) (b : Fin 4) (r : Fin 256) (h : Fin 2048) :
    (iblk m c 0 t : Vec Ideal S1x4x256x2048 .bf16) (ix4 (0 : Fin 1) b r h) = Xs m c (ix4 (sOf t) b (rowOf t r) h) := by
  obtain ⟨⟨e0, e1, e2, e3⟩, -, -, -⟩ := blockPos t
  show V m c main_v8 (((cfg0.win 0).blk t).view.emb (ix4 (0 : Fin 1) b r h)) = V m c main_v8 (ix4 (sOf t) b (rowOf t r) h)
  congr 1
  funext a; apply Fin.ext
  match a with
  | ⟨0, _⟩ => show win0_0.index t (0 : Fin 4) * 1 + 1 * (0 : Fin 1).val = t.val / 100; rw [e0]; simp
  | ⟨1, _⟩ => show win0_0.index t (1 : Fin 4) * 4 + 1 * b.val = b.val; omega
  | ⟨2, _⟩ => show win0_0.index t (2 : Fin 4) * 256 + 1 * r.val = t.val / 25 % 4 * 256 + r.val; omega
  | ⟨3, _⟩ => show win0_0.index t (3 : Fin 4) * 2048 + 1 * h.val = h.val; omega

theorem iblk1_apply (c : Dev nD) (t : Fin cfg0.N) (j : Fin 1280) (h : Fin 2048) :
    (iblk m c 1 t : Vec Ideal S1x1280x2048 .bf16) (ix3 (0 : Fin 1) j h) = Ws m c (ix3 (sOf t) (clsOf t j) h) := by
  obtain ⟨-, ⟨e0, e1, e2⟩, -, -⟩ := blockPos t
  show V m c main_v13 (((cfg0.win 1).blk t).view.emb (ix3 (0 : Fin 1) j h)) = V m c main_v13 (ix3 (sOf t) (clsOf t j) h)
  congr 1
  funext a; apply Fin.ext
  match a with
  | ⟨0, _⟩ => show win0_1.index t (0 : Fin 3) * 1 + 1 * (0 : Fin 1).val = t.val / 100; rw [e0]; simp
  | ⟨1, _⟩ => show win0_1.index t (1 : Fin 3) * 1280 + 1 * j.val = t.val % 25 * 1280 + j.val; omega
  | ⟨2, _⟩ => show win0_1.index t (2 : Fin 3) * 2048 + 1 * h.val = h.val; omega

theorem iblk2_apply (c : Dev nD) (t : Fin cfg0.N) (j : Fin 1280) :
    (iblk m c 2 t : Vec Ideal S1x1x1280 .f32) (ix3 (0 : Fin 1) (0 : Fin 1) j) = Bs m c (ix3 (sOf t) (0 : Fin 1) (clsOf t j)) := by
  obtain ⟨-, -, ⟨e0, e1, e2⟩, -⟩ := blockPos t
  show V m c main_v18 (((cfg0.win 2).blk t).view.emb (ix3 (0 : Fin 1) (0 : Fin 1) j)) = V m c main_v18 (ix3 (sOf t) (0 : Fin 1) (clsOf t j))
  congr 1
  funext a; apply Fin.ext
  match a with
  | ⟨0, _⟩ => show win0_2.index t (0 : Fin 3) * 1 + 1 * (0 : Fin 1).val = t.val / 100; rw [e0]; simp
  | ⟨1, _⟩ => show win0_2.index t (1 : Fin 3) * 1 + 1 * (0 : Fin 1).val = (0 : Fin 1).val; rw [e1]; simp
  | ⟨2, _⟩ => show win0_2.index t (2 : Fin 3) * 1280 + 1 * j.val = t.val % 25 * 1280 + j.val; omega

theorem iblk3_apply (c : Dev nD) (t : Fin cfg0.N) (b : Fin 4) (r : Fin 256) :
    (iblk m c 3 t : Vec Ideal S4x256 .i32) (ix2 b r) = Tg m c (ix2 b (rowOf t r)) := by
  obtain ⟨-, -, -, ⟨e0, e1⟩⟩ := blockPos t
  show V m c main_arg2 (((cfg0.win 3).blk t).view.emb (ix2 b r)) = V m c main_arg2 (ix2 b (rowOf t r))
  congr 1
  funext a; apply Fin.ext
  match a with
  | ⟨0, _⟩ => show win0_3.index t (0 : Fin 2) * 4 + 1 * b.val = b.val; omega
  | ⟨1, _⟩ => show win0_3.index t (1 : Fin 2) * 256 + 1 * r.val = t.val / 25 % 4 * 256 + r.val; omega

end Cert.KernelIdeal.Val

end
-- ==== Proof.KiValue.Invariant.lean ====
/-
  The invariant of the grid walk, by induction on the point: after the point at position n (projection s, row block,
  class tile k = n mod 25) the three scratch arrays hold, at row (b,r), the running maximum, normaliser and picked
  logit of that token's logits after tiles 0 … k; at a last tile (k = 24) the output window's buffer holds the
  picked logit minus (maximum plus logarithm of the normaliser): the named output array's entry.
-/
import proofs.«422609_j60095182405792_3_alg».proof.Proof.KiFrame.Frame
import proofs.«422609_j60095182405792_3_alg».proof.Proof.KiFrame.Pieces
import proofs.«422609_j60095182405792_3_alg».proof.Proof.KiValue.Payloads
import proofs.«422609_j60095182405792_3_alg».proof.Proof.KiValue.Blocks

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-- The tile of logits the body computes at point t is tile (t mod 25) of the row's logits. -/
theorem pay8_at (c : Dev nD) (t : Fin cfg0.N) (b : Fin 4) (r : Fin 256) (j : Fin 1280) :
    k0_pay8 (F := Ideal) (iblk m c 0 t) (iblk m c 1 t) (iblk m c 2 t) (ix3 b r j)
      = tile m c (sOf t) b (rowOf t r) (t.val % 25) j := by
  rw [pay8_apply]
  simp only [iblk0_apply, iblk1_apply, iblk2_apply]
  unfold tile klogit
  have hlt : t.val % 25 * 1280 + j.val < 32000 := by have := j.isLt; omega
  rw [dif_pos hlt]
  rfl

/-- The lanes the body selects at point t are the positions whose class is the token's target. -/
theorem sel_at (c : Dev nD) (t : Fin cfg0.N) (b : Fin 4) (r : Fin 256) (j : Fin 1280) :
    (if ((iblk m c 3 t : Vec Ideal S4x256 .i32) (ix2 b r) : BitVec 32).toNat = (grid0.coords t 2).val * 1280 + j.val
        then k0_pay8 (F := Ideal) (iblk m c 0 t) (iblk m c 1 t) (iblk m c 2 t) (ix3 b r j) else 0)
      = sel m c (sOf t) b (rowOf t r) (t.val % 25) j := by
  rw [iblk3_apply, (coords_val t).2.2, pay8_at]
  rfl

/-- One more tile of the same row: the next point of a row block has the same projection and row block. -/
theorem sOf_succ (n : ℕ) (hn : n + 1 < cfg0.N) (h0 : ¬(n + 1) % 25 = 0) :
    sOf ⟨n + 1, hn⟩ = sOf ⟨n, Nat.lt_of_succ_lt hn⟩ := by
  unfold sOf; apply Fin.ext; show (n + 1) / 100 = n / 100; omega
theorem rowOf_succ (n : ℕ) (hn : n + 1 < cfg0.N) (h0 : ¬(n + 1) % 25 = 0) (r : Fin 256) :
    rowOf ⟨n + 1, hn⟩ r = rowOf ⟨n, Nat.lt_of_succ_lt hn⟩ r := by
  unfold rowOf; apply Fin.ext; show (n + 1) / 25 % 4 * 256 + r.val = n / 25 % 4 * 256 + r.val
  have : (n + 1) / 25 = n / 25 := by omega
  rw [this]

/-- A first tile of a row block: one step of the recurrences from the start values. -/
theorem at_first (c : Dev nD) (t : Fin cfg0.N) (h0 : t.val % 25 = 0) (b : Fin 4) (r : Fin 256) :
    (outsAt0 m c t.val t.isLt).2.1 (ix2 b r) = nextM negInit (tile m c (sOf t) b (rowOf t r) 0)
    ∧ (outsAt0 m c t.val t.isLt).2.2.1 (ix2 b r) = nextL negInit 0 (tile m c (sOf t) b (rowOf t r) 0)
    ∧ (outsAt0 m c t.val t.isLt).2.2.2 (ix2 b r) = 0 + ∑ j : Fin 1280, sel m c (sOf t) b (rowOf t r) 0 j := by
  have h1 : ¬t.val % 25 = 24 := by omega
  rw [outsAt0_A m c t h0 h1]
  unfold tupA
  dsimp only
  rw [A_s0, A_s1, A_s2]
  refine ⟨?_, ?_, ?_⟩
  · rw [pay3_apply]; simp only [pay5_apply, pay8_at, h0]
  · rw [pay2_apply]; simp only [pay5_apply, pay6_apply, pay8_at, h0]
  · rw [pay9_apply]; simp only [pay7_apply, sel_at, h0]

set_option maxHeartbeats 2000000 in
/-- A later tile: one step of the recurrences from what the point before left. -/
theorem at_later (c : Dev nD) (t : Fin cfg0.N) (h0 : ¬t.val % 25 = 0) (b : Fin 4) (r : Fin 256) :
    (outsAt0 m c t.val t.isLt).2.1 (ix2 b r)
        = nextM ((outsAt0 m c (t.val - 1) (Nat.lt_of_le_of_lt (Nat.sub_le _ _) t.isLt)).2.1 (ix2 b r)) (tile m c (sOf t) b (rowOf t r) (t.val % 25))
    ∧ (outsAt0 m c t.val t.isLt).2.2.1 (ix2 b r)
        = nextL ((outsAt0 m c (t.val - 1) (Nat.lt_of_le_of_lt (Nat.sub_le _ _) t.isLt)).2.1 (ix2 b r)) ((outsAt0 m c (t.val - 1) (Nat.lt_of_le_of_lt (Nat.sub_le _ _) t.isLt)).2.2.1 (ix2 b r)) (tile m c (sOf t) b (rowOf t r) (t.val % 25))
    ∧ (outsAt0 m c t.val t.isLt).2.2.2 (ix2 b r)
        = (outsAt0 m c (t.val - 1) (Nat.lt_of_le_of_lt (Nat.sub_le _ _) t.isLt)).2.2.2 (ix2 b r) + ∑ j : Fin 1280, sel m c (sOf t) b (rowOf t r) (t.val % 25) j := by
  by_cases h1 : t.val % 25 = 24
  · have e := outsAt0_C m c t h0 h1
    rw [e]
    unfold tupC
    dsimp only
    rw [C_s0, C_s1, C_s2]
    refine ⟨?_, ?_, ?_⟩
    · rw [pay3_apply]; simp only [pay8_at]
    · rw [pay2_apply]; simp only [pay8_at]
    · rw [pay9_apply]; simp only [sel_at]
  · have e := outsAt0_B m c t h0 h1
    rw [e]
    unfold tupB
    dsimp only
    rw [B_s0, B_s1, B_s2]
    refine ⟨?_, ?_, ?_⟩
    · rw [pay3_apply]; simp only [pay8_at]
    · rw [pay2_apply]; simp only [pay8_at]
    · rw [pay9_apply]; simp only [sel_at]

/-- THE INVARIANT. -/
theorem inv (c : Dev nD) : ∀ (n : ℕ) (hn : n < cfg0.N) (b : Fin 4) (r : Fin 256),
    (outsAt0 m c n hn).2.1 (ix2 b r) = stM negInit (tile m c (sOf ⟨n, hn⟩) b (rowOf ⟨n, hn⟩ r)) (n % 25 + 1)
    ∧ (outsAt0 m c n hn).2.2.1 (ix2 b r) = stL negInit (tile m c (sOf ⟨n, hn⟩) b (rowOf ⟨n, hn⟩ r)) (n % 25 + 1)
    ∧ (outsAt0 m c n hn).2.2.2 (ix2 b r) = stG (sel m c (sOf ⟨n, hn⟩) b (rowOf ⟨n, hn⟩ r)) (n % 25 + 1) := by
  intro n
  induction n with
  | zero =>
    intro hn b r
    have h := at_first m c ⟨0, hn⟩ (Nat.zero_mod _) b r
    exact h
  | succ n ih =>
    intro hn b r
    by_cases h0 : (n + 1) % 25 = 0
    · have h := at_first m c ⟨n + 1, hn⟩ h0 b r
      rw [h0]
      exact h
    · have h := at_later m c ⟨n + 1, hn⟩ h0 b r
      have hi := ih (Nat.lt_of_succ_lt hn) b r
      have hk : (n + 1) % 25 = n % 25 + 1 := by omega
      rw [sOf_succ n hn h0, rowOf_succ n hn h0, hk] at h ⊢
      obtain ⟨hM, hL, hG⟩ := h
      obtain ⟨iM, iL, iG⟩ := hi
      refine ⟨?_, ?_, ?_⟩
      · rw [hM]; show nextM _ _ = nextM _ _; rw [← iM]; rfl
      · rw [hL]; show nextL _ _ _ = nextL _ _ _; rw [← iM, ← iL]; rfl
      · rw [hG]; show _ + _ = _ + _; rw [← iG]; rfl

set_option maxHeartbeats 2000000 in
/-- At a last tile the output window's buffer holds the named output array's entry. -/
theorem out_last (c : Dev nD) (t : Fin cfg0.N) (h1 : t.val % 25 = 24) (b : Fin 4) (r : Fin 256) :
    (outsAt0 m c t.val t.isLt).1 (ix3 (0 : Fin 1) b r) = OutK m c (ix3 (sOf t) b (rowOf t r)) := by
  have h0 : ¬t.val % 25 = 0 := by omega
  obtain ⟨iM, iL, iG⟩ := inv m c t.val t.isLt b r
  rw [h1] at iM iL iG
  have e := outsAt0_C m c t h0 h1
  have eM : (outsAt0 m c t.val t.isLt).2.1 = k0_pay3 (F := Ideal) (k0_pay8 (iblk m c 0 t) (iblk m c 1 t) (iblk m c 2 t)) (outsAt0 m c (t.val - 1) (Nat.lt_of_le_of_lt (Nat.sub_le _ _) t.isLt)).2.1 := by
    rw [e]; unfold tupC; dsimp only; rw [C_s0]
  have eL : (outsAt0 m c t.val t.isLt).2.2.1 = k0_pay2 (F := Ideal) (k0_pay8 (iblk m c 0 t) (iblk m c 1 t) (iblk m c 2 t)) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1 := by
    rw [e]; unfold tupC; dsimp only; rw [C_s1]
  have eG : (outsAt0 m c t.val t.isLt).2.2.2 = k0_pay9 (F := Ideal) (grid0.coords t) (iblk m c 0 t) (iblk m c 1 t) (iblk m c 2 t) (iblk m c 3 t) (outsAt0 m c (t.val - 1) (Nat.lt_of_le_of_lt (Nat.sub_le _ _) t.isLt)).2.2.2 := by
    rw [e]; unfold tupC; dsimp only; rw [C_s2]
  have eO : (outsAt0 m c t.val t.isLt).1 = k0_pay4 (F := Ideal) (outsAt0 m c t.val t.isLt).2.1 (outsAt0 m c t.val t.isLt).2.2.1 (outsAt0 m c t.val t.isLt).2.2.2 := by
    rw [eM, eL, eG, e]; unfold tupC; dsimp only; rw [C_out]
  rw [eO, pay4_apply, iM, iL, iG]
  rfl

end Cert.KernelIdeal.Val

end
-- ==== Proof.KiValue.Final.lean ====
/-
  The output array after the run. The output window is written back exactly at the last tile of each row block; what
  is written back there is that block of the named output array, and those blocks cover the array: so the array ends
  holding it.
-/
import proofs.«422609_j60095182405792_3_alg».proof.Proof.KiValue.Invariant

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-- The output window's block position over the grid: (projection, 0, row block). -/
theorem outPos : ∀ t : Fin cfg0.N, win0_4.index t (0 : Fin 3) = t.val / 100 ∧ win0_4.index t (1 : Fin 3) = 0 ∧ win0_4.index t (2 : Fin 3) = t.val / 25 % 4 :=
  (by decide +kernel : ∀ t : Fin grid0.N, win0_4.index t (0 : Fin 3) = t.val / 100 ∧ win0_4.index t (1 : Fin 3) = 0 ∧ win0_4.index t (2 : Fin 3) = t.val / 25 % 4)

set_option maxHeartbeats 2000000 in
/-- What a last tile writes back is its block of the named output array. -/
theorem flushed_eq (c : Dev nD) (t : Fin cfg0.N) (hf : (cfg0.win 4).flush t = true) :
    (dats m 0 c).flushed 4 t = ((cfg0.win 4).blk t).view.read (Elt Ideal) (OutK m c) := by
  have h1 : t.val % 25 = 24 := (flush0_4 t).mp hf
  obtain ⟨e0, e1, e2⟩ := outPos t
  show (cfg0.win 4).cut (grid0.coords t) ((dats m 0 c).after 4 t) = _
  rw [after0_4]
  funext j
  show (outsAt0 m c t.val t.isLt).1 j = OutK m c (((cfg0.win 4).blk t).view.emb j)
  obtain ⟨a, b, r, rfl⟩ : ∃ (a : Fin 1) (b : Fin 4) (r : Fin 256), j = ix3 a b r := ⟨j 0, j 1, j 2, eq_ix3 j⟩
  obtain rfl : a = 0 := Subsingleton.elim _ _
  rw [out_last m c t h1 b r]
  congr 1
  funext x; apply Fin.ext
  match x with
  | ⟨0, _⟩ => show t.val / 100 = win0_4.index t (0 : Fin 3) * 1 + 1 * (0 : Fin 1).val; rw [e0]; simp
  | ⟨1, _⟩ => show b.val = win0_4.index t (1 : Fin 3) * 4 + 1 * b.val; omega
  | ⟨2, _⟩ => show t.val / 25 % 4 * 256 + r.val = win0_4.index t (2 : Fin 3) * 256 + 1 * r.val; omega

/-- An index of the array is in point t's block iff each coordinate is in the block's range on its axis. -/
theorem mem_blk4 (t : Fin cfg0.N) (i : S2x4x1024.Idx) :
    i ∈ ((cfg0.win 4).blk t).view.set ↔ ∀ a : Fin 3, win0_4.index t a * S1x4x256.size a ≤ (i a).val ∧ (i a).val < win0_4.index t a * S1x4x256.size a + S1x4x256.size a := by
  show i ∈ ((View.whole main_v19).slice (win0_4.rect t)).set ↔ _
  rw [View.set_slice_whole, Rect.mem_set_unit]
  exact Iff.rfl

/-- Every index of the array is in the block some last tile writes back. -/
theorem cover4 (i : S2x4x1024.Idx) : ∃ t : Fin cfg0.N, (cfg0.win 4).flush t = true ∧ i ∈ ((cfg0.win 4).blk t).view.set := by
  have hi0 : (i 0).val < 2 := (i 0).isLt
  have hi1 : (i 1).val < 4 := (i 1).isLt
  have hi2 : (i 2).val < 1024 := (i 2).isLt
  have hN : cfg0.N = 200 := N_0
  have hlt : (i 0).val * 100 + (i 2).val / 256 * 25 + 24 < cfg0.N := by rw [hN]; omega
  refine ⟨⟨(i 0).val * 100 + (i 2).val / 256 * 25 + 24, hlt⟩, (flush0_4 _).mpr (by show ((i 0).val * 100 + (i 2).val / 256 * 25 + 24) % 25 = 24; omega), ?_⟩
  rw [mem_blk4]
  obtain ⟨e0, e1, e2⟩ := outPos ⟨(i 0).val * 100 + (i 2).val / 256 * 25 + 24, hlt⟩
  intro a
  match a with
  | ⟨0, _⟩ => show win0_4.index _ (0 : Fin 3) * 1 ≤ (i 0).val ∧ (i 0).val < win0_4.index _ (0 : Fin 3) * 1 + 1; rw [e0]; show ((i 0).val * 100 + (i 2).val / 256 * 25 + 24) / 100 * 1 ≤ (i 0).val ∧ (i 0).val < ((i 0).val * 100 + (i 2).val / 256 * 25 + 24) / 100 * 1 + 1; omega
  | ⟨1, _⟩ => show win0_4.index _ (1 : Fin 3) * 4 ≤ (i 1).val ∧ (i 1).val < win0_4.index _ (1 : Fin 3) * 4 + 4; rw [e1]; omega
  | ⟨2, _⟩ => show win0_4.index _ (2 : Fin 3) * 256 ≤ (i 2).val ∧ (i 2).val < win0_4.index _ (2 : Fin 3) * 256 + 256; rw [e2]; show ((i 0).val * 100 + (i 2).val / 256 * 25 + 24) / 25 % 4 * 256 ≤ (i 2).val ∧ (i 2).val < ((i 0).val * 100 + (i 2).val / 256 * 25 + 24) / 25 % 4 * 256 + 256; omega

/-- THE OUTPUT ARRAY after the run. -/
theorem final4 (c : Dev nD) : (dats m 0 c).arrAt 4 cfg0.N = OutK m c :=
  (dats m 0 c).arrAt_eq_of_cover 4 (OutK m c) (flushed_eq m c) (cover4)

end Cert.KernelIdeal.Val

end
-- ==== Proof.KiValue.Tail.lean ====
/-
  The host lines after the region, read back: whatever output array O the region leaves, the three results are the
  specification's scalars of the difference of the two row means of O.
-/
import proofs.«422609_j60095182405792_3_alg».proof.Proof.KiValue.Out
import Idealize.ShloMosaic.PureOps.Ideal.Laws
import Idealize.ShloMosaic.Lib.Pipeline.Value
import Idealize.ShloMosaic.Lib.IdealHost

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

variable (dats : (p : Fin 1) → (c : Dev nD) → Pipeline.Dat τ (Elt Ideal) Unit ℕ (UR sig nD τ) ℕ (cfgs p) c)

/-- The masked sum of row block s of an output array over the tokens, divided by the row's count, read at a row. -/
theorem rowMean_eq (O : FVec Ideal S2x4x1024 .f32) (M : FVec Ideal S4x1024 .f32) (D : FVec Ideal S4 .f32)
    (s : Fin 2) (off : Fin S2x4x1024.rank → ℕ) (hs : S2x4x1024.Slices off S1x4x1024)
    (hoff : ∀ a, off a = (![s.val, 0, 0] : Fin 3 → ℕ) a)
    (hc : S1x4x1024.ShapeCasts S4x1024) (hr : S4x1024.ReducesTo [1] S4) (h0 : 0 < S_.numel) :
    Host.divf (Host.reduceAdd (mulf (fun i => shapeCast S4x1024 (extractStridedSlice S1x4x1024 off O hs) hc i) M)
      (constant (F := Ideal) S_ .f32 0#32) hr h0) D
    = fun i => Ideal.div (∑ T : Fin 1024, O (ix3 s (i 0) T) * M (ix2 (i 0) T)) (D i) := by
  funext i
  show Ideal.div (Ideal.hostReduceAdd hr _ _ i) (D i) = _
  rw [Ideal.hostReduceAdd_single hr (by decide : S4x1024.Reduces [1] S4)]
  congr 1
  rw [show (constant (F := Ideal) S_ .f32 0#32 (Shape.Idx.first h0) : EReal) = 0 from Ideal.ofBits_zero_f32, zero_add]
  refine Finset.sum_congr rfl fun k _ => ?_
  have hl : (by decide : S4x1024.Reduces [1] S4).lift i k = ix2 (i 0) k := by
    funext a; match a with | ⟨0, _⟩ => rfl | ⟨1, _⟩ => rfl
  rw [hl]
  show shapeCast S4x1024 (extractStridedSlice S1x4x1024 off O hs) hc (ix2 (i 0) k) * M (ix2 (i 0) k) = _
  congr 1
  refine (shapeCast_dropUnit_apply ![4, 1024] _ hc _).trans ?_
  refine extractStridedSlice_apply off O hs _ (ix3 s (i 0) k) fun a => ?_
  match a with
  | ⟨0, _⟩ => rw [hoff]; rfl
  | ⟨1, _⟩ => rw [hoff]; exact (Nat.zero_add _).symm
  | ⟨2, _⟩ => rw [hoff]; exact (Nat.zero_add _).symm

set_option maxHeartbeats 4000000 in
theorem tail_loss (c : Dev nD) (O : FVec Ideal S2x4x1024 .f32) (hO : (dats 0 c).arrAt 4 cfg0.N = O) :
    Pipeline.afterTail₀ cfgs dats 0 (V0 m) [hostOps1, hostOps1_1, hostOps1_2, hostOps1_3, hostOps1_4, hostOps1_5, hostOps1_6] c main_v57
      = Cert.Spec.loss Facts₀.bcast_S_S4 Facts₀.reducesTo_S4_S_d0 Facts₀.h_S_ (m ((c : Thread nD τ).loc main_arg3))
          (subf (avgOf m c O 0) (avgOf m c O 1)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  have h19 : Pipeline.withArrays (cfgs 0).spec c (V0 m c) (fun w => (dats 0 c).arrAt w (cfgs 0).N) (Proc.devRef .tc main_v19) = O :=
    (Pipeline.withArrays_arr spec0 launch0.win.arr_inj c _ _ 4).trans hO
  have h2 : Pipeline.withArrays (cfgs 0).spec c (V0 m c) (fun w => (dats 0 c).arrAt w (cfgs 0).N) (Proc.devRef .tc main_v2) = Mk m c :=
    Pipeline.withArrays_of_ne _ c (V0 m c) _ main_v2 (by exact (by decide : ∀ w, Pipeline.arrRef spec0 w ≠ main_v2))
  have h3 : Pipeline.withArrays (cfgs 0).spec c (V0 m c) (fun w => (dats 0 c).arrAt w (cfgs 0).N) (Proc.devRef .tc main_v3) = Dn m c :=
    Pipeline.withArrays_of_ne _ c (V0 m c) _ main_v3 (by exact (by decide : ∀ w, Pipeline.arrRef spec0 w ≠ main_v3))
  have ha : Pipeline.withArrays (cfgs 0).spec c (V0 m c) (fun w => (dats 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [h19, h2, h3, ha]
  have e0 := rowMean_eq O (Mk m c) (Dn m c) 0 ![0, 0, 0] slices_S2x4x1024_S1x4x1024_0_0_0 (fun a => by fin_cases a <;> rfl)
    shapeCasts_S1x4x1024_S4x1024 reducesTo_S4x1024_S4_d1 h_S_
  have e1 := rowMean_eq O (Mk m c) (Dn m c) 1 ![1, 0, 0] slices_S2x4x1024_S1x4x1024_1_0_0 (fun a => by fin_cases a <;> rfl)
    shapeCasts_S1x4x1024_S4x1024 reducesTo_S4x1024_S4_d1 h_S_
  refine Eq.trans ?_ (congrArg₂ (fun A B => Cert.Spec.loss Facts₀.bcast_S_S4 Facts₀.reducesTo_S4_S_d0 Facts₀.h_S_
    (m ((c : Thread nD τ).loc main_arg3)) (subf A B)) e0 e1)
  rfl

set_option maxHeartbeats 4000000 in
theorem tail_chosen (c : Dev nD) (O : FVec Ideal S2x4x1024 .f32) (hO : (dats 0 c).arrAt 4 cfg0.N = O) :
    Pipeline.afterTail₀ cfgs dats 0 (V0 m) [hostOps1, hostOps1_1, hostOps1_2, hostOps1_3, hostOps1_4, hostOps1_5, hostOps1_6] c main_v61
      = Cert.Spec.chosenSum Facts₀.bcast_S_S4 Facts₀.reducesTo_S4_S_d0 Facts₀.h_S_ (m ((c : Thread nD τ).loc main_arg3))
          (subf (avgOf m c O 0) (avgOf m c O 1)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  have h19 : Pipeline.withArrays (cfgs 0).spec c (V0 m c) (fun w => (dats 0 c).arrAt w (cfgs 0).N) (Proc.devRef .tc main_v19) = O :=
    (Pipeline.withArrays_arr spec0 launch0.win.arr_inj c _ _ 4).trans hO
  have h2 : Pipeline.withArrays (cfgs 0).spec c (V0 m c) (fun w => (dats 0 c).arrAt w (cfgs 0).N) (Proc.devRef .tc main_v2) = Mk m c :=
    Pipeline.withArrays_of_ne _ c (V0 m c) _ main_v2 (by exact (by decide : ∀ w, Pipeline.arrRef spec0 w ≠ main_v2))
  have h3 : Pipeline.withArrays (cfgs 0).spec c (V0 m c) (fun w => (dats 0 c).arrAt w (cfgs 0).N) (Proc.devRef .tc main_v3) = Dn m c :=
    Pipeline.withArrays_of_ne _ c (V0 m c) _ main_v3 (by exact (by decide : ∀ w, Pipeline.arrRef spec0 w ≠ main_v3))
  have ha : Pipeline.withArrays (cfgs 0).spec c (V0 m c) (fun w => (dats 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [h19, h2, h3, ha]
  have e0 := rowMean_eq O (Mk m c) (Dn m c) 0 ![0, 0, 0] slices_S2x4x1024_S1x4x1024_0_0_0 (fun a => by fin_cases a <;> rfl)
    shapeCasts_S1x4x1024_S4x1024 reducesTo_S4x1024_S4_d1 h_S_
  have e1 := rowMean_eq O (Mk m c) (Dn m c) 1 ![1, 0, 0] slices_S2x4x1024_S1x4x1024_1_0_0 (fun a => by fin_cases a <;> rfl)
    shapeCasts_S1x4x1024_S4x1024 reducesTo_S4x1024_S4_d1 h_S_
  refine Eq.trans ?_ (congrArg₂ (fun A B => Cert.Spec.chosenSum Facts₀.bcast_S_S4 Facts₀.reducesTo_S4_S_d0 Facts₀.h_S_
    (m ((c : Thread nD τ).loc main_arg3)) (subf A B)) e0 e1)
  rfl

set_option maxHeartbeats 4000000 in
theorem tail_rejected (c : Dev nD) (O : FVec Ideal S2x4x1024 .f32) (hO : (dats 0 c).arrAt 4 cfg0.N = O) :
    Pipeline.afterTail₀ cfgs dats 0 (V0 m) [hostOps1, hostOps1_1, hostOps1_2, hostOps1_3, hostOps1_4, hostOps1_5, hostOps1_6] c main_v63
      = Cert.Spec.rejectedSum Facts₀.bcast_S_S4 Facts₀.reducesTo_S4_S_d0 Facts₀.h_S_ (m ((c : Thread nD τ).loc main_arg3))
          (subf (avgOf m c O 0) (avgOf m c O 1)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  have h19 : Pipeline.withArrays (cfgs 0).spec c (V0 m c) (fun w => (dats 0 c).arrAt w (cfgs 0).N) (Proc.devRef .tc main_v19) = O :=
    (Pipeline.withArrays_arr spec0 launch0.win.arr_inj c _ _ 4).trans hO
  have h2 : Pipeline.withArrays (cfgs 0).spec c (V0 m c) (fun w => (dats 0 c).arrAt w (cfgs 0).N) (Proc.devRef .tc main_v2) = Mk m c :=
    Pipeline.withArrays_of_ne _ c (V0 m c) _ main_v2 (by exact (by decide : ∀ w, Pipeline.arrRef spec0 w ≠ main_v2))
  have h3 : Pipeline.withArrays (cfgs 0).spec c (V0 m c) (fun w => (dats 0 c).arrAt w (cfgs 0).N) (Proc.devRef .tc main_v3) = Dn m c :=
    Pipeline.withArrays_of_ne _ c (V0 m c) _ main_v3 (by exact (by decide : ∀ w, Pipeline.arrRef spec0 w ≠ main_v3))
  have ha : Pipeline.withArrays (cfgs 0).spec c (V0 m c) (fun w => (dats 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [h19, h2, h3, ha]
  have e0 := rowMean_eq O (Mk m c) (Dn m c) 0 ![0, 0, 0] slices_S2x4x1024_S1x4x1024_0_0_0 (fun a => by fin_cases a <;> rfl)
    shapeCasts_S1x4x1024_S4x1024 reducesTo_S4x1024_S4_d1 h_S_
  have e1 := rowMean_eq O (Mk m c) (Dn m c) 1 ![1, 0, 0] slices_S2x4x1024_S1x4x1024_1_0_0 (fun a => by fin_cases a <;> rfl)
    shapeCasts_S1x4x1024_S4x1024 reducesTo_S4x1024_S4_d1 h_S_
  refine Eq.trans ?_ (congrArg₂ (fun A B => Cert.Spec.rejectedSum Facts₀.bcast_S_S4 Facts₀.reducesTo_S4_S_d0 Facts₀.h_S_
    (m ((c : Thread nD τ).loc main_arg3)) (subf A B)) e0 e1)
  rfl

end Cert.KernelIdeal.Val

end
-- ==== Proof.PreDecode.lean ====
/-
  The precondition read back: every float argument holds real numbers, and every target word is the
  ignored label −100 or a class index in [0, 32000).
-/
import proofs.«422609_j60095182405792_3_alg».proof.Pre_finite_inputs
import proofs.«422609_j60095182405792_3_alg».proof.Proof.Spec
import Idealize.ShloMosaic.Lib.ReduceAll

noncomputable section

namespace Cert.PreDecode

open Idealize.ShloMosaic Cert.Spec

/-- What the printed predicate says of the arguments it constrains. -/
structure Decoded (x : FVec Ideal SX .f32) (w : FVec Ideal SW .f32) (tg : IVec ST 32) (bias : FVec Ideal SB .f32)
    (rx : FVec Ideal SX .f32) (rw : FVec Ideal SW .f32) (rbias : FVec Ideal SB .f32) : Prop where
  x : ∀ i, ∃ r : ℝ, x i = (r : EReal)
  w : ∀ i, ∃ r : ℝ, w i = (r : EReal)
  bias : ∀ i, ∃ r : ℝ, bias i = (r : EReal)
  rx : ∀ i, ∃ r : ℝ, rx i = (r : EReal)
  rw : ∀ i, ∃ r : ℝ, rw i = (r : EReal)
  rbias : ∀ i, ∃ r : ℝ, rbias i = (r : EReal)
  tg : ∀ i, Admissible (tg i)

/-- The scalar shape has one index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- |x| < +∞ makes x a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One all-test of |a| < +∞, come out 1, makes every entry of a a real. -/
theorem all_real {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel)
    (a : FVec Ideal s .f32) (j : Cert.Pre_finite_inputs.S_.Idx)
    (h : Host.reduce IntOp.andi
          (cmpf .olt (Host.absf a) (broadcastInDim s ![] hb (constant (F := Ideal) Cert.Pre_finite_inputs.S_ .f32 0x7F800000#32)))
          (constantI Cert.Pre_finite_inputs.S_ 1 1#1) hr h0 j = 1#1) :
    ∀ i, ∃ r : ℝ, a i = (r : EReal) := by
  intro i
  have e := Host.reduce_andi_all _ _ hr h0 j h i
  change Ideal.cmp .olt (max (a i) (-(a i))) (Ideal.ofBits .f32 0x7F800000#32) = 1#1 at e
  rw [ofBits_inf] at e
  exact real_of_abs_lt_top _ e

/-- The conjunction of two one-bit scalars, read at the index. -/
theorem andi_apply_eq_one {s : Shape} (x y : IVec s 1) (j : s.Idx) : andi x y j = 1#1 ↔ x j = 1#1 ∧ y j = 1#1 :=
  IntOp.andi_eq_one

/-- The all-test of the targets, come out 1, makes every target admissible. -/
theorem all_admissible {axes : List (Fin Cert.Pre_finite_inputs.S4x1024.rank)}
    (hb : Cert.Pre_finite_inputs.S_.BroadcastsInDim Cert.Pre_finite_inputs.S4x1024 (![] : Fin 0 → Fin Cert.Pre_finite_inputs.S4x1024.rank))
    (hr : Cert.Pre_finite_inputs.S4x1024.ReducesTo axes Cert.Pre_finite_inputs.S_) (h0 : 0 < Cert.Pre_finite_inputs.S_.numel)
    (a : IVec Cert.Pre_finite_inputs.S4x1024 32) (j : Cert.Pre_finite_inputs.S_.Idx)
    (h : Host.reduce IntOp.andi
          (ori (cmpi .eq a (broadcastInDim Cert.Pre_finite_inputs.S4x1024 ![] hb (constantI Cert.Pre_finite_inputs.S_ 32 4294967196#32)))
            (andi (cmpi .sge a (broadcastInDim Cert.Pre_finite_inputs.S4x1024 ![] hb (constantI Cert.Pre_finite_inputs.S_ 32 0#32)))
                  (cmpi .slt a (broadcastInDim Cert.Pre_finite_inputs.S4x1024 ![] hb (constantI Cert.Pre_finite_inputs.S_ 32 32000#32)))))
          (constantI Cert.Pre_finite_inputs.S_ 1 1#1) hr h0 j = 1#1) :
    ∀ i, Admissible (a i) := by
  intro i
  have e := Host.reduce_andi_all _ _ hr h0 j h i
  change IntOp.ori (IntOp.cmpi .eq (a i) 4294967196#32)
      (IntOp.andi (IntOp.cmpi .sge (a i) 0#32) (IntOp.cmpi .slt (a i) 32000#32)) = 1#1 at e
  rw [IntOp.ori_eq_one, IntOp.andi_eq_one, IntOp.cmpi_eq, IntOp.cmpi_sge, IntOp.cmpi_slt] at e
  rcases e with e | ⟨e1, e2⟩
  · exact Or.inl e
  · exact Or.inr ⟨e1, e2⟩

/-- The printed predicate, all ones, gives the decoded facts. -/
theorem decode [Cert.Pre_finite_inputs.Facts]
    (a0 : FVec Ideal SX .f32) (a1 : FVec Ideal SW .f32) (a2 : IVec ST 32) (a3 : IVec S4 1) (a4 : FVec Ideal SB .f32)
    (a5 : FVec Ideal SX .f32) (a6 : FVec Ideal SW .f32) (a7 : FVec Ideal SB .f32)
    (h : Cert.Pre_finite_inputs.fn (F := Ideal) a0 a1 a2 a3 a4 a5 a6 a7 = fun _ => 1#1) :
    Decoded a0 a1 a2 a4 a5 a6 a7 := by
  have h0 := congrFun h ValueIdx.ix0
  dsimp only [Cert.Pre_finite_inputs.fn, Cert.Pre_finite_inputs.fn_part1, Cert.Pre_finite_inputs.fn_part2] at h0
  simp only [andi_apply_eq_one] at h0
  obtain ⟨⟨⟨⟨⟨⟨h_x, h_w⟩, h_b⟩, h_rx⟩, h_rw⟩, h_rb⟩, h_tg⟩ := h0
  exact ⟨all_real _ _ _ a0 _ h_x, all_real _ _ _ a1 _ h_w, all_real _ _ _ a4 _ h_b, all_real _ _ _ a5 _ h_rx,
    all_real _ _ _ a6 _ h_rw, all_real _ _ _ a7 _ h_rb, all_admissible _ _ _ a2 _ h_tg⟩

end Cert.PreDecode

end
-- ==== Proof.KiValue.Prefix.lean ====
/-
  The host lines before the region, read at an index: the stacked arrays are the two projections' arguments (a change
  of float format is the identity at the ideal values), the targets are as launched, the float mask is one exactly
  where the target is not the ignored label, and a row's count is the sum of its mask.
-/
import proofs.«422609_j60095182405792_3_alg».proof.Proof.KiValue.Out
import proofs.«422609_j60095182405792_3_alg».proof.Proof.PreDecode
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-! ## The stacking and the mask, read at an index, over any arrays -/

section Generic
variable {α : Type}

theorem fin2_cases : ∀ s : Fin 2, s = 0 ∨ s = 1 := by decide

/-- Two [4,1024,2048] arrays stacked along a new leading axis: entry (s, b, T, h) is the s-th array's (b, T, h). -/
theorem stackX_apply (A B : S4x1024x2048.Idx → α)
    (hb : S4x1024x2048.BroadcastsInDim S1x4x1024x2048 (![1, 2, 3] : Fin 3 → Fin S1x4x1024x2048.rank))
    (hc : Shape.Concatenates [S1x4x1024x2048, S1x4x1024x2048] S2x4x1024x2048 0)
    (s : Fin 2) (b : Fin 4) (T : Fin 1024) (h : Fin 2048) :
    concatenate S2x4x1024x2048 0 [⟨S1x4x1024x2048, broadcastInDim S1x4x1024x2048 ![1, 2, 3] hb A⟩,
        ⟨S1x4x1024x2048, broadcastInDim S1x4x1024x2048 ![1, 2, 3] hb B⟩] hc (ix4 s b T h)
      = if s = 0 then A (ix3 b T h) else B (ix3 b T h) := by
  have hA : ∀ X : S4x1024x2048.Idx → α,
      broadcastInDim S1x4x1024x2048 ![1, 2, 3] hb X (ix4 (0 : Fin 1) b T h) = X (ix3 b T h) := fun X =>
    broadcastInDim_apply _ hb X _ _ (fun a => match a with | ⟨0, _⟩ => rfl | ⟨1, _⟩ => rfl | ⟨2, _⟩ => rfl)
  rcases fin2_cases s with rfl | rfl
  · rw [if_pos rfl]
    refine (concatenate_pair_apply_left 0 _ _ hc _ rfl (ix4 (0 : Fin 1) b T h) (fun a => ?_)).trans (hA A)
    match a with | ⟨0, _⟩ => rfl | ⟨1, _⟩ => rfl | ⟨2, _⟩ => rfl | ⟨3, _⟩ => rfl
  · rw [if_neg (by decide)]
    refine (concatenate_pair_apply_right 0 _ _ hc _ rfl rfl (ix4 (0 : Fin 1) b T h) (fun a ha => ?_) rfl).trans (hA B)
    match a with | ⟨0, _⟩ => exact absurd rfl ha | ⟨1, _⟩ => rfl | ⟨2, _⟩ => rfl | ⟨3, _⟩ => rfl

/-- Two [32000,2048] arrays stacked along a new leading axis. -/
theorem stackW_apply (A B : S32000x2048.Idx → α)
    (hb : S32000x2048.BroadcastsInDim S1x32000x2048 (![1, 2] : Fin 2 → Fin S1x32000x2048.rank))
    (hc : Shape.Concatenates [S1x32000x2048, S1x32000x2048] S2x32000x2048 0)
    (s : Fin 2) (v : Fin 32000) (h : Fin 2048) :
    concatenate S2x32000x2048 0 [⟨S1x32000x2048, broadcastInDim S1x32000x2048 ![1, 2] hb A⟩,
        ⟨S1x32000x2048, broadcastInDim S1x32000x2048 ![1, 2] hb B⟩] hc (ix3 s v h)
      = if s = 0 then A (ix2 v h) else B (ix2 v h) := by
  have hA : ∀ X : S32000x2048.Idx → α,
      broadcastInDim S1x32000x2048 ![1, 2] hb X (ix3 (0 : Fin 1) v h) = X (ix2 v h) := fun X =>
    broadcastInDim_apply _ hb X _ _ (fun a => match a with | ⟨0, _⟩ => rfl | ⟨1, _⟩ => rfl)
  rcases fin2_cases s with rfl | rfl
  · rw [if_pos rfl]
    refine (concatenate_pair_apply_left 0 _ _ hc _ rfl (ix3 (0 : Fin 1) v h) (fun a => ?_)).trans (hA A)
    match a with | ⟨0, _⟩ => rfl | ⟨1, _⟩ => rfl | ⟨2, _⟩ => rfl
  · rw [if_neg (by decide)]
    refine (concatenate_pair_apply_right 0 _ _ hc _ rfl rfl (ix3 (0 : Fin 1) v h) (fun a ha => ?_) rfl).trans (hA B)
    match a with | ⟨0, _⟩ => exact absurd rfl ha | ⟨1, _⟩ => rfl | ⟨2, _⟩ => rfl

/-- Two [32000] vectors, each made a [1,1,32000] array, stacked along the leading axis. -/
theorem stackB_apply (A B : S32000.Idx → α)
    (hs : S32000.ShapeCasts S1x32000)
    (hb : S1x32000.BroadcastsInDim S1x1x32000 (![1, 2] : Fin 2 → Fin S1x1x32000.rank))
    (hc : Shape.Concatenates [S1x1x32000, S1x1x32000] S2x1x32000 0)
    (s : Fin 2) (v : Fin 32000) :
    concatenate S2x1x32000 0 [⟨S1x1x32000, broadcastInDim S1x1x32000 ![1, 2] hb (shapeCast S1x32000 A hs)⟩,
        ⟨S1x1x32000, broadcastInDim S1x1x32000 ![1, 2] hb (shapeCast S1x32000 B hs)⟩] hc (ix3 s (0 : Fin 1) v)
      = if s = 0 then A (ix1 v) else B (ix1 v) := by
  have hA : ∀ X : S32000.Idx → α,
      broadcastInDim S1x1x32000 ![1, 2] hb (shapeCast S1x32000 X hs) (ix3 (0 : Fin 1) (0 : Fin 1) v) = X (ix1 v) := fun X =>
    (broadcastInDim_apply _ hb (shapeCast S1x32000 X hs) _ (ix2 (0 : Fin 1) v)
      (fun a => match a with | ⟨0, _⟩ => rfl | ⟨1, _⟩ => rfl)).trans
      (shapeCast_a_1a_apply X hs (0 : Fin 1) v)
  rcases fin2_cases s with rfl | rfl
  · rw [if_pos rfl]
    refine (concatenate_pair_apply_left 0 _ _ hc _ rfl (ix3 (0 : Fin 1) (0 : Fin 1) v) (fun a => ?_)).trans (hA A)
    match a with | ⟨0, _⟩ => rfl | ⟨1, _⟩ => rfl | ⟨2, _⟩ => rfl
  · rw [if_neg (by decide)]
    refine (concatenate_pair_apply_right 0 _ _ hc _ rfl rfl (ix3 (0 : Fin 1) (0 : Fin 1) v) (fun a ha => ?_) rfl).trans (hA B)
    match a with | ⟨0, _⟩ => exact absurd rfl ha | ⟨1, _⟩ => rfl | ⟨2, _⟩ => rfl

end Generic

/-! ## The float mask and a row's count, over any targets -/

/-- The word of a comparison for inequality, widened to a float: one unless the words are equal. -/
theorem mask_apply (tg : IVec S4x1024 32) (hb : S_.BroadcastsInDim S4x1024 (![] : Fin 0 → Fin S4x1024.rank)) (b : Fin 4) (T : Fin 1024) :
    (uitofp (F := Ideal) .f32 (cmpi .ne tg (broadcastInDim S4x1024 ![] hb (constantI S_ 32 4294967196#32))) : S4x1024.Idx → EReal) (ix2 b T)
      = Cert.Spec.tokMask tg b T := by
  show (((IntOp.cmpi .ne (tg (ix2 b T)) 4294967196#32).toNat : ℝ) : EReal) = _
  unfold Cert.Spec.tokMask IntOp.cmpi
  by_cases h : tg (ix2 b T) = Cert.Spec.ignoreW
  · rw [if_pos h, h]; simp
  · rw [if_neg h]
    have : (tg (ix2 b T) != 4294967196#32) = true := bne_iff_ne.2 h
    simp [this]

/-- The host's sum over the token axis of a [4,1024] array from zero, at row i: the sum over the row. -/
theorem rowsum_apply (x : S4x1024.Idx → EReal) (h' : S4x1024.ReducesTo [1] S4) (i : S4.Idx) :
    Ideal.hostReduceAdd h' x 0 i = ∑ T : Fin 1024, x (ix2 (i 0) T) := by
  have h : S4x1024.Reduces [1] S4 := by decide
  rw [Ideal.hostReduceAdd_single h' h, zero_add]
  refine Finset.sum_congr rfl fun T _ => congrArg x ?_
  funext a
  match a with
  | ⟨0, _⟩ => rfl
  | ⟨1, _⟩ => rfl

/-! ## The buffers the region finds, as the terms of the host lines before it -/

theorem Xs_term (c : Dev nD) : (Xs m c : S2x4x1024x2048.Idx → EReal)
    = concatenate S2x4x1024x2048 0
        [⟨S1x4x1024x2048, broadcastInDim S1x4x1024x2048 ![1, 2, 3] bcast_S4x1024x2048_S1x4x1024x2048_1_2_3 (m ((c : Thread nD τ).loc main_arg0))⟩,
         ⟨S1x4x1024x2048, broadcastInDim S1x4x1024x2048 ![1, 2, 3] bcast_S4x1024x2048_S1x4x1024x2048_1_2_3 (m ((c : Thread nD τ).loc main_arg5))⟩]
        concatenates_S1x4x1024x2048_S1x4x1024x2048_S2x4x1024x2048_d0 := by
  show StableHlo.after hostOps0 (fun b => m (c, b)) (Proc.devRef .tc main_v8) = _
  after_results
  rfl

theorem Ws_term (c : Dev nD) : (Ws m c : S2x32000x2048.Idx → EReal)
    = concatenate S2x32000x2048 0
        [⟨S1x32000x2048, broadcastInDim S1x32000x2048 ![1, 2] bcast_S32000x2048_S1x32000x2048_1_2 (m ((c : Thread nD τ).loc main_arg1))⟩,
         ⟨S1x32000x2048, broadcastInDim S1x32000x2048 ![1, 2] bcast_S32000x2048_S1x32000x2048_1_2 (m ((c : Thread nD τ).loc main_arg6))⟩]
        concatenates_S1x32000x2048_S1x32000x2048_S2x32000x2048_d0 := by
  show StableHlo.after hostOps0 (fun b => m (c, b)) (Proc.devRef .tc main_v13) = _
  after_results
  rfl

theorem Bs_term (c : Dev nD) : (Bs m c : S2x1x32000.Idx → EReal)
    = concatenate S2x1x32000 0
        [⟨S1x1x32000, broadcastInDim S1x1x32000 ![1, 2] bcast_S1x32000_S1x1x32000_1_2
            (shapeCast S1x32000 (m ((c : Thread nD τ).loc main_arg4)) shapeCasts_S32000_S1x32000)⟩,
         ⟨S1x1x32000, broadcastInDim S1x1x32000 ![1, 2] bcast_S1x32000_S1x1x32000_1_2
            (shapeCast S1x32000 (m ((c : Thread nD τ).loc main_arg7)) shapeCasts_S32000_S1x32000)⟩]
        concatenates_S1x1x32000_S1x1x32000_S2x1x32000_d0 := by
  show StableHlo.after hostOps0 (fun b => m (c, b)) (Proc.devRef .tc main_v18) = _
  after_results
  rfl

theorem Mk_term (c : Dev nD) : (Mk m c : S4x1024.Idx → EReal)
    = uitofp (F := Ideal) .f32 (cmpi .ne (argT m c) (broadcastInDim S4x1024 ![] bcast_S_S4x1024 (constantI S_ 32 4294967196#32))) := by
  show StableHlo.after hostOps0 (fun b => m (c, b)) (Proc.devRef .tc main_v2) = _
  after_results

theorem Dn_term (c : Dev nD) : (Dn m c : S4.Idx → EReal)
    = Ideal.hostReduceAdd reducesTo_S4x1024_S4_d1 (Mk m c) 0 := by
  rw [Mk_term]
  show StableHlo.after hostOps0 (fun b => m (c, b)) (Proc.devRef .tc main_v3) = _
  after_results
  show Ideal.hostReduceAdd reducesTo_S4x1024_S4_d1 _ (Ideal.ofBits .f32 0x00000000#32) = _
  rw [Ideal.ofBits_zero_f32]

/-! ## The buffers read at an index -/

theorem Xs_apply (c : Dev nD) (s : Fin 2) (b : Fin 4) (T : Fin 1024) (h : Fin 2048) :
    Xs m c (ix4 s b T h) = argX m c s (ix3 b T h) := by
  rw [Xs_term, stackX_apply]
  unfold argX
  split <;> rfl

theorem Ws_apply (c : Dev nD) (s : Fin 2) (v : Fin 32000) (h : Fin 2048) :
    Ws m c (ix3 s v h) = argW m c s (ix2 v h) := by
  rw [Ws_term, stackW_apply]
  unfold argW
  split <;> rfl

theorem Bs_apply (c : Dev nD) (s : Fin 2) (v : Fin 32000) :
    Bs m c (ix3 s (0 : Fin 1) v) = argB m c s (ix1 v) := by
  rw [Bs_term, stackB_apply]
  unfold argB
  split <;> rfl

theorem Tg_eq (c : Dev nD) : Tg m c = argT m c := V_main_arg2 m c

theorem Mk_apply (c : Dev nD) (b : Fin 4) (T : Fin 1024) :
    Mk m c (ix2 b T) = Cert.Spec.tokMask (argT m c) b T := by
  rw [Mk_term]
  exact mask_apply (argT m c) bcast_S_S4x1024 b T

theorem Dn_apply (c : Dev nD) (i : S4.Idx) :
    Dn m c i = ∑ T : Fin 1024, Cert.Spec.tokMask (argT m c) (i 0) T := by
  rw [Dn_term, rowsum_apply]
  exact Finset.sum_congr rfl fun T _ => Mk_apply m c (i 0) T

/-- The kernel's logit is the specification's. -/
theorem klogit_eq (c : Dev nD) (s : Fin 2) (b : Fin 4) (T : Fin 1024) (v : Fin 32000) :
    klogit m c s b T v.val = Cert.Spec.logit (argX m c s) (argW m c s) (argB m c s) b T v := by
  unfold klogit Cert.Spec.logit
  rw [dif_pos v.isLt]
  exact congrArg₂ (· + ·)
    (Finset.sum_congr rfl fun h' _ => congrArg₂ (· * ·) (Xs_apply m c s b T h') (Ws_apply m c s v h'))
    (Bs_apply m c s v)

end Cert.KernelIdeal.Val

end
-- ==== Proof.KiValue.AvgEq.lean ====
/-
  The bridge: under the precondition the row means of the kernel's output array are the specification's row means.
  A counted token's entry is its target's logit minus the logarithm of the sum of the exponentials of its logits (the
  running pair over 25 tiles of 1280 is that logarithm, whatever real the maximum started at); an ignored token's
  entry is a real, and its mask is zero.
-/
import proofs.«422609_j60095182405792_3_alg».proof.Proof.KiValue.Prefix
import proofs.«422609_j60095182405792_3_alg».proof.Proof.OnlineLse

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

/-- The real the running maximum is started at. -/
theorem negInit_real : ∃ r : ℝ, negInit = (r : EReal) := by
  have h : negInit = Ideal.ieee 8 23 (0xFF333332#32 : BitVec 32) := rfl
  rw [h]
  unfold Ideal.ieee
  simp only []
  rw [if_neg (by decide), if_neg (by decide)]
  exact ⟨_, rfl⟩

/-- A logit of real inputs is a real. -/
theorem logit_real (X : FVec Ideal Cert.Spec.SX .f32) (W : FVec Ideal Cert.Spec.SW .f32) (B : FVec Ideal Cert.Spec.SB .f32)
    (hX : ∀ i, ∃ r : ℝ, X i = (r : EReal)) (hW : ∀ i, ∃ r : ℝ, W i = (r : EReal)) (hB : ∀ i, ∃ r : ℝ, B i = (r : EReal))
    (b : Fin 4) (T : Fin 1024) (v : Fin 32000) : ∃ r : ℝ, Cert.Spec.logit X W B b T v = (r : EReal) := by
  choose fx hfx using hX
  choose fw hfw using hW
  choose fb hfb using hB
  refine ⟨(∑ h : Fin 2048, fx (ix3 b T h) * fw (ix2 v h)) + fb (ix1 v), ?_⟩
  unfold Cert.Spec.logit
  simp only [hfx, hfw, hfb, ← EReal.coe_mul]
  rw [Cert.OnlineLse.coe_sum, ← EReal.coe_add]

variable (c : Dev nD)
  (hd : Cert.PreDecode.Decoded (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) (m ((c : Thread nD τ).loc main_arg7)))

include hd in
theorem argX_real (s : Fin 2) : ∀ i, ∃ r : ℝ, argX m c s i = (r : EReal) := by
  unfold argX
  by_cases h : s = 0
  · rw [if_pos h]; exact hd.x
  · rw [if_neg h]; exact hd.rx

include hd in
theorem argW_real (s : Fin 2) : ∀ i, ∃ r : ℝ, argW m c s i = (r : EReal) := by
  unfold argW
  by_cases h : s = 0
  · rw [if_pos h]; exact hd.w
  · rw [if_neg h]; exact hd.rw

include hd in
theorem argB_real (s : Fin 2) : ∀ i, ∃ r : ℝ, argB m c s i = (r : EReal) := by
  unfold argB
  by_cases h : s = 0
  · rw [if_pos h]; exact hd.bias
  · rw [if_neg h]; exact hd.rbias

include hd in
/-- Every logit of a token, along the 25 tiles of 1280 classes, is a real. -/
theorem klogit_real (s : Fin 2) (b : Fin 4) (T : Fin 1024) :
    ∃ f : ℕ → ℝ, ∀ v, klogit m c s b T v = ((f v : ℝ) : EReal) := by
  have hreal : ∀ v : Fin 32000, ∃ r : ℝ, klogit m c s b T v.val = (r : EReal) := fun v => by
    rw [klogit_eq]
    exact logit_real _ _ _ (argX_real m c hd s) (argW_real m c hd s) (argB_real m c hd s) b T v
  choose g hg using hreal
  refine ⟨fun v => if h : v < 32000 then g ⟨v, h⟩ else 0, fun v => ?_⟩
  by_cases h : v < 32000
  · simp only [dif_pos h]; exact hg ⟨v, h⟩
  · simp only [dif_neg h]; unfold klogit; rw [dif_neg h]; exact EReal.coe_zero.symm

/-- An admissible target that is not the ignored label is a class index. -/
theorem toNat_lt_of_admissible (tg : BitVec 32) (h : Cert.Spec.Admissible tg) (hig : tg ≠ Cert.Spec.ignoreW) : tg.toNat < 32000 := by
  rcases h with h | ⟨h0, h1⟩
  · exact absurd h hig
  · have e := BitVec.toInt_eq_toNat_cond tg
    have := tg.isLt
    split_ifs at e <;> omega

include hd in
/-- A token's entry of the output array times its mask is the specification's summand. -/
theorem term_eq (s : Fin 2) (b : Fin 4) (T : Fin 1024) :
    OutK m c (ix3 s b T) * Mk m c (ix2 b T)
      = Cert.Spec.tokTerm (argX m c s) (argW m c s) (argB m c s) (argT m c) b T := by
  rw [Mk_apply]
  unfold Cert.Spec.tokMask Cert.Spec.tokTerm
  by_cases hig : argT m c (ix2 b T) = Cert.Spec.ignoreW
  · rw [if_pos hig, if_pos hig, mul_zero]
  · rw [if_neg hig, if_neg hig, mul_one]
    have hlt : (argT m c (ix2 b T)).toNat < 32000 := toNat_lt_of_admissible _ (hd.tg (ix2 b T)) hig
    obtain ⟨f, hk⟩ := klogit_real m c hd s b T
    obtain ⟨m0, hm0⟩ := negInit_real
    have htile : tile m c s b T = fun k j => ((f (k * 1280 + j.val) : ℝ) : EReal) := by
      funext k j; exact hk _
    have hsel : sel m c s b T
        = fun k j => if (argT m c (ix2 b T)).toNat = k * 1280 + j.val then ((f (k * 1280 + j.val) : ℝ) : EReal) else 0 := by
      funext k j
      unfold sel
      rw [Tg_eq, htile]
    show stG (sel m c s b T) 25
        - (stM negInit (tile m c s b T) 25 + Ideal.log (stL negInit (tile m c s b T) 25)) = _
    rw [hsel, htile, hm0, row_value (n := 1280) m0 f (by norm_num) 25 (by norm_num) _ hlt]
    unfold Cert.Spec.tokLogp Cert.Spec.lse
    have hcls : (Cert.Spec.classOf (argT m c (ix2 b T))).val = (argT m c (ix2 b T)).toNat := Nat.mod_eq_of_lt hlt
    have h1 : ((f (argT m c (ix2 b T)).toNat : ℝ) : EReal)
        = Cert.Spec.logit (argX m c s) (argW m c s) (argB m c s) b T (Cert.Spec.classOf (argT m c (ix2 b T))) := by
      rw [← hk, ← klogit_eq, hcls]
    have h2 : (∑ v ∈ Finset.range (25 * 1280), Ideal.exp ((f v : ℝ) : EReal))
        = ∑ v : Fin 32000, Ideal.exp (Cert.Spec.logit (argX m c s) (argW m c s) (argB m c s) b T v) := by
      rw [show (25 * 1280 : ℕ) = 32000 by norm_num, Finset.sum_range]
      refine Finset.sum_congr rfl fun v _ => ?_
      rw [← hk, ← klogit_eq]
    rw [h1, h2]

theorem avg_eq (c : Dev nD)
    (hd : Cert.PreDecode.Decoded (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) (m ((c : Thread nD τ).loc main_arg7)))
    (s : Fin 2) :
    avgOf m c (OutK m c) s = Cert.Spec.avgLogp (argX m c s) (argW m c s) (argB m c s) (argT m c) := by
  funext i
  show Ideal.div (∑ T : Fin 1024, OutK m c (ix3 s (i 0) T) * Mk m c (ix2 (i 0) T)) (Dn m c i)
    = Ideal.div (∑ t : Fin 1024, Cert.Spec.tokTerm (argX m c s) (argW m c s) (argB m c s) (argT m c) (i 0) t)
        (∑ t : Fin 1024, Cert.Spec.tokMask (argT m c) (i 0) t)
  rw [Dn_apply]
  congr 1
  exact Finset.sum_congr rfl fun T _ => term_eq m c hd s (i 0) T

end Cert.KernelIdeal.Val

end
-- ==== Proof.KiValue.Run.lean ====
/-
  The idealized kernel's run, read: under the precondition its three results are the specification's scalars of its
  arguments, and its arguments end as launched.
-/
import proofs.«422609_j60095182405792_3_alg».proof.Proof.KiValue.Final
import proofs.«422609_j60095182405792_3_alg».proof.Proof.KiValue.Tail
import proofs.«422609_j60095182405792_3_alg».proof.Proof.KiValue.AvgEq

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.OnlineLse

variable (m : (ℓ : Loc nD τ sig) → Buf (Elt Ideal) ℓ)

variable (ρ : Dev nD → PrngReg)

/-- The difference of the kernel's two row means is the specification's. -/
theorem lr_eq (c : Dev nD)
    (hd : Cert.PreDecode.Decoded (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) :
    subf (avgOf m c (OutK m c) 0) (avgOf m c (OutK m c) 1) = (Cert.Spec.logratios (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2))) := by
  rw [avg_eq m c hd 0, avg_eq m c hd 1]
  rfl

set_option maxHeartbeats 2000000 in
theorem run
    (hd : ∀ c : Dev nD, Cert.PreDecode.Decoded (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) :
    θ_run (defs (F := Ideal)) (onTc (τ := τ) (main (F := Ideal))) ⟨m, fun _ => 0, ρ⟩ (fun r => ∀ c : Dev nD,
      r.2.mem ((c.tc : Thread nD τ).loc main_v57)
          = Cert.Spec.loss Facts₀.bcast_S_S4 Facts₀.reducesTo_S4_S_d0 Facts₀.h_S_ (m ((c.tc : Thread nD τ).loc main_arg3)) (Cert.Spec.logratios (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)))
      ∧ r.2.mem ((c.tc : Thread nD τ).loc main_v61)
          = Cert.Spec.chosenSum Facts₀.bcast_S_S4 Facts₀.reducesTo_S4_S_d0 Facts₀.h_S_ (m ((c.tc : Thread nD τ).loc main_arg3)) (Cert.Spec.logratios (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)))
      ∧ r.2.mem ((c.tc : Thread nD τ).loc main_v63)
          = Cert.Spec.rejectedSum Facts₀.bcast_S_S4 Facts₀.reducesTo_S4_S_d0 Facts₀.h_S_ (m ((c.tc : Thread nD τ).loc main_arg3)) (Cert.Spec.logratios (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(((h c).2 main_v57 (Pipeline.mem_restRefs_of main_v57 (by decide) (by decide))).trans
        (tail_loss m (dats m) c (OutK m c) (final4 m c))).trans (by rw [lr_eq m c (hd c)]),
     (((h c).2 main_v61 (Pipeline.mem_restRefs_of main_v61 (by decide) (by decide))).trans
        (tail_chosen m (dats m) c (OutK m c) (final4 m c))).trans (by rw [lr_eq m c (hd c)]),
     (((h c).2 main_v63 (Pipeline.mem_restRefs_of main_v63 (by decide) (by decide))).trans
        (tail_rejected m (dats m) c (OutK m c) (final4 m c))).trans (by rw [lr_eq m c (hd c)]),
     (((h c).2 main_arg0 (Pipeline.mem_restRefs_of main_arg0 (by decide) (by decide))).trans (W_main_arg0 m (dats m) c)),
     (((h c).2 main_arg1 (Pipeline.mem_restRefs_of main_arg1 (by decide) (by decide))).trans (W_main_arg1 m (dats m) c)),
     ((h c).1 3).trans (((dats m 0 c).arrAt_in 3 rfl _).trans ((A_eq m c 3).trans (V_main_arg2 m c))),
     (((h c).2 main_arg3 (Pipeline.mem_restRefs_of main_arg3 (by decide) (by decide))).trans (W_main_arg3 m (dats m) c)),
     (((h c).2 main_arg4 (Pipeline.mem_restRefs_of main_arg4 (by decide) (by decide))).trans (W_main_arg4 m (dats m) c)),
     (((h c).2 main_arg5 (Pipeline.mem_restRefs_of main_arg5 (by decide) (by decide))).trans (W_main_arg5 m (dats m) c)),
     (((h c).2 main_arg6 (Pipeline.mem_restRefs_of main_arg6 (by decide) (by decide))).trans (W_main_arg6 m (dats m) c)),
     (((h c).2 main_arg7 (Pipeline.mem_restRefs_of main_arg7 (by decide) (by decide))).trans (W_main_arg7 m (dats m) c))⟩)
    (run_main (F := Ideal) m ρ)

end Cert.KernelIdeal.Val

end
-- ==== Proof.RefWords.lean ====
/-
  Words: the class a target word selects, and the range test the gather's wrapper makes of it.
-/
import Idealize.ShloMosaic.Lib.Affine
import proofs.«422609_j60095182405792_3_alg».proof.Proof.Spec

namespace Cert.RefWords

open Idealize.ShloMosaic Cert.Spec

/-- The class word: the target where it is counted, else 0. -/
def safeW (tg : BitVec 32) : BitVec 32 := Scalar.select (IntOp.cmpi .ne tg 4294967196#32) tg 0#32

/-- A negative class word moved up by the number of classes. -/
def wrapW (s : BitVec 32) : BitVec 32 := Scalar.select (IntOp.cmpi .slt s 0#32) (IntOp.addi s 32000#32) s

/-- The test 0 ≤ w ≤ 31999, signed. -/
def inRange (w : BitVec 32) : BitVec 1 := IntOp.andi (IntOp.cmpi .sge w 0#32) (IntOp.cmpi .sle w 31999#32)

theorem toInt_of_small {s : BitVec 32} (h : s.toNat < 32000) : s.toInt = (s.toNat : Int) := by
  rw [BitVec.toInt_eq_toNat_cond]; split <;> omega

/-- The compare against the ignored label, as a bit. -/
theorem ne_word (tg : BitVec 32) : IntOp.cmpi .ne tg 4294967196#32 = if tg = ignoreW then 0#1 else 1#1 := by
  by_cases h : tg = ignoreW
  · rw [if_pos h]
    exact ValueIdx.eq_zero_of_ne_one (fun e => (IntOp.cmpi_ne.1 e) h)
  · rw [if_neg h]
    exact IntOp.cmpi_ne.2 h

/-- An admissible word that is not the ignored label is a class index. -/
theorem small_of_admissible {tg : BitVec 32} (h : Admissible tg) (hne : tg ≠ ignoreW) : tg.toNat < 32000 := by
  rcases h with h | ⟨h0, h1⟩
  · exact absurd h hne
  · rw [BitVec.toInt_eq_toNat_cond] at h0 h1
    split at h0 <;> omega

theorem safeW_ignore : safeW ignoreW = 0#32 := by decide

theorem safeW_of_ne {tg : BitVec 32} (hne : tg ≠ ignoreW) : safeW tg = tg := by
  unfold safeW
  rw [ne_word, if_neg hne]
  exact ValueIdx.select_one _ _

theorem safeW_small {tg : BitVec 32} (h : Admissible tg) : (safeW tg).toNat < 32000 := by
  by_cases hne : tg = ignoreW
  · rw [hne, safeW_ignore]; decide
  · rw [safeW_of_ne hne]; exact small_of_admissible h hne

theorem wrapW_of_small {s : BitVec 32} (h : s.toNat < 32000) : wrapW s = s := by
  unfold wrapW
  have : IntOp.cmpi .slt s 0#32 = 0#1 := ValueIdx.eq_zero_of_ne_one (fun e => by
    have := IntOp.cmpi_slt.1 e
    rw [toInt_of_small h, show (0#32 : BitVec 32).toInt = 0 from by decide] at this
    omega)
  rw [this]
  exact ValueIdx.select_zero _ _

theorem inRange_of_small {s : BitVec 32} (h : s.toNat < 32000) : inRange s = 1#1 := by
  unfold inRange
  refine IntOp.andi_eq_one.2 ⟨IntOp.cmpi_sge.2 ?_, IntOp.cmpi_sle.2 ?_⟩
  · rw [toInt_of_small h, show (0#32 : BitVec 32).toInt = 0 from by decide]; omega
  · rw [toInt_of_small h, show (31999#32 : BitVec 32).toInt = 31999 from by decide]; omega

theorem clamp_of_small {s : BitVec 32} (h : s.toNat < 32000) : min s.toInt.toNat 31999 = s.toNat := by
  rw [toInt_of_small h, Int.toNat_natCast]; omega

theorem classOf_val {tg : BitVec 32} (h : tg.toNat < 32000) : (classOf tg).val = tg.toNat := by
  show tg.toNat % 32000 = tg.toNat
  exact Nat.mod_eq_of_lt h

/-- What the wrapper does with an admissible target: the range test passes. -/
theorem inRange_target {tg : BitVec 32} (h : Admissible tg) : inRange (wrapW (safeW tg)) = 1#1 := by
  rw [wrapW_of_small (safeW_small h)]; exact inRange_of_small (safeW_small h)

/-- The class read for a counted target is the target's class. -/
theorem clamp_target {tg : BitVec 32} (h : Admissible tg) (hne : tg ≠ ignoreW) :
    min (wrapW (safeW tg)).toInt.toNat 31999 = (classOf tg).val := by
  rw [wrapW_of_small (safeW_small h), safeW_of_ne hne, clamp_of_small (small_of_admissible h hne),
    classOf_val (small_of_admissible h hne)]

end Cert.RefWords
-- ==== Proof.RefGather.lean ====
/-
  The gather of one class per token, read at an index: the operand at the token's own row and column
  and at the class its start index names, read signed and clamped into [0, 31999].
-/
import proofs.«422609_j60095182405792_3_alg».proof.Proof.Gen.ReferenceIdeal
import Idealize.ShloMosaic.Lib.ValueIdx

namespace Cert.RefGather
open Idealize.ShloMosaic Idealize.ShloMosaic.ValueIdx Cert.ReferenceIdeal

theorem si_idx (y : S4x1024x1.Idx) (c : Fin gather_S4x1024x32000_S4x1024x1x1_S4x1024x1_n_2_01_01_2_3_111.startIndexMap.length) :
    gather_S4x1024x32000_S4x1024x1x1_S4x1024x1_n_2_01_01_2_3_111.siIdx y c = ix4 (y 0) (y 1) (y 2) 0 := by
  funext b
  match b with
  | ⟨0, _⟩ => rfl
  | ⟨1, _⟩ => rfl
  | ⟨2, _⟩ => rfl
  | ⟨3, _⟩ =>
    apply Fin.ext
    have hc : c.val < 1 := c.isLt
    show c.val = 0
    omega

theorem gather_apply {α : Type} (x : S4x1024x32000.Idx → α) (idx : IVec S4x1024x1x1 32) (y : S4x1024x1.Idx) :
    Host.gather gather_S4x1024x32000_S4x1024x1x1_S4x1024x1_n_2_01_01_2_3_111 x idx y
      = x (ix3 (y 0) (y 1) ⟨min (idx (ix4 (y 0) (y 1) (y 2) 0)).toInt.toNat 31999, by omega⟩) := by
  unfold Host.gather
  congr 1
  funext a
  apply Fin.ext
  match a with
  | ⟨0, _⟩ =>
    show gather_S4x1024x32000_S4x1024x1x1_S4x1024x1_n_2_01_01_2_3_111.start y idx 0 + gather_S4x1024x32000_S4x1024x1x1_S4x1024x1_n_2_01_01_2_3_111.batchCoord y 0 + gather_S4x1024x32000_S4x1024x1x1_S4x1024x1_n_2_01_01_2_3_111.offCoord y 0 = (y 0).val
    rw [GatherDims.start_batching _ _ _ _ (by decide), GatherDims.offCoord_eq_zero _ _ _ (by decide)]
    simp only [Nat.add_zero, Nat.zero_add]
    unfold GatherDims.batchCoord
    rw [dif_pos (by decide)]
    unfold GatherDims.siCoord
    simp only [Fin.val_cast]
    exact congrArg (fun a => (y a : ℕ)) (by decide)
  | ⟨1, _⟩ =>
    show gather_S4x1024x32000_S4x1024x1x1_S4x1024x1_n_2_01_01_2_3_111.start y idx 1 + gather_S4x1024x32000_S4x1024x1x1_S4x1024x1_n_2_01_01_2_3_111.batchCoord y 1 + gather_S4x1024x32000_S4x1024x1x1_S4x1024x1_n_2_01_01_2_3_111.offCoord y 1 = (y 1).val
    rw [GatherDims.start_batching _ _ _ _ (by decide), GatherDims.offCoord_eq_zero _ _ _ (by decide)]
    simp only [Nat.add_zero, Nat.zero_add]
    unfold GatherDims.batchCoord
    rw [dif_pos (by decide)]
    unfold GatherDims.siCoord
    simp only [Fin.val_cast]
    exact congrArg (fun a => (y a : ℕ)) (by decide)
  | ⟨2, _⟩ =>
    show gather_S4x1024x32000_S4x1024x1x1_S4x1024x1_n_2_01_01_2_3_111.start y idx 2 + gather_S4x1024x32000_S4x1024x1x1_S4x1024x1_n_2_01_01_2_3_111.batchCoord y 2 + gather_S4x1024x32000_S4x1024x1x1_S4x1024x1_n_2_01_01_2_3_111.offCoord y 2 = _
    rw [GatherDims.batchCoord_eq_zero _ _ _ (by decide), GatherDims.offCoord_eq_zero _ _ _ (by decide)]
    simp only [Nat.add_zero]
    unfold GatherDims.start
    rw [dif_pos (show (2 : Fin 3) ∈ gather_S4x1024x32000_S4x1024x1x1_S4x1024x1_n_2_01_01_2_3_111.startIndexMap from by decide)]
    rw [si_idx]
    rfl

end Cert.RefGather
-- ==== Proof.RefRow.lean ====
/-
  One row of logits: subtracting the row's maximum before exponentiating changes nothing.

  For reals a_v (at least one), with mx = max(−∞, max_v a_v):
      (a_c − mx) − log(0 + Σ_v e^{a_v − mx}) = a_c − log Σ_v e^{a_v}.
-/
import Idealize.ShloMosaic.PureOps.Ideal
import Idealize.ShloMosaic.PureOps.Ideal.Laws
import Mathlib.Data.Finset.Fold
import proofs.«422609_j60095182405792_3_alg».proof.Proof.OnlineLse

noncomputable section

namespace Cert.RefRow

open Idealize.ShloMosaic

variable {N : ℕ}

/-- The word of −∞ denotes −∞. -/
theorem ofBits_neg_inf : Ideal.ofBits .f32 0xFF800000#32 = (⊥ : EReal) := by
  simp [Ideal.ofBits, Ideal.ieee]

/-- The maximum of a row of reals (at least one), from −∞, is a real. -/
theorem max_real (hN : 0 < N) (a : Fin N → EReal) (ha : ∀ v, ∃ r : ℝ, a v = (r : EReal)) :
    ∃ r : ℝ, max (⊥ : EReal) ((Finset.univ : Finset (Fin N)).fold max ⊥ a) = (r : EReal) := by
  have hbot : (⊥ : EReal) < (Finset.univ : Finset (Fin N)).fold max ⊥ a := by
    rw [Finset.lt_fold_max]
    right
    refine ⟨⟨0, hN⟩, Finset.mem_univ _, ?_⟩
    obtain ⟨r, hr⟩ := ha ⟨0, hN⟩
    rw [hr]; exact EReal.bot_lt_coe r
  have htop : (Finset.univ : Finset (Fin N)).fold max ⊥ a < ⊤ := by
    rw [Finset.fold_max_lt]
    refine ⟨bot_lt_top, fun v _ => ?_⟩
    obtain ⟨r, hr⟩ := ha v
    rw [hr]; exact EReal.coe_lt_top r
  rw [max_eq_right bot_le]
  exact ⟨_, (EReal.coe_toReal htop.ne hbot.ne').symm⟩

/-- The same with the operations as the program spells them. -/
theorem max_real' (hN : 0 < N) (a : Fin N → EReal) (ha : ∀ v, ∃ r : ℝ, a v = (r : EReal)) :
    ∃ r : ℝ, FloatOps.maximumf (F := Ideal) (φ := .f32) (Ideal.ofBits .f32 0xFF800000#32)
      ((Finset.univ : Finset (Fin N)).fold (FloatOps.maximumf (F := Ideal) (φ := .f32)) (Ideal.ofBits .f32 0xFF800000#32) a)
        = (r : EReal) := by
  rw [ofBits_neg_inf]
  exact max_real hN a ha

/-- Subtracting a real from every entry before exponentiating, and from the picked entry, changes nothing. -/
theorem shift (hN : 0 < N) (a : Fin N → EReal) (ha : ∀ v, ∃ r : ℝ, a v = (r : EReal)) (mx : ℝ) (c : Fin N) :
    (a c - (mx : EReal)) - Ideal.log (0 + ∑ v : Fin N, Ideal.exp (a v - (mx : EReal)))
      = a c - Ideal.log (∑ v : Fin N, Ideal.exp (a v)) := by
  choose g hg using ha
  let f : ℕ → ℝ := fun n => if h : n < N then g ⟨n, h⟩ else 0
  have hf : ∀ v : Fin N, a v = ((f v.val : ℝ) : EReal) := fun v => by
    rw [hg v]
    show ((g v : ℝ) : EReal) = (((if h : v.val < N then g ⟨v.val, h⟩ else 0) : ℝ) : EReal)
    rw [dif_pos v.isLt]
  have h1 : ∑ v : Fin N, Ideal.exp (a v - (mx : EReal))
      = ∑ n ∈ Finset.range N, Ideal.exp (((f n : ℝ) : EReal) - (mx : EReal)) := by
    rw [← Fin.sum_univ_eq_sum_range (fun n => Ideal.exp (((f n : ℝ) : EReal) - (mx : EReal))) N]
    exact Finset.sum_congr rfl fun v _ => by rw [hf v]
  have h2 : ∑ v : Fin N, Ideal.exp (a v) = ∑ n ∈ Finset.range N, Ideal.exp ((f n : ℝ) : EReal) := by
    rw [← Fin.sum_univ_eq_sum_range (fun n => Ideal.exp ((f n : ℝ) : EReal)) N]
    exact Finset.sum_congr rfl fun v _ => by rw [hf v]
  rw [zero_add, h1, h2, hf c]
  exact Cert.OnlineLse.shifted_lse f N hN mx c.val

/-- A row's log-probability as the program computes it is the entry minus the logarithm of the sum of exponentials. -/
theorem logp (hN : 0 < N) (a : Fin N → EReal) (ha : ∀ v, ∃ r : ℝ, a v = (r : EReal)) (mx : EReal)
    (hmx : mx = FloatOps.maximumf (F := Ideal) (φ := .f32) (Ideal.ofBits .f32 0xFF800000#32)
      ((Finset.univ : Finset (Fin N)).fold (FloatOps.maximumf (F := Ideal) (φ := .f32)) (Ideal.ofBits .f32 0xFF800000#32) a))
    (c : Fin N) :
    (a c - mx) - Ideal.log (0 + ∑ v : Fin N, Ideal.exp (a v - mx)) = a c - Ideal.log (∑ v : Fin N, Ideal.exp (a v)) := by
  obtain ⟨r, hr⟩ := max_real' hN a ha
  rw [hmx, hr]
  exact shift hN a ha r c

end Cert.RefRow

end
-- ==== Proof.RefReal.lean ====
/-
  Logits of real inputs are real.
-/
import proofs.«422609_j60095182405792_3_alg».proof.Proof.Spec

noncomputable section

namespace Cert.RefReal

open Idealize.ShloMosaic Idealize.ShloMosaic.ValueIdx Cert.Spec

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A logit of real inputs, weights and bias is a real. -/
theorem logit_real (x : FVec Ideal SX .f32) (w : FVec Ideal SW .f32) (bias : FVec Ideal SB .f32)
    (hx : ∀ i, ∃ r : ℝ, x i = (r : EReal)) (hw : ∀ i, ∃ r : ℝ, w i = (r : EReal)) (hb : ∀ i, ∃ r : ℝ, bias i = (r : EReal))
    (b : Fin 4) (t : Fin 1024) (v : Fin 32000) : ∃ r : ℝ, logit x w bias b t v = (r : EReal) := by
  choose fx hfx using hx
  choose fw hfw using hw
  obtain ⟨rb, hrb⟩ := hb (ix1 v)
  refine ⟨(∑ h : Fin 2048, fx (ix3 b t h) * fw (ix2 v h)) + rb, ?_⟩
  unfold logit
  rw [hrb, EReal.coe_add]
  refine congrArg (· + (rb : EReal)) ?_
  refine Eq.trans ?_ (coe_sum Finset.univ (fun h : Fin 2048 => fx (ix3 b t h) * fw (ix2 v h))).symm
  exact Finset.sum_congr rfl fun h _ => by rw [hfx, hfw, EReal.coe_mul]

end Cert.RefReal

end
-- ==== Proof.RefLogp.lean ====
/-
  The log-softmax of the reference at an index: the logit minus the logarithm of the sum of the
  exponentials of the token's logits.
-/
import proofs.«422609_j60095182405792_3_alg».proof.Proof.RefReadP
import proofs.«422609_j60095182405792_3_alg».proof.Proof.RefRow
import proofs.«422609_j60095182405792_3_alg».proof.Proof.RefReal

noncomputable section

namespace Cert.RefLogp

open Idealize.ShloMosaic Idealize.ShloMosaic.ValueIdx Cert.ReferenceIdeal Cert.ReferenceIdeal.Gen Cert.ReferenceIdeal.ReadP
open Cert.Spec (logit lse)

variable (x0 : (⟨S4x1024x2048, .f32⟩ : BufTy).Contents (Elt Ideal)) (x1 : (⟨S32000x2048, .f32⟩ : BufTy).Contents (Elt Ideal)) (x4 : (⟨S32000, .f32⟩ : BufTy).Contents (Elt Ideal))

/-- The logits. -/
theorem v3_eq (b : Fin 4) (t : Fin 1024) (v : Fin 32000) :
    val_main_v3 (F := Ideal) x0 x1 x4 (ix3 b t v) = logit x0 x1 x4 b t v := by
  have el : ∀ k : Fin 2048, lidx_main_v0 (ix3 b t v) k = ix3 b t k := fun k => funext fun a => by
    match a with | ⟨0, _⟩ => rfl | ⟨1, _⟩ => rfl | ⟨2, _⟩ => rfl
  have er : ∀ k : Fin 2048, ridx_main_v0 (ix3 b t v) k = ix2 v k := fun k => funext fun a => by
    match a with | ⟨0, _⟩ => rfl | ⟨1, _⟩ => rfl
  have eb : idx_main_v1 (idx_main_v2 (ix3 b t v)) = ix1 v := funext fun a => by
    match a with | ⟨0, _⟩ => rfl
  rw [val_main_v3_apply, val_main_v0_apply, val_main_v2_apply, val_main_v1_apply, eb]
  simp only [el, er]
  rfl

/-- The row's maximum, from −∞. -/
theorem mx_eq (b : Fin 4) (t : Fin 1024) :
    val_main_call0_v2 (F := Ideal) x0 x1 x4 (ix2 b t)
      = FloatOps.maximumf (F := Ideal) (φ := .f32) (Ideal.ofBits .f32 0xFF800000#32)
          ((Finset.univ : Finset (Fin 32000)).fold (FloatOps.maximumf (F := Ideal) (φ := .f32)) (Ideal.ofBits .f32 0xFF800000#32)
            (fun k => logit x0 x1 x4 b t k)) := by
  have hR : S4x1024x32000.Reduces [2] S4x1024 := by decide
  rw [val_main_call0_v2_apply, val_main_call0_v1_apply, val_main_call0_cst_0_apply]
  unfold val_main_call0_v0
  rw [Host.reduce_eq_fold_single (FloatOps.maximumf (F := Ideal) (φ := .f32)) _ _ _ hR h_S_ (ix2 b t)]
  have hf : (val_main_v3 (F := Ideal) x0 x1 x4 ∘ hR.lift (ix2 b t)) = fun k : Fin 32000 => logit x0 x1 x4 b t k := by
    funext k
    show val_main_v3 (F := Ideal) x0 x1 x4 (hR.lift (ix2 b t) k) = logit x0 x1 x4 b t k
    rw [← v3_eq x0 x1 x4 b t k]
    exact congrArg (val_main_v3 (F := Ideal) x0 x1 x4) (funext fun a => Fin.ext (by
      match a with | ⟨0, _⟩ => rfl | ⟨1, _⟩ => rfl | ⟨2, _⟩ => rfl))
  rw [hf]
  rfl

/-- The shifted logits. -/
theorem c0v5_eq (b : Fin 4) (t : Fin 1024) (v : Fin 32000) :
    val_main_call0_v5 (F := Ideal) x0 x1 x4 (ix3 b t v)
      = logit x0 x1 x4 b t v - val_main_call0_v2 (F := Ideal) x0 x1 x4 (ix2 b t) := by
  have e : idx_main_call0_v3 (idx_main_call0_v4 (ix3 b t v)) = ix2 b t := funext fun a => by
    match a with | ⟨0, _⟩ => rfl | ⟨1, _⟩ => rfl
  rw [val_main_call0_v5_apply, val_main_call0_v4_apply, val_main_call0_v3_apply, e, v3_eq]
  rfl

/-- The sum of the exponentials of the shifted logits. -/
theorem c0v7_eq (b : Fin 4) (t : Fin 1024) :
    val_main_call0_v7 (F := Ideal) x0 x1 x4 (ix2 b t)
      = 0 + ∑ k : Fin 32000, Ideal.exp (logit x0 x1 x4 b t k - val_main_call0_v2 (F := Ideal) x0 x1 x4 (ix2 b t)) := by
  have e : ∀ k : Fin 32000, idx_main_call0_v7 (ix2 b t) k = ix3 b t k := fun k => funext fun a => by
    match a with | ⟨0, _⟩ => rfl | ⟨1, _⟩ => rfl | ⟨2, _⟩ => rfl
  rw [val_main_call0_v7_apply, val_main_call0_cst_1_apply, Ideal.ofBits_def, Ideal.ofBits_zero_f32]
  refine congrArg (0 + ·) (Finset.sum_congr rfl fun k _ => ?_)
  rw [e k, val_main_call0_v6_apply, c0v5_eq]
  rfl

/-- THE LOG-SOFTMAX AT AN INDEX. -/
theorem v4_eq (hx : ∀ i, ∃ r : ℝ, x0 i = (r : EReal)) (hw : ∀ i, ∃ r : ℝ, x1 i = (r : EReal)) (hb : ∀ i, ∃ r : ℝ, x4 i = (r : EReal))
    (b : Fin 4) (t : Fin 1024) (v : Fin 32000) :
    val_main_v4 (F := Ideal) x0 x1 x4 (ix3 b t v) = logit x0 x1 x4 b t v - lse x0 x1 x4 b t := by
  have e : idx_main_call0_v8 (idx_main_call0_v10 (ix3 b t v)) = ix2 b t := funext fun a => by
    match a with | ⟨0, _⟩ => rfl | ⟨1, _⟩ => rfl
  rw [val_main_v4_apply, val_main_call0_v10_apply, val_main_call0_v9_apply, val_main_call0_v8_apply, e, c0v5_eq, c0v7_eq]
  rw [Ideal.hostUnary_log_def]
  unfold lse
  have h := Cert.RefRow.logp (N := 32000) (by norm_num) (fun k => logit x0 x1 x4 b t k)
    (fun k => Cert.RefReal.logit_real x0 x1 x4 hx hw hb b t k) _ (mx_eq x0 x1 x4 b t) v
  exact h

end Cert.RefLogp

end
-- ==== Proof.RefPick.lean ====
/-
  The class picked per token: the gather's wrapper passes its range test on an admissible target, the
  picked entry is the log-softmax at the target's class, and multiplied by the mask it is the token's term.
-/
import proofs.«422609_j60095182405792_3_alg».proof.Proof.RefReadP
import proofs.«422609_j60095182405792_3_alg».proof.Proof.RefWords
import proofs.«422609_j60095182405792_3_alg».proof.Proof.RefGather
import proofs.«422609_j60095182405792_3_alg».proof.Proof.RefLogp
import Idealize.ShloMosaic.PureOps.Reduce

noncomputable section

namespace Cert.RefPick

open Idealize.ShloMosaic Idealize.ShloMosaic.ValueIdx Cert.ReferenceIdeal Cert.ReferenceIdeal.Gen Cert.ReferenceIdeal.ReadP
open Cert.Spec (logit lse tokLogp tokTerm tokMask classOf ignoreW Admissible)
open Cert.RefWords

/-- A fold by and, from 1, over ones is 1. -/
theorem fold_andi_one {ι : Type} (s : Finset ι) (f : ι → BitVec 1) (init : BitVec 1) (hi : init = 1#1)
    (hf : ∀ k ∈ s, f k = 1#1) : s.fold IntOp.andi init f = 1#1 := by
  induction s using Finset.cons_induction with
  | empty => rw [Finset.fold_empty]; exact hi
  | cons a s ha ih =>
    rw [Finset.fold_cons, hf a (Finset.mem_cons_self a s), ih (fun k hk => hf k (Finset.mem_cons_of_mem hk))]
    rfl

variable (x0 : (⟨S4x1024x2048, .f32⟩ : BufTy).Contents (Elt Ideal)) (x1 : (⟨S32000x2048, .f32⟩ : BufTy).Contents (Elt Ideal)) (x4 : (⟨S32000, .f32⟩ : BufTy).Contents (Elt Ideal)) (x2 : (⟨S4x1024, .i32⟩ : BufTy).Contents (Elt Ideal))

/-- The class word before the wrapper. -/
theorem v7_eq (b : Fin 4) (t : Fin 1024) : val_main_v7 (F := Ideal) x2 (ix2 b t) = safeW (x2 (ix2 b t)) := by
  rw [val_main_v7_apply, val_main_v6_apply, val_main_v5_apply, val_main_c_apply, val_main_call1_v1_apply,
    val_main_call1_v0_apply, val_main_c_0_apply]
  rfl

/-- The start index the gather reads. -/
theorem c2v5_eq (b : Fin 4) (t : Fin 1024) :
    val_main_call2_v5 (F := Ideal) x2 (ix4 b t (0 : Fin 1) (0 : Fin 1)) = wrapW (safeW (x2 (ix2 b t))) := by
  have e : idx_main_v8 (idx_main_call2_v5 (ix4 b t (0 : Fin 1) (0 : Fin 1))) = ix2 b t := funext fun a => Fin.ext (by
    have hb : b.val < 4 := b.isLt
    have ht : t.val < 1024 := t.isLt
    match a with
    | ⟨0, _⟩ => show ((((b.val * 1024 + t.val) * 1 + 0) * 1 + 0) / 1024) = b.val; omega
    | ⟨1, _⟩ => show ((((b.val * 1024 + t.val) * 1 + 0) * 1 + 0) / 1 % 1024) = t.val; omega)
  rw [val_main_call2_v5_apply, val_main_call2_v4_apply, val_main_call2_v1_apply, val_main_call2_v3_apply,
    val_main_call2_v0_apply, val_main_call2_c_apply, val_main_call2_v2_apply, val_main_call2_c_0_apply, val_main_v8_apply, e, v7_eq]
  rfl

/-- The wrapper's range test passes on an admissible target. -/
theorem c2v12_eq (b : Fin 4) (t : Fin 1024) (h : Admissible (x2 (ix2 b t))) :
    val_main_call2_v12 (F := Ideal) x2 (ix3 b t (0 : Fin 1)) = 1#1 := by
  have hR : S4x1024x1x1.Reduces [3] S4x1024x1 := by decide
  unfold val_main_call2_v12
  rw [Host.reduce_eq_fold_single IntOp.andi _ _ _ hR h_S_ (ix3 b t (0 : Fin 1))]
  refine fold_andi_one _ _ _ rfl fun k _ => ?_
  show val_main_call2_v11 (F := Ideal) x2 (hR.lift (ix3 b t (0 : Fin 1)) k) = 1#1
  have ek : hR.lift (ix3 b t (0 : Fin 1)) k = ix4 b t (0 : Fin 1) (0 : Fin 1) := funext fun a => Fin.ext (by
    have hk : k.val < 1 := k.isLt
    match a with
    | ⟨0, _⟩ => rfl
    | ⟨1, _⟩ => rfl
    | ⟨2, _⟩ => rfl
    | ⟨3, _⟩ => show k.val = 0; omega)
  rw [ek, val_main_call2_v11_apply, val_main_call2_v7_apply, val_main_call2_v10_apply, val_main_call2_v6_apply,
    val_main_call2_c_2_apply, val_main_call2_v9_apply, val_main_call2_v8_apply, val_main_call2_c_1_apply, c2v5_eq]
  exact inRange_target h

/-- The gathered entry. -/
theorem c2v13_eq (b : Fin 4) (t : Fin 1024) :
    val_main_call2_v13 (F := Ideal) x0 x1 x2 x4 (ix3 b t (0 : Fin 1))
      = val_main_v4 (F := Ideal) x0 x1 x4 (ix3 b t ⟨min (wrapW (safeW (x2 (ix2 b t)))).toInt.toNat 31999, by omega⟩) := by
  unfold val_main_call2_v13
  rw [Cert.RefGather.gather_apply]
  exact congrArg (fun w : BitVec 32 => val_main_v4 (F := Ideal) x0 x1 x4 (ix3 b t ⟨min w.toInt.toNat 31999, by omega⟩))
    (c2v5_eq x2 b t)

/-- The picked entry of a token with an admissible target. -/
theorem v10_eq (b : Fin 4) (t : Fin 1024) (h : Admissible (x2 (ix2 b t))) :
    val_main_v10 (F := Ideal) x0 x1 x2 x4 (ix2 b t)
      = val_main_v4 (F := Ideal) x0 x1 x4 (ix3 b t ⟨min (wrapW (safeW (x2 (ix2 b t)))).toInt.toNat 31999, by omega⟩) := by
  have e : idx_main_v10 (ix2 b t) = ix3 b t (0 : Fin 1) := funext fun a => Fin.ext (by
    have hb : b.val < 4 := b.isLt
    have ht : t.val < 1024 := t.isLt
    match a with
    | ⟨0, _⟩ => show (b.val * 1024 + t.val) / 1024 = b.val; omega
    | ⟨1, _⟩ => show (b.val * 1024 + t.val) / 1 % 1024 = t.val; omega
    | ⟨2, _⟩ => rfl)
  rw [val_main_v10_apply, e, val_main_v9_apply, c2v12_eq x2 b t h, ValueIdx.select_one, c2v13_eq]

/-- The mask as a float. -/
theorem v11_eq (b : Fin 4) (t : Fin 1024) : val_main_v11 (F := Ideal) x2 (ix2 b t) = tokMask x2 b t := by
  rw [val_main_v11_apply, val_main_v6_apply, val_main_v5_apply, val_main_c_apply, ne_word]
  unfold tokMask
  by_cases h : x2 (ix2 b t) = ignoreW
  · rw [if_pos h, if_pos h]
    show (((0#1 : BitVec 1).toNat : ℝ) : EReal) = 0
    simp
  · rw [if_neg h, if_neg h]
    show (((1#1 : BitVec 1).toNat : ℝ) : EReal) = 1
    simp

/-- THE TOKEN'S TERM. -/
theorem v12_eq (hx : ∀ i, ∃ r : ℝ, x0 i = (r : EReal)) (hw : ∀ i, ∃ r : ℝ, x1 i = (r : EReal)) (hb : ∀ i, ∃ r : ℝ, x4 i = (r : EReal))
    (b : Fin 4) (t : Fin 1024) (h : Admissible (x2 (ix2 b t))) :
    val_main_v12 (F := Ideal) x0 x1 x2 x4 (ix2 b t) = tokTerm x0 x1 x4 x2 b t := by
  rw [val_main_v12_apply, v11_eq, v10_eq x0 x1 x4 x2 b t h, Ideal.mulf_def]
  unfold tokTerm tokMask
  by_cases hne : x2 (ix2 b t) = ignoreW
  · rw [if_pos hne, if_pos hne]; exact mul_zero _
  · rw [if_neg hne, if_neg hne, mul_one, Cert.RefLogp.v4_eq x0 x1 x4 hx hw hb]
    have ec : (⟨min (wrapW (safeW (x2 (ix2 b t)))).toInt.toNat 31999, by omega⟩ : Fin 32000) = classOf (x2 (ix2 b t)) :=
      Fin.ext (clamp_target h hne)
    rw [ec]
    rfl

end Cert.RefPick

end
-- ==== Proof.RefCount.lean ====
/-
  Counting: the number of counted tokens of a row, as the integer sum of the widened compare bits
  converted to a float, is the sum over the row of one per set bit.
-/
import Idealize.ShloMosaic.PureOps.Ideal
import Idealize.ShloMosaic.Lib.ValueIdx
import Idealize.ShloMosaic.Lib.StableHlo.Predicate

noncomputable section

namespace Cert.RefCount

open Idealize.ShloMosaic Idealize.ShloMosaic.ValueIdx Idealize.ShloMosaic.StableHlo

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones over the indices with a property counts them. -/
theorem sum_ones {n : ℕ} (p : Fin n → Prop) [DecidablePred p] :
    ∑ t : Fin n, (if p t then (1 : EReal) else 0) = (((Finset.univ.filter p).card : ℝ) : EReal) := by
  have h : ∀ t : Fin n, (if p t then (1 : EReal) else 0) = (((if p t then (1 : ℝ) else 0) : ℝ) : EReal) := fun t => by
    split <;> simp
  rw [Finset.sum_congr rfl (fun t _ => h t), ← coe_sum, Finset.sum_boole]

/-- The integer sum of a row's widened bits, converted, is the sum of one per set bit. -/
theorem count_row (mask : IVec ⟨2, ![4, 1024]⟩ 1) (hw : 1 < 32)
    (h : (⟨2, ![4, 1024]⟩ : Shape).ReducesTo [1] ⟨1, ![4]⟩) {u : Shape} (hu : 0 < u.numel) (j : (⟨1, ![4]⟩ : Shape).Idx) :
    FloatOps.sitofp (F := Ideal) .f32 (Host.reduce IntOp.addi (extui 32 mask hw) (constantI u 32 0#32) h hu j)
      = ∑ t : Fin 1024, (if mask (ix2 (j 0) t) = 1#1 then (1 : EReal) else 0) := by
  have hc := Predicate.toNat_reduce_count_cols (n := 4) (m := 1024) (by norm_num) mask hw h hu j
  have hle : (Finset.univ.filter (fun q : Fin 1024 => mask (Predicate.ij (j 0) q) = 1#1)).card ≤ 1024 :=
    (Finset.card_le_univ _).trans (by simp)
  have hij : ∀ q : Fin 1024, Predicate.ij (j 0) q = ix2 (j 0) q := fun q => by
    funext a; match a with | ⟨0, _⟩ => rfl | ⟨1, _⟩ => rfl
  have hfilt : (Finset.univ.filter (fun q : Fin 1024 => mask (Predicate.ij (j 0) q) = 1#1))
      = Finset.univ.filter (fun q : Fin 1024 => mask (ix2 (j 0) q) = 1#1) :=
    Finset.filter_congr (fun q _ => iff_of_eq (congrArg (fun z => mask z = 1#1) (hij q)))
  rw [sum_ones, ← hfilt]
  generalize Host.reduce IntOp.addi (extui 32 mask hw) (constantI u 32 0#32) h hu j = w at hc ⊢
  show (((w.toInt : ℤ) : ℝ) : EReal) = _
  rw [Predicate.toInt_eq_toNat_of_lt (by rw [hc]; omega), hc]
  norm_cast

end Cert.RefCount

end
-- ==== Proof.RefAvg.lean ====
/-
  The row means of the reference: the sum over the row of the tokens' terms divided by the number of
  counted tokens.
-/
import proofs.«422609_j60095182405792_3_alg».proof.Proof.RefReadP
import proofs.«422609_j60095182405792_3_alg».proof.Proof.RefPick
import proofs.«422609_j60095182405792_3_alg».proof.Proof.RefCount

noncomputable section

namespace Cert.RefAvg

open Idealize.ShloMosaic Idealize.ShloMosaic.ValueIdx Cert.ReferenceIdeal Cert.ReferenceIdeal.Gen Cert.ReferenceIdeal.ReadP
open Cert.Spec (tokTerm tokMask avgLogp ignoreW Admissible)
open Cert.RefWords

variable (x0 : (⟨S4x1024x2048, .f32⟩ : BufTy).Contents (Elt Ideal)) (x1 : (⟨S32000x2048, .f32⟩ : BufTy).Contents (Elt Ideal)) (x4 : (⟨S32000, .f32⟩ : BufTy).Contents (Elt Ideal)) (x2 : (⟨S4x1024, .i32⟩ : BufTy).Contents (Elt Ideal))

/-- The numerator of a row. -/
theorem v13_eq (hx : ∀ i, ∃ r : ℝ, x0 i = (r : EReal)) (hw : ∀ i, ∃ r : ℝ, x1 i = (r : EReal)) (hb : ∀ i, ∃ r : ℝ, x4 i = (r : EReal))
    (htg : ∀ i, Admissible (x2 i)) (b : Fin 4) :
    val_main_v13 (F := Ideal) x0 x1 x2 x4 (ix1 b) = 0 + ∑ t : Fin 1024, tokTerm x0 x1 x4 x2 b t := by
  have e : ∀ k : Fin 1024, idx_main_v13 (ix1 b) k = ix2 b k := fun k => funext fun a => by
    match a with | ⟨0, _⟩ => rfl | ⟨1, _⟩ => rfl
  rw [val_main_v13_apply, val_main_cst_apply, Ideal.ofBits_def, Ideal.ofBits_zero_f32]
  refine congrArg (0 + ·) (Finset.sum_congr rfl fun t _ => ?_)
  rw [e t]
  exact Cert.RefPick.v12_eq x0 x1 x4 x2 hx hw hb b t (htg (ix2 b t))

/-- The denominator of a row. -/
theorem v16_eq (b : Fin 4) : val_main_v16 (F := Ideal) x2 (ix1 b) = ∑ t : Fin 1024, tokMask x2 b t := by
  rw [val_main_v16_apply]
  unfold val_main_v15 val_main_v14 val_main_c_1
  rw [Cert.RefCount.count_row (val_main_v6 (F := Ideal) x2) _ _ _ (ix1 b)]
  refine Finset.sum_congr rfl fun t _ => ?_
  show (if val_main_v6 (F := Ideal) x2 (ix2 b t) = 1#1 then (1 : EReal) else 0) = tokMask x2 b t
  rw [val_main_v6_apply, val_main_v5_apply, val_main_c_apply, ne_word]
  unfold tokMask
  by_cases h : x2 (ix2 b t) = ignoreW
  · rw [if_pos h, if_pos h, if_neg (by decide)]
  · rw [if_neg h, if_neg h, if_pos rfl]

/-- THE ROW MEANS of the first projection. -/
theorem v17_eq (hx : ∀ i, ∃ r : ℝ, x0 i = (r : EReal)) (hw : ∀ i, ∃ r : ℝ, x1 i = (r : EReal)) (hb : ∀ i, ∃ r : ℝ, x4 i = (r : EReal))
    (htg : ∀ i, Admissible (x2 i)) :
    val_main_v17 (F := Ideal) x0 x1 x2 x4 = avgLogp x0 x1 x4 x2 := by
  funext i
  obtain ⟨b, rfl⟩ : ∃ b : Fin 4, i = ix1 b := ⟨i 0, eq_ix1 i⟩
  rw [val_main_v17_apply, v13_eq x0 x1 x4 x2 hx hw hb htg, v16_eq, zero_add]
  rfl

/-- The second projection is the same operations on its own arguments. -/
theorem v35_eq_v17 (x5 : (⟨S4x1024x2048, .f32⟩ : BufTy).Contents (Elt Ideal)) (x6 : (⟨S32000x2048, .f32⟩ : BufTy).Contents (Elt Ideal)) (x7 : (⟨S32000, .f32⟩ : BufTy).Contents (Elt Ideal)) :
    val_main_v35 (F := Ideal) x2 x5 x6 x7 = val_main_v17 (F := Ideal) x5 x6 x2 x7 := rfl

end Cert.RefAvg

end
-- ==== Proof.RefTail.lean ====
/-
  The scalar tail of the reference: from the difference of the two projections' row means on, its
  operations are the specification's three scalars of that difference.
-/
import proofs.«422609_j60095182405792_3_alg».proof.Proof.RefReadP
import proofs.«422609_j60095182405792_3_alg».proof.Proof.Spec

noncomputable section

namespace Cert.RefTail

open Idealize.ShloMosaic Cert.ReferenceIdeal Cert.ReferenceIdeal.Gen Cert.ReferenceIdeal.ReadP

variable (x0 : (⟨S4x1024x2048, .f32⟩ : BufTy).Contents (Elt Ideal)) (x1 : (⟨S32000x2048, .f32⟩ : BufTy).Contents (Elt Ideal)) (x2 : (⟨S4x1024, .i32⟩ : BufTy).Contents (Elt Ideal)) (x3 : (⟨S4, .i1⟩ : BufTy).Contents (Elt Ideal)) (x4 : (⟨S32000, .f32⟩ : BufTy).Contents (Elt Ideal)) (x5 : (⟨S4x1024x2048, .f32⟩ : BufTy).Contents (Elt Ideal)) (x6 : (⟨S32000x2048, .f32⟩ : BufTy).Contents (Elt Ideal)) (x7 : (⟨S32000, .f32⟩ : BufTy).Contents (Elt Ideal))

/-- The loss. -/
theorem v63_eq :
    val_main_v63 (F := Ideal) x0 x1 x2 x3 x4 x5 x6 x7
      = Cert.Spec.loss bcast_S_S4 reducesTo_S4_S_d0 h_S_ x3
          (subf (val_main_v17 (F := Ideal) x0 x1 x2 x4) (val_main_v35 (F := Ideal) x2 x5 x6 x7)) := by
  unfold val_main_v63 val_main_v62 val_main_v61 val_main_v48 val_main_v47 val_main_v46 val_main_v45 val_main_v44 val_main_v43
    val_main_v42 val_main_v41 val_main_v40 val_main_v39 val_main_v38 val_main_v37 val_main_v60 val_main_v59 val_main_v58
    val_main_v57 val_main_v56 val_main_v55 val_main_v54 val_main_v53 val_main_v52 val_main_v51 val_main_v50 val_main_v49
    val_main_v36
  generalize val_main_v17 (F := Ideal) x0 x1 x2 x4 = A
  generalize val_main_v35 (F := Ideal) x2 x5 x6 x7 = B
  rfl

/-- The sum of the rewards of the rows labelled 1. -/
theorem v67_eq :
    val_main_v67 (F := Ideal) x0 x1 x2 x3 x4 x5 x6 x7
      = Cert.Spec.chosenSum bcast_S_S4 reducesTo_S4_S_d0 h_S_ x3
          (subf (val_main_v17 (F := Ideal) x0 x1 x2 x4) (val_main_v35 (F := Ideal) x2 x5 x6 x7)) := by
  unfold val_main_v67 val_main_v66 val_main_v65 val_main_v64 val_main_call7_v1 val_main_call7_v0 val_main_v36
  generalize val_main_v17 (F := Ideal) x0 x1 x2 x4 = A
  generalize val_main_v35 (F := Ideal) x2 x5 x6 x7 = B
  rfl

/-- The sum of the rewards of the rows labelled 0. -/
theorem v69_eq :
    val_main_v69 (F := Ideal) x0 x1 x2 x3 x4 x5 x6 x7
      = Cert.Spec.rejectedSum bcast_S_S4 reducesTo_S4_S_d0 h_S_ x3
          (subf (val_main_v17 (F := Ideal) x0 x1 x2 x4) (val_main_v35 (F := Ideal) x2 x5 x6 x7)) := by
  unfold val_main_v69 val_main_v68 val_main_v65 val_main_v64 val_main_call8_v1 val_main_call8_v0 val_main_v36
  generalize val_main_v17 (F := Ideal) x0 x1 x2 x4 = A
  generalize val_main_v35 (F := Ideal) x2 x5 x6 x7 = B
  rfl

end Cert.RefTail

end
-- ==== Proof.RefValue.lean ====
/-
  The reference's value: its three results are the specification's scalars of its arguments.
-/
import proofs.«422609_j60095182405792_3_alg».proof.Proof.RefReadP
import proofs.«422609_j60095182405792_3_alg».proof.Proof.PreDecode
import proofs.«422609_j60095182405792_3_alg».proof.Proof.OnlineLse
import proofs.«422609_j60095182405792_3_alg».proof.Proof.RefAvg
import proofs.«422609_j60095182405792_3_alg».proof.Proof.RefTail

noncomputable section

namespace Cert.RefValue

open Idealize.ShloMosaic Idealize.ShloMosaic.TcCoe Idealize.SL.Sem Cert.Spec
open Cert.ReferenceIdeal Cert.ReferenceIdeal.Facts₀

variable [Cert.ReferenceIdeal.Facts]

/-- The reference runs to the end, its results the specification's scalars, its arguments unchanged. -/
theorem run (m : (ℓ : Loc nD τ sig) → Buf (Elt Ideal) ℓ) (ρ : Dev nD → PrngReg)
    (hd : ∀ c : Dev nD, Cert.PreDecode.Decoded (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7))) :
    θ_run (defs (F := Ideal)) (onTc (τ := τ) (main (F := Ideal))) ⟨m, fun _ => 0, ρ⟩ (fun r => ∀ c : Dev nD,
      r.2.mem ((c.tc : Thread nD τ).loc main_v63)
          = Cert.Spec.loss bcast_S_S4 reducesTo_S4_S_d0 h_S_ (m ((c.tc : Thread nD τ).loc main_arg3))
              (logratios (m ((c.tc : Thread nD τ).loc main_arg0)) (m ((c.tc : Thread nD τ).loc main_arg1)) (m ((c.tc : Thread nD τ).loc main_arg4))
                (m ((c.tc : Thread nD τ).loc main_arg5)) (m ((c.tc : Thread nD τ).loc main_arg6)) (m ((c.tc : Thread nD τ).loc main_arg7))
                (m ((c.tc : Thread nD τ).loc main_arg2)))
      ∧ r.2.mem ((c.tc : Thread nD τ).loc main_v67)
          = Cert.Spec.chosenSum bcast_S_S4 reducesTo_S4_S_d0 h_S_ (m ((c.tc : Thread nD τ).loc main_arg3))
              (logratios (m ((c.tc : Thread nD τ).loc main_arg0)) (m ((c.tc : Thread nD τ).loc main_arg1)) (m ((c.tc : Thread nD τ).loc main_arg4))
                (m ((c.tc : Thread nD τ).loc main_arg5)) (m ((c.tc : Thread nD τ).loc main_arg6)) (m ((c.tc : Thread nD τ).loc main_arg7))
                (m ((c.tc : Thread nD τ).loc main_arg2)))
      ∧ r.2.mem ((c.tc : Thread nD τ).loc main_v69)
          = Cert.Spec.rejectedSum bcast_S_S4 reducesTo_S4_S_d0 h_S_ (m ((c.tc : Thread nD τ).loc main_arg3))
              (logratios (m ((c.tc : Thread nD τ).loc main_arg0)) (m ((c.tc : Thread nD τ).loc main_arg1)) (m ((c.tc : Thread nD τ).loc main_arg4))
                (m ((c.tc : Thread nD τ).loc main_arg5)) (m ((c.tc : Thread nD τ).loc main_arg6)) (m ((c.tc : Thread nD τ).loc main_arg7))
                (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_) (Cert.ReferenceIdeal.ValueP.run (F := Ideal) m ρ)
  obtain ⟨h63, h67, h69, hrest⟩ := h c
  have hdc := hd c
  have e17 := Cert.RefAvg.v17_eq _ _ _ _ hdc.x hdc.w hdc.bias hdc.tg
  have e35 := (Cert.RefAvg.v35_eq_v17 (m ((c.tc : Thread nD τ).loc main_arg2)) (m ((c.tc : Thread nD τ).loc main_arg5))
    (m ((c.tc : Thread nD τ).loc main_arg6)) (m ((c.tc : Thread nD τ).loc main_arg7))).trans
      (Cert.RefAvg.v17_eq _ _ _ _ hdc.rx hdc.rw hdc.rbias hdc.tg)
  refine ⟨?_, ?_, ?_, hrest⟩
  · rw [h63, Cert.ReferenceIdeal.ReadP.val_main_v63_eq, Cert.RefTail.v63_eq, e17, e35]
    rfl
  · rw [h67, Cert.ReferenceIdeal.ReadP.val_main_v67_eq, Cert.RefTail.v67_eq, e17, e35]
    rfl
  · rw [h69, Cert.ReferenceIdeal.ReadP.val_main_v69_eq, Cert.RefTail.v69_eq, e17, e35]
    rfl

end Cert.RefValue

end
-- ==== Proof.lean ====
/-
  The kernel computes, for a policy and a reference projection, each token's log-probability of its target class by a
  single pass over the classes in 25 tiles of 1280: it carries a running maximum, a running sum of exponentials
  relative to that maximum and the target's logit, and at the last tile stores the target's logit minus the maximum
  minus the logarithm of the sum. The reference takes the logarithm of the softmax over all 32000 classes at once and
  gathers the target's entry. Over the reals the two agree: rescaling the running sum by e^{M−M'} when the maximum
  moves from M to M' keeps  M + log L  equal to the logarithm of the sum of the exponentials seen so far, whatever
  real the maximum was started at, and subtracting the row's maximum before exponentiating changes nothing either. The
  masked mean over a sequence, the difference of the two projections' means and the three scalars computed from it are
  the same operations on both sides. The precondition says the float arguments are real and every target is the
  ignored label or a class index: outside it the reference's gather wraps or fills, which the kernel's comparison of
  class indices does not reproduce.

  Frames: the two kernel programs run to the end, fault nowhere and leave their arguments as launched (one pallas_call of
  200 grid points, three control cases, three scratch arrays carried between points, host lines before and after);
  the reference's frame is its run with the results dropped.
-/
import proofs.«422609_j60095182405792_3_alg».proof.Defs
import proofs.«422609_j60095182405792_3_alg».proof.Proof.Gen.Kernel
import proofs.«422609_j60095182405792_3_alg».proof.Proof.Gen.KernelIdeal
import proofs.«422609_j60095182405792_3_alg».proof.Proof.Gen.ReferenceIdeal
import proofs.«422609_j60095182405792_3_alg».proof.Proof.Gen.Pre_finite_inputs
import proofs.«422609_j60095182405792_3_alg».proof.Proof.KFrame.Frame
import proofs.«422609_j60095182405792_3_alg».proof.Proof.KiFrame.Frame
import proofs.«422609_j60095182405792_3_alg».proof.Proof.KiValue.Run
import proofs.«422609_j60095182405792_3_alg».proof.Proof.RefValue
import proofs.«422609_j60095182405792_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Fr.frame m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The precondition, decoded at the reference's arguments. -/
theorem decoded_r (m : (ℓ : Loc Cert.ReferenceIdeal.nD Cert.ReferenceIdeal.τ Cert.ReferenceIdeal.sig) → Buf (Elt Ideal) ℓ)
    (h : Cert.Pre_ReferenceIdeal (hPre_finite_inputs := Cert.Pre_finite_inputs.Gen.facts) m) (c : Dev Cert.ReferenceIdeal.nD) :
    Cert.PreDecode.Decoded (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) :=
  Cert.PreDecode.decode _ _ _ _ _ _ _ _ (h c)

/-- The precondition, decoded at the idealized kernel's arguments. -/
theorem decoded_k (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.PreDecode.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  Cert.PreDecode.decode _ _ _ _ _ _ _ _ (h c)

/-- The reference's frame: its run with the results dropped. -/
theorem frame_ri : Cert.frame_ReferenceIdeal (hReferenceIdeal := Cert.ReferenceIdeal.Gen.facts) (hPre_finite_inputs := Cert.Pre_finite_inputs.Gen.facts) :=
  fun m ρ h => (θ_run Cert.ReferenceIdeal.defs _ _).mono (fun _ hr c => (hr c).2.2.2)
    (Cert.RefValue.run m ρ (decoded_r m h))

/-- Both idealized programs end with the specification's three scalars of their arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd' : ∀ c : Dev Cert.ReferenceIdeal.nD, Cert.PreDecode.Decoded (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
    intro c
    obtain ⟨h0, h1, h2, h3, h4, h5, h6, h7⟩ := hagree c
    rw [h0, h1, h2, h4, h5, h6, h7]
    exact decoded_k m hpre c
  refine ⟨_, _, _, Cert.KernelIdeal.Val.run m ρ (decoded_k m hpre), ?_⟩
  refine (θ_run Cert.ReferenceIdeal.defs _ _).mono (fun _ hr c => ?_) (Cert.RefValue.run m' ρ' hd')
  obtain ⟨h0, h1, h2, h3, h4, h5, h6, h7⟩ := hagree c
  obtain ⟨r0, r1, r2, ra⟩ := hr c
  refine ⟨r0.trans ?_, r1.trans ?_, r2.trans ?_, ra⟩
  all_goals (rw [h0, h1, h2, h3, h4, h5, h6, h7])

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
